-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x7 : Shape := ⟨2, ![131072, 7]⟩
abbrev S131072x64 : Shape := ⟨2, ![131072, 64]⟩
abbrev S7 : Shape := ⟨1, ![7]⟩
abbrev S65x32 : Shape := ⟨2, ![65, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S131072x7 : S_.BroadcastsInDim S131072x7 (![] : Fin 0 → Fin S131072x7.rank)
  reducesTo_S131072x7_S_d0_1 : S131072x7.ReducesTo [0, 1] S_
  h_S_ : 0 < S_.numel
  bcast_S_S131072x64 : S_.BroadcastsInDim S131072x64 (![] : Fin 0 → Fin S131072x64.rank)
  reducesTo_S131072x64_S_d0_1 : S131072x64.ReducesTo [0, 1] S_
  bcast_S_S7 : S_.BroadcastsInDim S7 (![] : Fin 0 → Fin S7.rank)
  reducesTo_S7_S_d0 : S7.ReducesTo [0] S_
  bcast_S_S65x32 : S_.BroadcastsInDim S65x32 (![] : Fin 0 → Fin S65x32.rank)
  reducesTo_S65x32_S_d0_1 : S65x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S16x1 .f32) (main_arg8 : FVec F S1 .f32) (main_v33 : IVec S_ 1) : IVec S_ 1 :=
  let main_v34 : FVec F S16x1 .f32 := Host.absf main_arg7
  let main_cst_12 : FVec F S_ .f32 := constant S_ .f32 0x7F800000#32
  let main_v35 : FVec F S16x1 .f32 := broadcastInDim S16x1 ![] bcast_S_S16x1 main_cst_12
  let main_v36 : IVec S16x1 1 := cmpf .olt main_v34 main_v35
  let main_c_13 : IVec S_ 1 := constantI S_ 1 1#1
  let main_v37 : IVec S_ 1 := (fun x v => Host.reduce IntOp.andi x v reducesTo_S16x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S32 .f32) (main_arg5 : FVec F S32x16 .f32) (main_arg6 : FVec F S16 .f32) (main_arg7 : FVec F S16x1 .f32) (main_arg8 : FVec F S1 .f32) (main_v13 : IVec S_ 1) (main_v16 : IVec S65x32 1) : IVec S_ 1 :=
  let main_c_5 : IVec S_ 1 := constantI S_ 1 1#1
  let main_v17 : IVec S_ 1 := (fun x v => Host.reduce IntOp.andi x v reducesTo_S65x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg5
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_v33

def fn {F : FTy → Type} [FloatOps F] (main_arg0 : FVec F S131072x7 .f32) (main_arg1 : FVec F S131072x64 .f32) (main_arg2 : FVec F S7 .f32) (main_arg3 : FVec F S65x32 .f32) (main_arg4 : FVec F S32 .f32) (main_arg5 : FVec F S32x16 .f32) (main_arg6 : FVec F S16 .f32) (main_arg7 : FVec F S16x1 .f32) (main_arg8 : FVec F S1 .f32) : IVec S_ 1 :=
  let main_v0 : FVec F S131072x7 .f32 := Host.absf main_arg0
  let main_cst : FVec F S_ .f32 := constant S_ .f32 0x7F800000#32
  let main_v1 : FVec F S131072x7 .f32 := broadcastInDim S131072x7 ![] bcast_S_S131072x7 main_cst
  let main_v2 : IVec S131072x7 1 := cmpf .olt main_v0 main_v1
  let main_c : IVec S_ 1 := constantI S_ 1 1#1
  let main_v3 : IVec S_ 1 := (fun x v => Host.reduce IntOp.andi x v reducesTo_S131072x7_S_d0_1 h_S_) main_v2 main_c
  let main_v4 : FVec F S131072x64 .f32 := Host.absf main_arg1
  let main_cst_0 : FVec F S_ .f32 := constant S_ .f32 0x7F800000#32
  let main_v5 : FVec F S131072x64 .f32 := broadcastInDim S131072x64 ![] bcast_S_S131072x64 main_cst_0
  let main_v6 : IVec S131072x64 1 := cmpf .olt main_v4 main_v5
  let main_c_1 : IVec S_ 1 := constantI S_ 1 1#1
  let main_v7 : IVec S_ 1 := (fun x v => Host.reduce IntOp.andi x v reducesTo_S131072x64_S_d0_1 h_S_) main_v6 main_c_1
  let main_v8 : IVec S_ 1 := andi main_v3 main_v7
  let main_v9 : FVec F S7 .f32 := Host.absf main_arg2
  let main_cst_2 : FVec F S_ .f32 := constant S_ .f32 0x7F800000#32
  let main_v10 : FVec F S7 .f32 := broadcastInDim S7 ![] bcast_S_S7 main_cst_2
  let main_v11 : IVec S7 1 := cmpf .olt main_v9 main_v10
  let main_c_3 : IVec S_ 1 := constantI S_ 1 1#1
  let main_v12 : IVec S_ 1 := (fun x v => Host.reduce IntOp.andi x v reducesTo_S7_S_d0 h_S_) main_v11 main_c_3
  let main_v13 : IVec S_ 1 := andi main_v8 main_v12
  let main_v14 : FVec F S65x32 .f32 := Host.absf main_arg3
  let main_cst_4 : FVec F S_ .f32 := constant S_ .f32 0x7F800000#32
  let main_v15 : FVec F S65x32 .f32 := broadcastInDim S65x32 ![] bcast_S_S65x32 main_cst_4
  let main_v16 : IVec S65x32 1 := cmpf .olt main_v14 main_v15
  fn_part1 (F := F) main_arg4 main_arg5 main_arg6 main_arg7 main_arg8 main_v13 main_v16
-- ==== Kernel.lean ====
abbrev S131072x7 : Shape := ⟨2, ![131072, 7]⟩
abbrev S131072x64 : Shape := ⟨2, ![131072, 64]⟩
abbrev S7 : Shape := ⟨1, ![7]⟩
abbrev S65x32 : Shape := ⟨2, ![65, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S128 : Shape := ⟨1, ![128]⟩
abbrev S1x128 : Shape := ⟨2, ![1, 128]⟩
abbrev S1x7 : Shape := ⟨2, ![1, 7]⟩
abbrev S1x32 : Shape := ⟨2, ![1, 32]⟩
abbrev S1x16 : Shape := ⟨2, ![1, 16]⟩
abbrev S1x1 : Shape := ⟨2, ![1, 1]⟩
abbrev S131072x1 : Shape := ⟨2, ![131072, 1]⟩
abbrev S4096x7 : Shape := ⟨2, ![4096, 7]⟩
abbrev S4096x64 : Shape := ⟨2, ![4096, 64]⟩
abbrev S4096x1 : Shape := ⟨2, ![4096, 1]⟩
abbrev S4096 : Shape := ⟨1, ![4096]⟩
abbrev S4096x2 : Shape := ⟨2, ![4096, 2]⟩
abbrev S4096x2x1 : Shape := ⟨3, ![4096, 2, 1]⟩
abbrev S4096x1x2 : Shape := ⟨3, ![4096, 1, 2]⟩
abbrev S4096x2x2 : Shape := ⟨3, ![4096, 2, 2]⟩
abbrev S4096x4 : Shape := ⟨2, ![4096, 4]⟩
abbrev S4096x4x1 : Shape := ⟨3, ![4096, 4, 1]⟩
abbrev S4096x4x2 : Shape := ⟨3, ![4096, 4, 2]⟩
abbrev S4096x8 : Shape := ⟨2, ![4096, 8]⟩
abbrev S4096x8x1 : Shape := ⟨3, ![4096, 8, 1]⟩
abbrev S4096x8x2 : Shape := ⟨3, ![4096, 8, 2]⟩
abbrev S4096x16 : Shape := ⟨2, ![4096, 16]⟩
abbrev S4096x16x1 : Shape := ⟨3, ![4096, 16, 1]⟩
abbrev S4096x16x2 : Shape := ⟨3, ![4096, 16, 2]⟩
abbrev S4096x32 : Shape := ⟨2, ![4096, 32]⟩
abbrev S4096x32x1 : Shape := ⟨3, ![4096, 32, 1]⟩
abbrev S4096x32x2 : Shape := ⟨3, ![4096, 32, 2]⟩
abbrev S4096x64x1 : Shape := ⟨3, ![4096, 64, 1]⟩
abbrev S4096x64x2 : Shape := ⟨3, ![4096, 64, 2]⟩
abbrev S4096x128 : Shape := ⟨2, ![4096, 128]⟩
abbrev S64x32 : Shape := ⟨2, ![64, 32]⟩
abbrev S131072 : Shape := ⟨1, ![131072]⟩

abbrev nBuf : Space → Nat
  | .hbm => 17
  | .vmem => 14
  | .smem => 0
  | _ => 0

abbrev bufTy : (tb : Table) → Fin (tcTables nBuf tb) → BufTy
  | .hbm, ⟨0, _⟩ => ⟨S131072x7, .f32⟩
  | .hbm, ⟨1, _⟩ => ⟨S131072x64, .f32⟩
  | .hbm, ⟨2, _⟩ => ⟨S7, .f32⟩
  | .hbm, ⟨3, _⟩ => ⟨S65x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S16x1, .f32⟩
  | .hbm, ⟨8, _⟩ => ⟨S1, .f32⟩
  | .hbm, ⟨9, _⟩ => ⟨S128, .f32⟩
  | .hbm, ⟨10, _⟩ => ⟨S1x128, .f32⟩
  | .hbm, ⟨11, _⟩ => ⟨S1x7, .f32⟩
  | .hbm, ⟨12, _⟩ => ⟨S1x32, .f32⟩
  | .hbm, ⟨13, _⟩ => ⟨S1x16, .f32⟩
  | .hbm, ⟨14, _⟩ => ⟨S1x1, .f32⟩
  | .hbm, ⟨15, _⟩ => ⟨S131072x1, .f32⟩
  | .hbm, ⟨16, _⟩ => ⟨S131072, .f32⟩
  | .local _ .vmem, ⟨0, _⟩ => ⟨S4096x7, .f32⟩
  | .local _ .vmem, ⟨1, _⟩ => ⟨S4096x7, .f32⟩
  | .local _ .vmem, ⟨2, _⟩ => ⟨S4096x64, .f32⟩
  | .local _ .vmem, ⟨3, _⟩ => ⟨S4096x64, .f32⟩
  | .local _ .vmem, ⟨4, _⟩ => ⟨S1x7, .f32⟩
  | .local _ .vmem, ⟨5, _⟩ => ⟨S1x128, .f32⟩
  | .local _ .vmem, ⟨6, _⟩ => ⟨S65x32, .f32⟩
  | .local _ .vmem, ⟨7, _⟩ => ⟨S1x32, .f32⟩
  | .local _ .vmem, ⟨8, _⟩ => ⟨S32x16, .f32⟩
  | .local _ .vmem, ⟨9, _⟩ => ⟨S1x16, .f32⟩
  | .local _ .vmem, ⟨10, _⟩ => ⟨S16x1, .f32⟩
  | .local _ .vmem, ⟨11, _⟩ => ⟨S1x1, .f32⟩
  | .local _ .vmem, ⟨12, _⟩ => ⟨S4096x1, .f32⟩
  | .local _ .vmem, ⟨13, _⟩ => ⟨S4096x1, .f32⟩
  | _, _ => ⟨S131072x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S65x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4096x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S128_S1x128 : S128.ShapeCasts S1x128
  shapeCasts_S7_S1x7 : S7.ShapeCasts S1x7
  shapeCasts_S32_S1x32 : S32.ShapeCasts S1x32
  shapeCasts_S16_S1x16 : S16.ShapeCasts S1x16
  shapeCasts_S1_S1x1 : S1.ShapeCasts S1x1
  inb_S4096x7_S4096x7_0_0 : ∀ a, (![0, 0] : Fin 2 → Nat) a + S4096x7.size a ≤ S4096x7.size a
  h_S4096x7 : 0 < S4096x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S4096x7 : S1x7.Broadcasts S4096x7
  slices_S4096x7_o0_0_S4096x1 : S4096x7.Slices ![0, 0] S4096x1
  shapeCasts_S4096x1_S4096 : S4096x1.ShapeCasts S4096
  shapeCasts_S4096_S4096x1 : S4096.ShapeCasts S4096x1
  concatenates_S4096x1_S4096x1_S4096x2_d1 : Shape.Concatenates [S4096x1, S4096x1] S4096x2 1
  slices_S4096x7_o0_1_S4096x1 : S4096x7.Slices ![0, 1] S4096x1
  shapeCasts_S4096x2_S4096x2x1 : S4096x2.ShapeCasts S4096x2x1
  shapeCasts_S4096x2_S4096x1x2 : S4096x2.ShapeCasts S4096x1x2
  broadcasts_S4096x2x1_S4096x2x2 : S4096x2x1.Broadcasts S4096x2x2
  broadcasts_S4096x1x2_S4096x2x2 : S4096x1x2.Broadcasts S4096x2x2
  shapeCasts_S4096x2x2_S4096x4 : S4096x2x2.ShapeCasts S4096x4
  slices_S4096x7_o0_2_S4096x1 : S4096x7.Slices ![0, 2] S4096x1
  shapeCasts_S4096x4_S4096x4x1 : S4096x4.ShapeCasts S4096x4x1
  broadcasts_S4096x4x1_S4096x4x2 : S4096x4x1.Broadcasts S4096x4x2
  broadcasts_S4096x1x2_S4096x4x2 : S4096x1x2.Broadcasts S4096x4x2
  shapeCasts_S4096x4x2_S4096x8 : S4096x4x2.ShapeCasts S4096x8
  slices_S4096x7_o0_3_S4096x1 : S4096x7.Slices ![0, 3] S4096x1
  shapeCasts_S4096x8_S4096x8x1 : S4096x8.ShapeCasts S4096x8x1
  broadcasts_S4096x8x1_S4096x8x2 : S4096x8x1.Broadcasts S4096x8x2
  broadcasts_S4096x1x2_S4096x8x2 : S4096x1x2.Broadcasts S4096x8x2
  shapeCasts_S4096x8x2_S4096x16 : S4096x8x2.ShapeCasts S4096x16
  slices_S4096x7_o0_4_S4096x1 : S4096x7.Slices ![0, 4] S4096x1
  shapeCasts_S4096x16_S4096x16x1 : S4096x16.ShapeCasts S4096x16x1
  broadcasts_S4096x16x1_S4096x16x2 : S4096x16x1.Broadcasts S4096x16x2
  broadcasts_S4096x1x2_S4096x16x2 : S4096x1x2.Broadcasts S4096x16x2
  shapeCasts_S4096x16x2_S4096x32 : S4096x16x2.ShapeCasts S4096x32
  slices_S4096x7_o0_5_S4096x1 : S4096x7.Slices ![0, 5] S4096x1
  shapeCasts_S4096x32_S4096x32x1 : S4096x32.ShapeCasts S4096x32x1
  broadcasts_S4096x32x1_S4096x32x2 : S4096x32x1.Broadcasts S4096x32x2
  broadcasts_S4096x1x2_S4096x32x2 : S4096x1x2.Broadcasts S4096x32x2
  shapeCasts_S4096x32x2_S4096x64 : S4096x32x2.ShapeCasts S4096x64
  slices_S4096x7_o0_6_S4096x1 : S4096x7.Slices ![0, 6] S4096x1
  shapeCasts_S4096x64_S4096x64x1 : S4096x64.ShapeCasts S4096x64x1
  broadcasts_S4096x64x1_S4096x64x2 : S4096x64x1.Broadcasts S4096x64x2
  broadcasts_S4096x1x2_S4096x64x2 : S4096x1x2.Broadcasts S4096x64x2
  shapeCasts_S4096x64x2_S4096x128 : S4096x64x2.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  reduces_S4096x128_S4096 : S4096x128.Reduces [1] S4096
  inb_S4096x64_S4096x64_0_0 : ∀ a, (![0, 0] : Fin 2 → Nat) a + S4096x64.size a ≤ S4096x64.size a
  h_S4096x64 : 0 < S4096x64.numel
  inb_S65x32_S65x32_0_0 : ∀ a, (![0, 0] : Fin 2 → Nat) a + S65x32.size a ≤ S65x32.size a
  h_S65x32 : 0 < S65x32.numel
  slices_S65x32_o0_0_S1x32 : S65x32.Slices ![0, 0] S1x32
  slices_S65x32_o1_0_S64x32 : S65x32.Slices ![1, 0] S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  bitsLt_bf16_f32 : FTy.bits .bf16 < FTy.bits .f32
  broadcasts_S1x32_S4096x32 : S1x32.Broadcasts S4096x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  shapeCasts_S131072x1_S131072 : S131072x1.ShapeCasts S131072
  dot_S4096x1_S1x32_S4096x32_1_0_0_1_n_n_wf : DotDims.WF S4096x1 S1x32 S4096x32 [1] [0] [0] [1] [] []
  dot_S4096x64_S64x32_S4096x32_1_0_0_1_n_n_wf : DotDims.WF S4096x64 S64x32 S4096x32 [1] [0] [0] [1] [] []
  dot_S4096x32_S32x16_S4096x16_1_0_0_1_n_n_wf : DotDims.WF S4096x32 S32x16 S4096x16 [1] [0] [0] [1] [] []
  dot_S4096x16_S16x1_S4096x1_1_0_0_1_n_n_wf : DotDims.WF S4096x16 S16x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x7.size a ≤ S131072x7.size a
  hwx0_0 : ∀ i : grid0.Coords, EltTy.bits .f32 = 32 ∨ (Rect.block (s := S131072x7) S4096x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S131072x64.size a
  hwx0_1 : ∀ i : grid0.Coords, EltTy.bits .f32 = 32 ∨ (Rect.block (s := S131072x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x7.size a ≤ S1x7.size a
  hwx0_2 : ∀ i : grid0.Coords, EltTy.bits .f32 = 32 ∨ (Rect.block (s := S1x7) S1x7.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S65x32.size a ≤ S65x32.size a
  hwx0_4 : ∀ i : grid0.Coords, EltTy.bits .f32 = 32 ∨ (Rect.block (s := S65x32) S65x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x16.size a ≤ S32x16.size a
  hwx0_6 : ∀ i : grid0.Coords, EltTy.bits .f32 = 32 ∨ (Rect.block (s := S32x16) S32x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x16.size a ≤ S1x16.size a
  hwx0_7 : ∀ i : grid0.Coords, EltTy.bits .f32 = 32 ∨ (Rect.block (s := S1x16) S1x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16x1.size a ≤ S16x1.size a
  hwx0_8 : ∀ i : grid0.Coords, EltTy.bits .f32 = 32 ∨ (Rect.block (s := S16x1) S16x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4096x1.size a ≤ S131072x1.size a
  hwx0_10 : ∀ i : grid0.Coords, EltTy.bits .f32 = 32 ∨ (Rect.block (s := S131072x1) S4096x1.size (cc0_transform_10 i) (hinb0_10 i)).WholeWords (EltTy.packing .f32)

variable [Facts₀]

def dot_S4096x1_S1x32_S4096x32_1_0_0_1_n_n : DotDims S4096x1 S1x32 S4096x32 where
  lhsContracting := [1]
  rhsContracting := [0]
  lhsNonContracting := [0]
  rhsNonContracting := [1]
  lhsBatch := []
  rhsBatch := []
  wf := dot_S4096x1_S1x32_S4096x32_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x16_S4096x16_1_0_0_1_n_n : DotDims S4096x32 S32x16 S4096x16 where
  lhsContracting := [1]
  rhsContracting := [0]
  lhsNonContracting := [0]
  rhsNonContracting := [1]
  lhsBatch := []
  rhsBatch := []
  wf := dot_S4096x32_S32x16_S4096x16_1_0_0_1_n_n_wf
def dot_S4096x16_S16x1_S4096x1_1_0_0_1_n_n : DotDims S4096x16 S16x1 S4096x1 where
  lhsContracting := [1]
  rhsContracting := [0]
  lhsNonContracting := [0]
  rhsNonContracting := [1]
  lhsBatch := []
  rhsBatch := []
  wf := dot_S4096x16_S16x1_S4096x1_1_0_0_1_n_n_wf

abbrev win0_0 : Pipeline.Window sig grid0 :=
  Pipeline.Window.ofSpec (Memref.whole main_arg0) S4096x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x7.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S65x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S32x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S16x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S4096x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S131072x7 : Shape := ⟨2, ![131072, 7]⟩
abbrev S131072x64 : Shape := ⟨2, ![131072, 64]⟩
abbrev S7 : Shape := ⟨1, ![7]⟩
abbrev S65x32 : Shape := ⟨2, ![65, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x7 : Shape := ⟨2, ![1, 7]⟩
abbrev S_ : Shape := ⟨0, ![]⟩
abbrev S131072x7x1 : Shape := ⟨3, ![131072, 7, 1]⟩
abbrev S131072x7x2 : Shape := ⟨3, ![131072, 7, 2]⟩
abbrev S131072x1x2 : Shape := ⟨3, ![131072, 1, 2]⟩
abbrev S131072x2 : Shape := ⟨2, ![131072, 2]⟩
abbrev S131072x2x1 : Shape := ⟨3, ![131072, 2, 1]⟩
abbrev S131072x2x2 : Shape := ⟨3, ![131072, 2, 2]⟩
abbrev S131072x4 : Shape := ⟨2, ![131072, 4]⟩
abbrev S131072x4x1 : Shape := ⟨3, ![131072, 4, 1]⟩
abbrev S131072x4x2 : Shape := ⟨3, ![131072, 4, 2]⟩
abbrev S131072x8 : Shape := ⟨2, ![131072, 8]⟩
abbrev S131072x8x1 : Shape := ⟨3, ![131072, 8, 1]⟩
abbrev S131072x8x2 : Shape := ⟨3, ![131072, 8, 2]⟩
abbrev S131072x16 : Shape := ⟨2, ![131072, 16]⟩
abbrev S131072x16x1 : Shape := ⟨3, ![131072, 16, 1]⟩
abbrev S131072x16x2 : Shape := ⟨3, ![131072, 16, 2]⟩
abbrev S131072x32 : Shape := ⟨2, ![131072, 32]⟩
abbrev S131072x32x1 : Shape := ⟨3, ![131072, 32, 1]⟩
abbrev S131072x32x2 : Shape := ⟨3, ![131072, 32, 2]⟩
abbrev S131072x64x1 : Shape := ⟨3, ![131072, 64, 1]⟩
abbrev S131072x64x2 : Shape := ⟨3, ![131072, 64, 2]⟩
abbrev S131072x128 : Shape := ⟨2, ![131072, 128]⟩
abbrev S131072x2x2x2x2x2x2x2 : Shape := ⟨8, ![131072, 2, 2, 2, 2, 2, 2, 2]⟩
abbrev S131072x1x2x2x2x2x2x2 : Shape := ⟨8, ![131072, 1, 2, 2, 2, 2, 2, 2]⟩
abbrev S131072x2x2x2x2x2x2 : Shape := ⟨7, ![131072, 2, 2, 2, 2, 2, 2]⟩
abbrev S131072x2x64 : Shape := ⟨3, ![131072, 2, 64]⟩
abbrev S131072x1x64 : Shape := ⟨3, ![131072, 1, 64]⟩
abbrev S131072 : Shape := ⟨1, ![131072]⟩
abbrev S131072x1 : Shape := ⟨2, ![131072, 1]⟩
abbrev S131072x65 : Shape := ⟨2, ![131072, 65]⟩
abbrev S1x32 : Shape := ⟨2, ![1, 32]⟩
abbrev S1x16 : Shape := ⟨2, ![1, 16]⟩
abbrev S1x1 : Shape := ⟨2, ![1, 1]⟩

abbrev nBuf : Space → Nat
  | .hbm => 171
  | .vmem => 0
  | .smem => 0
  | _ => 0

abbrev hbmTy0_0 (i : Nat) : BufTy := match i % 128 with
  | 0 => ⟨S131072x7, .f32⟩
  | 1 => ⟨S131072x64, .f32⟩
  | 2 => ⟨S7, .f32⟩
  | 3 => ⟨S65x32, .f32⟩
  | 4 => ⟨S32, .f32⟩
  | 5 => ⟨S32x16, .f32⟩
  | 6 => ⟨S16, .f32⟩
  | 7 => ⟨S16x1, .f32⟩
  | 8 => ⟨S1, .f32⟩
  | 9 => ⟨S1x7, .f32⟩
  | 10 => ⟨S131072x7, .f32⟩
  | 11 => ⟨S131072x7, .f32⟩
  | 12 => ⟨S_, .f32⟩
  | 13 => ⟨S131072x7, .f32⟩
  | 14 => ⟨S131072x7, .f32⟩
  | 15 => ⟨S131072x7, .f32⟩
  | 16 => ⟨S131072x7, .f32⟩
  | 17 => ⟨S131072x7x1, .f32⟩
  | 18 => ⟨S131072x7x1, .f32⟩
  | 19 => ⟨S131072x7x2, .f32⟩
  | 20 => ⟨S131072x1x2, .f32⟩
  | 21 => ⟨S131072x2, .f32⟩
  | 22 => ⟨S131072x2x1, .f32⟩
  | 23 => ⟨S131072x1x2, .f32⟩
  | 24 => ⟨S131072x2, .f32⟩
  | 25 => ⟨S131072x1x2, .f32⟩
  | 26 => ⟨S131072x2x2, .f32⟩
  | 27 => ⟨S131072x2x2, .f32⟩
  | 28 => ⟨S131072x2x2, .f32⟩
  | 29 => ⟨S131072x4, .f32⟩
  | 30 => ⟨S131072x4x1, .f32⟩
  | 31 => ⟨S131072x1x2, .f32⟩
  | 32 => ⟨S131072x2, .f32⟩
  | 33 => ⟨S131072x1x2, .f32⟩
  | 34 => ⟨S131072x4x2, .f32⟩
  | 35 => ⟨S131072x4x2, .f32⟩
  | 36 => ⟨S131072x4x2, .f32⟩
  | 37 => ⟨S131072x8, .f32⟩
  | 38 => ⟨S131072x8x1, .f32⟩
  | 39 => ⟨S131072x1x2, .f32⟩
  | 40 => ⟨S131072x2, .f32⟩
  | 41 => ⟨S131072x1x2, .f32⟩
  | 42 => ⟨S131072x8x2, .f32⟩
  | 43 => ⟨S131072x8x2, .f32⟩
  | 44 => ⟨S131072x8x2, .f32⟩
  | 45 => ⟨S131072x16, .f32⟩
  | 46 => ⟨S131072x16x1, .f32⟩
  | 47 => ⟨S131072x1x2, .f32⟩
  | 48 => ⟨S131072x2, .f32⟩
  | 49 => ⟨S131072x1x2, .f32⟩
  | 50 => ⟨S131072x16x2, .f32⟩
  | 51 => ⟨S131072x16x2, .f32⟩
  | 52 => ⟨S131072x16x2, .f32⟩
  | 53 => ⟨S131072x32, .f32⟩
  | 54 => ⟨S131072x32x1, .f32⟩
  | 55 => ⟨S131072x1x2, .f32⟩
  | 56 => ⟨S131072x2, .f32⟩
  | 57 => ⟨S131072x1x2, .f32⟩
  | 58 => ⟨S131072x32x2, .f32⟩
  | 59 => ⟨S131072x32x2, .f32⟩
  | 60 => ⟨S131072x32x2, .f32⟩
  | 61 => ⟨S131072x64, .f32⟩
  | 62 => ⟨S131072x64x1, .f32⟩
  | 63 => ⟨S131072x1x2, .f32⟩
  | 64 => ⟨S131072x2, .f32⟩
  | 65 => ⟨S131072x1x2, .f32⟩
  | 66 => ⟨S131072x64x2, .f32⟩
  | 67 => ⟨S131072x64x2, .f32⟩
  | 68 => ⟨S131072x64x2, .f32⟩
  | 69 => ⟨S131072x128, .f32⟩
  | 70 => ⟨S131072x2x2x2x2x2x2x2, .f32⟩
  | 71 => ⟨S131072x1x2x2x2x2x2x2, .f32⟩
  | 72 => ⟨S131072x2x2x2x2x2x2, .f32⟩
  | 73 => ⟨S131072x1x2x2x2x2x2x2, .f32⟩
  | 74 => ⟨S131072x1x2x2x2x2x2x2, .f32⟩
  | 75 => ⟨S131072x2x2x2x2x2x2, .f32⟩
  | 76 => ⟨S131072x1x2x2x2x2x2x2, .f32⟩
  | 77 => ⟨S131072x1x2x2x2x2x2x2, .f32⟩
  | 78 => ⟨S131072x2x2x2x2x2x2x2, .f32⟩
  | 79 => ⟨S131072x2x2x2x2x2x2x2, .f32⟩
  | 80 => ⟨S131072x1x2x2x2x2x2x2, .f32⟩
  | 81 => ⟨S131072x2x2x2x2x2x2, .f32⟩
  | 82 => ⟨S131072x1x2x2x2x2x2x2, .f32⟩
  | 83 => ⟨S131072x1x2x2x2x2x2x2, .f32⟩
  | 84 => ⟨S131072x2x2x2x2x2x2, .f32⟩
  | 85 => ⟨S131072x1x2x2x2x2x2x2, .f32⟩
  | 86 => ⟨S131072x1x2x2x2x2x2x2, .f32⟩
  | 87 => ⟨S131072x2x2x2x2x2x2x2, .f32⟩
  | 88 => ⟨S131072x2x2x2x2x2x2x2, .f32⟩
  | 89 => ⟨S131072x2x2x2x2x2x2x2, .f32⟩
  | 90 => ⟨S131072x1x2x2x2x2x2x2, .f32⟩
  | 91 => ⟨S131072x2x2x2x2x2x2, .f32⟩
  | 92 => ⟨S131072x1x2x2x2x2x2x2, .f32⟩
  | 93 => ⟨S131072x1x2x2x2x2x2x2, .f32⟩
  | 94 => ⟨S131072x2x2x2x2x2x2, .f32⟩
  | 95 => ⟨S131072x1x2x2x2x2x2x2, .f32⟩
  | 96 => ⟨S131072x1x2x2x2x2x2x2, .f32⟩
  | 97 => ⟨S131072x2x2x2x2x2x2x2, .f32⟩
  | 98 => ⟨S131072x2x2x2x2x2x2x2, .f32⟩
  | 99 => ⟨S131072x2x2x2x2x2x2x2, .f32⟩
  | 100 => ⟨S131072x1x2x2x2x2x2x2, .f32⟩
  | 101 => ⟨S131072x2x2x2x2x2x2, .f32⟩
  | 102 => ⟨S131072x1x2x2x2x2x2x2, .f32⟩
  | 103 => ⟨S131072x1x2x2x2x2x2x2, .f32⟩
  | 104 => ⟨S131072x2x2x2x2x2x2, .f32⟩
  | 105 => ⟨S131072x1x2x2x2x2x2x2, .f32⟩
  | 106 => ⟨S131072x1x2x2x2x2x2x2, .f32⟩
  | 107 => ⟨S131072x2x2x2x2x2x2x2, .f32⟩
  | 108 => ⟨S131072x2x2x2x2x2x2x2, .f32⟩
  | 109 => ⟨S131072x2x2x2x2x2x2x2, .f32⟩
  | 110 => ⟨S131072x1x2x2x2x2x2x2, .f32⟩
  | 111 => ⟨S131072x2x2x2x2x2x2, .f32⟩
  | 112 => ⟨S131072x1x2x2x2x2x2x2, .f32⟩
  | 113 => ⟨S131072x1x2x2x2x2x2x2, .f32⟩
  | 114 => ⟨S131072x2x2x2x2x2x2, .f32⟩
  | 115 => ⟨S131072x1x2x2x2x2x2x2, .f32⟩
  | 116 => ⟨S131072x1x2x2x2x2x2x2, .f32⟩
  | 117 => ⟨S131072x2x2x2x2x2x2x2, .f32⟩
  | 118 => ⟨S131072x2x2x2x2x2x2x2, .f32⟩
  | 119 => ⟨S131072x2x2x2x2x2x2x2, .f32⟩
  | 120 => ⟨S131072x1x2x2x2x2x2x2, .f32⟩
  | 121 => ⟨S131072x2x2x2x2x2x2, .f32⟩
  | 122 => ⟨S131072x1x2x2x2x2x2x2, .f32⟩
  | 123 => ⟨S131072x1x2x2x2x2x2x2, .f32⟩
  | 124 => ⟨S131072x2x2x2x2x2x2, .f32⟩
  | 125 => ⟨S131072x1x2x2x2x2x2x2, .f32⟩
  | 126 => ⟨S131072x1x2x2x2x2x2x2, .f32⟩
  | 127 => ⟨S131072x2x2x2x2x2x2x2, .f32⟩
  | _ => ⟨S131072x7, .f32⟩

abbrev hbmTy0_1 (i : Nat) : BufTy := match i % 128 with
  | 0 => ⟨S131072x2x2x2x2x2x2x2, .f32⟩
  | 1 => ⟨S131072x2x2x2x2x2x2x2, .f32⟩
  | 2 => ⟨S131072x1x2x2x2x2x2x2, .f32⟩
  | 3 => ⟨S131072x2x2x2x2x2x2, .f32⟩
  | 4 => ⟨S131072x1x2x2x2x2x2x2, .f32⟩
  | 5 => ⟨S131072x1x2x2x2x2x2x2, .f32⟩
  | 6 => ⟨S131072x2x2x2x2x2x2, .f32⟩
  | 7 => ⟨S131072x1x2x2x2x2x2x2, .f32⟩
  | 8 => ⟨S131072x1x2x2x2x2x2x2, .f32⟩
  | 9 => ⟨S131072x2x2x2x2x2x2x2, .f32⟩
  | 10 => ⟨S131072x2x2x2x2x2x2x2, .f32⟩
  | 11 => ⟨S131072x2x64, .f32⟩
  | 12 => ⟨S131072x2x64, .f32⟩
  | 13 => ⟨S131072x1x64, .f32⟩
  | 14 => ⟨S131072x64, .f32⟩
  | 15 => ⟨S_, .f32⟩
  | 16 => ⟨S131072, .f32⟩
  | 17 => ⟨S131072x1x64, .f32⟩
  | 18 => ⟨S131072x64, .f32⟩
  | 19 => ⟨S_, .f32⟩
  | 20 => ⟨S131072, .f32⟩
  | 21 => ⟨S131072, .f32⟩
  | 22 => ⟨S131072x1, .f32⟩
  | 23 => ⟨S131072x65, .f32⟩
  | 24 => ⟨S131072x32, .f32⟩
  | 25 => ⟨S1x32, .f32⟩
  | 26 => ⟨S131072x32, .f32⟩
  | 27 => ⟨S131072x32, .f32⟩
  | 28 => ⟨S_, .f32⟩
  | 29 => ⟨S131072x32, .f32⟩
  | 30 => ⟨S131072x32, .f32⟩
  | 31 => ⟨S131072x16, .f32⟩
  | 32 => ⟨S1x16, .f32⟩
  | 33 => ⟨S131072x16, .f32⟩
  | 34 => ⟨S131072x16, .f32⟩
  | 35 => ⟨S_, .f32⟩
  | 36 => ⟨S131072x16, .f32⟩
  | 37 => ⟨S131072x16, .f32⟩
  | 38 => ⟨S131072x1, .f32⟩
  | 39 => ⟨S1x1, .f32⟩
  | 40 => ⟨S131072x1, .f32⟩
  | 41 => ⟨S131072x1, .f32⟩
  | 42 => ⟨S131072, .f32⟩
  | _ => ⟨S131072x7, .f32⟩

abbrev hbmTy (i : Nat) : BufTy := match i / 128 with
  | 0 => hbmTy0_0 i
  | 1 => hbmTy0_1 i
  | _ => ⟨S131072x7, .f32⟩

abbrev bufTy : (tb : Table) → Fin (tcTables nBuf tb) → BufTy
  | .hbm, ⟨i, _⟩ => hbmTy i
  | _, _ => ⟨S131072x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_cst_0 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_cst_1 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_call0_cst : Ref sig .tc := ⟨.hbm, 156, rfl⟩
abbrev main_call0_v0 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_call1_cst : Ref sig .tc := ⟨.hbm, 163, rfl⟩
abbrev main_call1_v0 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩

abbrev nD : Nat := 1
abbrev τ : Topo := Topo.v7x

variable {F : FTy → Type} [FloatOps F]

class Facts₀ : Prop where
  bcast_S7_S1x7_1 : S7.BroadcastsInDim S1x7 (![1] : Fin 1 → Fin S1x7.rank)
  bcast_S1x7_S131072x7_0_1 : S1x7.BroadcastsInDim S131072x7 (![0, 1] : Fin 2 → Fin S131072x7.rank)
  bcast_S_S131072x7 : S_.BroadcastsInDim S131072x7 (![] : Fin 0 → Fin S131072x7.rank)
  bcast_S131072x7_S131072x7x1_0_1 : S131072x7.BroadcastsInDim S131072x7x1 (![0, 1] : Fin 2 → Fin S131072x7x1.rank)
  concatenates_S131072x7x1_S131072x7x1_S131072x7x2_d2 : Shape.Concatenates [S131072x7x1, S131072x7x1] S131072x7x2 2
  slices_S131072x7x2_S131072x1x2_0_0_0 : S131072x7x2.Slices ![0, 0, 0] S131072x1x2
  shapeCasts_S131072x1x2_S131072x2 : S131072x1x2.ShapeCasts S131072x2
  bcast_S131072x2_S131072x2x1_0_1 : S131072x2.BroadcastsInDim S131072x2x1 (![0, 1] : Fin 2 → Fin S131072x2x1.rank)
  slices_S131072x7x2_S131072x1x2_0_1_0 : S131072x7x2.Slices ![0, 1, 0] S131072x1x2
  bcast_S131072x2_S131072x1x2_0_2 : S131072x2.BroadcastsInDim S131072x1x2 (![0, 2] : Fin 2 → Fin S131072x1x2.rank)
  bcast_S131072x2x1_S131072x2x2_0_1_2 : S131072x2x1.BroadcastsInDim S131072x2x2 (![0, 1, 2] : Fin 3 → Fin S131072x2x2.rank)
  bcast_S131072x1x2_S131072x2x2_0_1_2 : S131072x1x2.BroadcastsInDim S131072x2x2 (![0, 1, 2] : Fin 3 → Fin S131072x2x2.rank)
  shapeCasts_S131072x2x2_S131072x4 : S131072x2x2.ShapeCasts S131072x4
  bcast_S131072x4_S131072x4x1_0_1 : S131072x4.BroadcastsInDim S131072x4x1 (![0, 1] : Fin 2 → Fin S131072x4x1.rank)
  slices_S131072x7x2_S131072x1x2_0_2_0 : S131072x7x2.Slices ![0, 2, 0] S131072x1x2
  bcast_S131072x4x1_S131072x4x2_0_1_2 : S131072x4x1.BroadcastsInDim S131072x4x2 (![0, 1, 2] : Fin 3 → Fin S131072x4x2.rank)
  bcast_S131072x1x2_S131072x4x2_0_1_2 : S131072x1x2.BroadcastsInDim S131072x4x2 (![0, 1, 2] : Fin 3 → Fin S131072x4x2.rank)
  shapeCasts_S131072x4x2_S131072x8 : S131072x4x2.ShapeCasts S131072x8
  bcast_S131072x8_S131072x8x1_0_1 : S131072x8.BroadcastsInDim S131072x8x1 (![0, 1] : Fin 2 → Fin S131072x8x1.rank)
  slices_S131072x7x2_S131072x1x2_0_3_0 : S131072x7x2.Slices ![0, 3, 0] S131072x1x2
  bcast_S131072x8x1_S131072x8x2_0_1_2 : S131072x8x1.BroadcastsInDim S131072x8x2 (![0, 1, 2] : Fin 3 → Fin S131072x8x2.rank)
  bcast_S131072x1x2_S131072x8x2_0_1_2 : S131072x1x2.BroadcastsInDim S131072x8x2 (![0, 1, 2] : Fin 3 → Fin S131072x8x2.rank)
  shapeCasts_S131072x8x2_S131072x16 : S131072x8x2.ShapeCasts S131072x16
  bcast_S131072x16_S131072x16x1_0_1 : S131072x16.BroadcastsInDim S131072x16x1 (![0, 1] : Fin 2 → Fin S131072x16x1.rank)
  slices_S131072x7x2_S131072x1x2_0_4_0 : S131072x7x2.Slices ![0, 4, 0] S131072x1x2
  bcast_S131072x16x1_S131072x16x2_0_1_2 : S131072x16x1.BroadcastsInDim S131072x16x2 (![0, 1, 2] : Fin 3 → Fin S131072x16x2.rank)
  bcast_S131072x1x2_S131072x16x2_0_1_2 : S131072x1x2.BroadcastsInDim S131072x16x2 (![0, 1, 2] : Fin 3 → Fin S131072x16x2.rank)
  shapeCasts_S131072x16x2_S131072x32 : S131072x16x2.ShapeCasts S131072x32
  bcast_S131072x32_S131072x32x1_0_1 : S131072x32.BroadcastsInDim S131072x32x1 (![0, 1] : Fin 2 → Fin S131072x32x1.rank)
  slices_S131072x7x2_S131072x1x2_0_5_0 : S131072x7x2.Slices ![0, 5, 0] S131072x1x2
  bcast_S131072x32x1_S131072x32x2_0_1_2 : S131072x32x1.BroadcastsInDim S131072x32x2 (![0, 1, 2] : Fin 3 → Fin S131072x32x2.rank)
  bcast_S131072x1x2_S131072x32x2_0_1_2 : S131072x1x2.BroadcastsInDim S131072x32x2 (![0, 1, 2] : Fin 3 → Fin S131072x32x2.rank)
  shapeCasts_S131072x32x2_S131072x64 : S131072x32x2.ShapeCasts S131072x64
  bcast_S131072x64_S131072x64x1_0_1 : S131072x64.BroadcastsInDim S131072x64x1 (![0, 1] : Fin 2 → Fin S131072x64x1.rank)
  slices_S131072x7x2_S131072x1x2_0_6_0 : S131072x7x2.Slices ![0, 6, 0] S131072x1x2
  bcast_S131072x64x1_S131072x64x2_0_1_2 : S131072x64x1.BroadcastsInDim S131072x64x2 (![0, 1, 2] : Fin 3 → Fin S131072x64x2.rank)
  bcast_S131072x1x2_S131072x64x2_0_1_2 : S131072x1x2.BroadcastsInDim S131072x64x2 (![0, 1, 2] : Fin 3 → Fin S131072x64x2.rank)
  shapeCasts_S131072x64x2_S131072x128 : S131072x64x2.ShapeCasts S131072x128
  shapeCasts_S131072x128_S131072x2x2x2x2x2x2x2 : S131072x128.ShapeCasts S131072x2x2x2x2x2x2x2
  slices_S131072x2x2x2x2x2x2x2_S131072x1x2x2x2x2x2x2_0_0_0_0_0_0_0_0 : S131072x2x2x2x2x2x2x2.Slices ![0, 0, 0, 0, 0, 0, 0, 0] S131072x1x2x2x2x2x2x2
  shapeCasts_S131072x1x2x2x2x2x2x2_S131072x2x2x2x2x2x2 : S131072x1x2x2x2x2x2x2.ShapeCasts S131072x2x2x2x2x2x2
  slices_S131072x2x2x2x2x2x2x2_S131072x1x2x2x2x2x2x2_0_1_0_0_0_0_0_0 : S131072x2x2x2x2x2x2x2.Slices ![0, 1, 0, 0, 0, 0, 0, 0] S131072x1x2x2x2x2x2x2
  bcast_S131072x2x2x2x2x2x2_S131072x1x2x2x2x2x2x2_0_2_3_4_5_6_7 : S131072x2x2x2x2x2x2.BroadcastsInDim S131072x1x2x2x2x2x2x2 (![0, 2, 3, 4, 5, 6, 7] : Fin 7 → Fin S131072x1x2x2x2x2x2x2.rank)
  concatenates_S131072x1x2x2x2x2x2x2_S131072x1x2x2x2x2x2x2_S131072x2x2x2x2x2x2x2_d1 : Shape.Concatenates [S131072x1x2x2x2x2x2x2, S131072x1x2x2x2x2x2x2] S131072x2x2x2x2x2x2x2 1
  transposes_S131072x2x2x2x2x2x2x2_S131072x2x2x2x2x2x2x2_0_2_3_1_4_5_6_7 : S131072x2x2x2x2x2x2x2.Transposes [0, 2, 3, 1, 4, 5, 6, 7] S131072x2x2x2x2x2x2x2
  transposes_S131072x2x2x2x2x2x2x2_S131072x2x2x2x2x2x2x2_0_3_1_2_4_5_6_7 : S131072x2x2x2x2x2x2x2.Transposes [0, 3, 1, 2, 4, 5, 6, 7] S131072x2x2x2x2x2x2x2
  transposes_S131072x2x2x2x2x2x2x2_S131072x2x2x2x2x2x2x2_0_3_4_1_2_5_6_7 : S131072x2x2x2x2x2x2x2.Transposes [0, 3, 4, 1, 2, 5, 6, 7] S131072x2x2x2x2x2x2x2
  transposes_S131072x2x2x2x2x2x2x2_S131072x2x2x2x2x2x2x2_0_4_5_1_2_3_6_7 : S131072x2x2x2x2x2x2x2.Transposes [0, 4, 5, 1, 2, 3, 6, 7] S131072x2x2x2x2x2x2x2
  transposes_S131072x2x2x2x2x2x2x2_S131072x2x2x2x2x2x2x2_0_3_4_5_1_2_6_7 : S131072x2x2x2x2x2x2x2.Transposes [0, 3, 4, 5, 1, 2, 6, 7] S131072x2x2x2x2x2x2x2
  transposes_S131072x2x2x2x2x2x2x2_S131072x2x2x2x2x2x2x2_0_5_6_1_2_3_4_7 : S131072x2x2x2x2x2x2x2.Transposes [0, 5, 6, 1, 2, 3, 4, 7] S131072x2x2x2x2x2x2x2
  transposes_S131072x2x2x2x2x2x2x2_S131072x2x2x2x2x2x2x2_0_3_4_5_6_1_2_7 : S131072x2x2x2x2x2x2x2.Transposes [0, 3, 4, 5, 6, 1, 2, 7] S131072x2x2x2x2x2x2x2
  transposes_S131072x2x2x2x2x2x2x2_S131072x2x2x2x2x2x2x2_0_6_7_1_2_3_4_5 : S131072x2x2x2x2x2x2x2.Transposes [0, 6, 7, 1, 2, 3, 4, 5] S131072x2x2x2x2x2x2x2
  transposes_S131072x2x2x2x2x2x2x2_S131072x2x2x2x2x2x2x2_0_3_4_5_6_7_1_2 : S131072x2x2x2x2x2x2x2.Transposes [0, 3, 4, 5, 6, 7, 1, 2] S131072x2x2x2x2x2x2x2
  transposes_S131072x2x2x2x2x2x2x2_S131072x2x2x2x2x2x2x2_0_7_1_2_3_4_5_6 : S131072x2x2x2x2x2x2x2.Transposes [0, 7, 1, 2, 3, 4, 5, 6] S131072x2x2x2x2x2x2x2
  transposes_S131072x2x2x2x2x2x2x2_S131072x2x2x2x2x2x2x2_0_2_3_4_5_6_7_1 : S131072x2x2x2x2x2x2x2.Transposes [0, 2, 3, 4, 5, 6, 7, 1] S131072x2x2x2x2x2x2x2
  shapeCasts_S131072x2x2x2x2x2x2x2_S131072x2x64 : S131072x2x2x2x2x2x2x2.ShapeCasts S131072x2x64
  slices_S131072x2x64_S131072x1x64_0_0_0 : S131072x2x64.Slices ![0, 0, 0] S131072x1x64
  shapeCasts_S131072x1x64_S131072x64 : S131072x1x64.ShapeCasts S131072x64
  reducesTo_S131072x64_S131072_d1 : S131072x64.ReducesTo [1] S131072
  h_S_ : 0 < S_.numel
  slices_S131072x2x64_S131072x1x64_0_1_0 : S131072x2x64.Slices ![0, 1, 0] S131072x1x64
  bcast_S131072_S131072x1_0 : S131072.BroadcastsInDim S131072x1 (![0] : Fin 1 → Fin S131072x1.rank)
  concatenates_S131072x1_S131072x64_S131072x65_d1 : Shape.Concatenates [S131072x1, S131072x64] S131072x65 1
  bcast_S32_S1x32_1 : S32.BroadcastsInDim S1x32 (![1] : Fin 1 → Fin S1x32.rank)
  bcast_S1x32_S131072x32_0_1 : S1x32.BroadcastsInDim S131072x32 (![0, 1] : Fin 2 → Fin S131072x32.rank)
  bcast_S_S131072x32 : S_.BroadcastsInDim S131072x32 (![] : Fin 0 → Fin S131072x32.rank)
  bcast_S16_S1x16_1 : S16.BroadcastsInDim S1x16 (![1] : Fin 1 → Fin S1x16.rank)
  bcast_S1x16_S131072x16_0_1 : S1x16.BroadcastsInDim S131072x16 (![0, 1] : Fin 2 → Fin S131072x16.rank)
  bcast_S_S131072x16 : S_.BroadcastsInDim S131072x16 (![] : Fin 0 → Fin S131072x16.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  shapeCasts_S131072x1_S131072 : S131072x1.ShapeCasts S131072
  dot_S131072x65_S65x32_S131072x32_1_0_0_1_n_n_wf : DotDims.WF S131072x65 S65x32 S131072x32 [1] [0] [0] [1] [] []
  dot_S131072x32_S32x16_S131072x16_1_0_0_1_n_n_wf : DotDims.WF S131072x32 S32x16 S131072x16 [1] [0] [0] [1] [] []
  dot_S131072x16_S16x1_S131072x1_1_0_0_1_n_n_wf : DotDims.WF S131072x16 S16x1 S131072x1 [1] [0] [0] [1] [] []

variable [Facts₀]

def dot_S131072x65_S65x32_S131072x32_1_0_0_1_n_n : DotDims S131072x65 S65x32 S131072x32 where
  lhsContracting := [1]
  rhsContracting := [0]
  lhsNonContracting := [0]
  rhsNonContracting := [1]
  lhsBatch := []
  rhsBatch := []
  wf := dot_S131072x65_S65x32_S131072x32_1_0_0_1_n_n_wf
def dot_S131072x32_S32x16_S131072x16_1_0_0_1_n_n : DotDims S131072x32 S32x16 S131072x16 where
  lhsContracting := [1]
  rhsContracting := [0]
  lhsNonContracting := [0]
  rhsNonContracting := [1]
  lhsBatch := []
  rhsBatch := []
  wf := dot_S131072x32_S32x16_S131072x16_1_0_0_1_n_n_wf
def dot_S131072x16_S16x1_S131072x1_1_0_0_1_n_n : DotDims S131072x16 S16x1 S131072x1 where
  lhsContracting := [1]
  rhsContracting := [0]
  lhsNonContracting := [0]
  rhsNonContracting := [1]
  lhsBatch := []
  rhsBatch := []
  wf := dot_S131072x16_S16x1_S131072x1_1_0_0_1_n_n_wf

class Facts : Prop extends Facts₀ where

variable [Facts]
-- ==== Proof.Finite.lean ====
/-
  From the precondition to real numbers: it says of every float input that each entry's absolute value compares below
  +infinity, and conjoins the nine answers. On the extended reals an entry with |x| < +infinity is a real number.
  Only the angles x_q and the parameters q_params are needed downstream.
-/
import proofs.«129862_j9509057593682_1_alg».proof.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs

instance : Subsingleton S_.Idx := ⟨fun a b => funext fun d => d.elim0⟩

/-- The float pattern of +infinity denotes the top element. -/
theorem ofBits_inf : Ideal.ofBits .f32 0x7F800000#32 = ⊤ := by simp [Ideal.ofBits, Ideal.ieee]

/-- An extended real whose absolute value is below +infinity is a real number. -/
theorem real_of_abs_lt_inf (x : EReal)
    (h : FloatOps.cmpf (F := Ideal) .olt (FloatOps.hostAbsf (F := Ideal) (φ := .f32) x) (FloatOps.ofBits (F := Ideal) .f32 0x7F800000#32) = 1#1) :
    ∃ r : ℝ, x = (r : EReal) := by
  change Ideal.cmp .olt (max x (-x)) (Ideal.ofBits .f32 0x7F800000#32) = 1#1 at h
  rw [ofBits_inf] at h
  unfold Ideal.cmp at h
  induction x using EReal.rec with
  | bot => simp at h
  | coe r => exact ⟨r, rfl⟩
  | top => simp at h

theorem reals_of_pre [Cert.Pre_finite_inputs.Facts] (a0 : FVec Ideal S131072x7 .f32) (a1 : FVec Ideal S131072x64 .f32) (a2 : FVec Ideal S7 .f32) (a3 : FVec Ideal S65x32 .f32)
    (a4 : FVec Ideal S32 .f32) (a5 : FVec Ideal S32x16 .f32) (a6 : FVec Ideal S16 .f32) (a7 : FVec Ideal S16x1 .f32) (a8 : FVec Ideal S1 .f32)
    (h : fn (F := Ideal) a0 a1 a2 a3 a4 a5 a6 a7 a8 = fun _ => 1#1) :
    (∀ i, ∃ r : ℝ, a0 i = (r : EReal)) ∧ (∀ i, ∃ r : ℝ, a2 i = (r : EReal)) := by
  have h0 := congrFun h ValueIdx.ix0
  dsimp only [fn, fn_part1, fn_part2] at h0
  -- the nine answers are conjoined left-nested: peel the last six, then q_params', then x_q's
  obtain ⟨h0, -⟩ := IntOp.andi_eq_one.mp h0
  obtain ⟨h0, -⟩ := IntOp.andi_eq_one.mp h0
  obtain ⟨h0, -⟩ := IntOp.andi_eq_one.mp h0
  obtain ⟨h0, -⟩ := IntOp.andi_eq_one.mp h0
  obtain ⟨h0, -⟩ := IntOp.andi_eq_one.mp h0
  obtain ⟨h0, -⟩ := IntOp.andi_eq_one.mp h0
  obtain ⟨h0, hq⟩ := IntOp.andi_eq_one.mp h0
  obtain ⟨hx, -⟩ := IntOp.andi_eq_one.mp h0
  refine ⟨fun i => real_of_abs_lt_inf (a0 i) ?_, fun i => real_of_abs_lt_inf (a2 i) ?_⟩
  · exact Host.reduce_andi_all _ _ _ _ _ hx i
  · exact Host.reduce_andi_all _ _ _ _ _ hq i

end Cert.Finite
end
-- ==== Proof.Spec.lean ====
/-
  The function both programs compute, stated once over the argument arrays, index by index, on the extended reals.

  Row `b` of the batch carries seven angles. Wire `q` has the amplitude pair
  (cos h, sin h) with h = (x_q[b, q] + q_params[q]) / 2. The 128 amplitudes of the product state are built wire by
  wire: amplitude `j` of the state on wires 0..n is amplitude `j / 2` of the state on wires 0..n-1 times the pair of
  wire n at `j % 2` (wire 0 is the most significant bit of `j`). A ring of controlled-NOT gates only permutes these
  128 amplitudes, so the expectation of Z on wire 0 afterwards is a signed sum of the squared amplitudes BEFORE the
  ring: amplitude `j` counts with the sign (-1)^(number of set bits among the six low bits of j). That number feeds a
  small dense network 65 -> 32 -> 16 -> 1 with two rectifiers, its first input being the expectation and the other 64
  the row of x_c.
-/
import Idealize.ShloMosaic.PureOps.Ideal
import Idealize.ShloMosaic.Lib.ValueIdx

noncomputable section

namespace Cert.QSpec

open Idealize.ShloMosaic Idealize.ShloMosaic.ValueIdx

/-- Half the sum of a row's angle and the wire's parameter (the literal is the float 0.5). -/
def halfAngle (x p : EReal) : EReal := (x + p) * Ideal.ofBits .f32 0x3F000000#32

/-- A wire's amplitude at basis value `e`: the cosine of the half angle at 0, the sine otherwise. -/
def amp (x p : EReal) (e : ℕ) : EReal :=
  if e = 0 then Ideal.cos (halfAngle x p) else Ideal.sin (halfAngle x p)

/-- One more wire: amplitude `j` of the longer product state is amplitude `j / 2` of the shorter one times the new
    wire's amplitude at the last bit of `j`. -/
def ext (s f : ℕ → EReal) (j : ℕ) : EReal := s (j / 2) * f (j % 2)

/-- The product state of seven wires with amplitude pairs `a 0 … a 6`, wire 0 the most significant bit. -/
def state7 (a : Fin 7 → ℕ → EReal) : ℕ → EReal :=
  ext (ext (ext (ext (ext (ext (fun j => a 0 (j % 2)) (a 1)) (a 2)) (a 3)) (a 4)) (a 5)) (a 6)

/-- The sign with which amplitude `j`'s square enters the expectation of Z on wire 0 after the ring of
    controlled-NOT gates: minus one to the parity of the six low bits of `j`. -/
def sgn (j : ℕ) : EReal := if (j / 32 + j / 16 + j / 8 + j / 4 + j / 2 + j) % 2 = 0 then 1 else -1

/-- The ring of controlled-NOT gates (0→1, 1→2, …, 5→6, 6→0) moves amplitudes without mixing them: with wire 0's final
    bit `h` and the other six final bits `l` (wire 1 the most significant), the amplitude found there came from position
    `sigmaN h l` of the product state. Bit by bit, with k0 = h and k1 … k6 the bits of l, the source position has bits
    (k0+k6, k1+k0+k6, k2+k1, k3+k2, k4+k3, k5+k4, k6+k5) modulo 2. -/
def sigmaN (h l : ℕ) : ℕ :=
  64 * ((h + l) % 2) + 32 * ((l / 32 + h + l) % 2) + 16 * ((l / 16 + l / 32) % 2) + 8 * ((l / 8 + l / 16) % 2)
    + 4 * ((l / 4 + l / 8) % 2) + 2 * ((l / 2 + l / 4) % 2) + (l + l / 2) % 2

theorem sigmaN_lt (h l : ℕ) : sigmaN h l < 128 := by unfold sigmaN; omega

/-- The same as a map of positions. -/
def sigma (h : Fin 2) (l : Fin 64) : Fin 128 := ⟨sigmaN h.val l.val, sigmaN_lt _ _⟩

/-- The expectation: the signed sum of the squared amplitudes. -/
def qval (s : ℕ → EReal) : EReal := ∑ j : Fin 128, s j.val * s j.val * sgn j.val

/-- Row `b`'s product state. -/
def rowState (xq : FVec Ideal ⟨2, ![131072, 7]⟩ .f32) (qp : FVec Ideal ⟨1, ![7]⟩ .f32) (b : Fin 131072) : ℕ → EReal :=
  state7 fun q e => amp (xq (ix2 b q)) (qp (ix1 q)) e

/-- The rectifier (the literal is the float +0.0). -/
def relu (x : EReal) : EReal := max x (Ideal.ofBits .f32 0x00000000#32)

/-- First layer at output `n`: input 0 is the expectation `q`, inputs 1..64 the row `xr`. -/
def layer1 (q : EReal) (xr : Fin 64 → EReal) (W1 : FVec Ideal ⟨2, ![65, 32]⟩ .f32) (b1 : FVec Ideal ⟨1, ![32]⟩ .f32)
    (n : Fin 32) : EReal :=
  relu ((∑ k : Fin 65, (Fin.cases q xr k : EReal) * W1 (ix2 k n)) + b1 (ix1 n))

/-- Second layer at output `n`. -/
def layer2 (h : Fin 32 → EReal) (W2 : FVec Ideal ⟨2, ![32, 16]⟩ .f32) (b2 : FVec Ideal ⟨1, ![16]⟩ .f32) (n : Fin 16) : EReal :=
  relu ((∑ k : Fin 32, h k * W2 (ix2 k n)) + b2 (ix1 n))

/-- Third layer: one output. -/
def layer3 (h : Fin 16 → EReal) (W3 : FVec Ideal ⟨2, ![16, 1]⟩ .f32) (b3 : FVec Ideal ⟨1, ![1]⟩ .f32) : EReal :=
  (∑ k : Fin 16, h k * W3 (ix2 k 0)) + b3 (ix1 0)

/-- The network on one row, from the expectation `q` and the row `xr`. -/
def mlp (q : EReal) (xr : Fin 64 → EReal) (W1 : FVec Ideal ⟨2, ![65, 32]⟩ .f32) (b1 : FVec Ideal ⟨1, ![32]⟩ .f32)
    (W2 : FVec Ideal ⟨2, ![32, 16]⟩ .f32) (b2 : FVec Ideal ⟨1, ![16]⟩ .f32)
    (W3 : FVec Ideal ⟨2, ![16, 1]⟩ .f32) (b3 : FVec Ideal ⟨1, ![1]⟩ .f32) : EReal :=
  layer3 (layer2 (layer1 q xr W1 b1) W2 b2) W3 b3

/-- The whole result: one number per row. -/
def G (xq : FVec Ideal ⟨2, ![131072, 7]⟩ .f32) (xc : FVec Ideal ⟨2, ![131072, 64]⟩ .f32) (qp : FVec Ideal ⟨1, ![7]⟩ .f32)
    (W1 : FVec Ideal ⟨2, ![65, 32]⟩ .f32) (b1 : FVec Ideal ⟨1, ![32]⟩ .f32)
    (W2 : FVec Ideal ⟨2, ![32, 16]⟩ .f32) (b2 : FVec Ideal ⟨1, ![16]⟩ .f32)
    (W3 : FVec Ideal ⟨2, ![16, 1]⟩ .f32) (b3 : FVec Ideal ⟨1, ![1]⟩ .f32) : FVec Ideal ⟨1, ![131072]⟩ .f32 :=
  fun i => mlp (qval (rowState xq qp (i 0))) (fun k => xc (ix2 (i 0) k)) W1 b1 W2 b2 W3 b3

end Cert.QSpec

end
-- ==== Proof.QMath.lean ====
/-
  The extended-real algebra behind the expectation: the amplitudes of real angles are reals, the product state of real
  amplitude pairs is real, the difference of the two half sums of squares over the ring's image is the signed sum of
  squares over all 128 positions, and the table of sign literals denotes the sign of each position.
-/
import proofs.«129862_j9509057593682_1_alg».proof.Proof.Spec
import proofs.«129862_j9509057593682_1_alg».proof.KernelIdeal
import Idealize.ShloMosaic.PureOps.Ideal
import Idealize.ShloMosaic.PureOps.Ideal.Laws
import Mathlib.Data.EReal.Basic
import Mathlib.Data.EReal.Operations
import Mathlib.Algebra.BigOperators.Fin
import Mathlib.Data.Fintype.BigOperators
import Mathlib.Algebra.BigOperators.Group.Finset.Defs

noncomputable section
open Idealize.ShloMosaic Idealize.ShloMosaic.ValueIdx Cert.QSpec

namespace Cert.QMath

/-! ## The three float literals as reals -/

/-- The float 0.5 denotes the real one half. -/
theorem ofBits_half : Ideal.ofBits .f32 0x3F000000#32 = ((1 / 2 : ℝ) : EReal) := by
  simp [Ideal.ofBits, Ideal.ieee, -EReal.coe_mul]; norm_num

/-- The float 1.0 denotes the real one. -/
theorem ofBits_one : Ideal.ofBits .f32 0x3F800000#32 = ((1 : ℝ) : EReal) := by
  simp [Ideal.ofBits, Ideal.ieee, -EReal.coe_mul]; norm_num

/-- The float -1.0 denotes the real minus one. -/
theorem ofBits_negOne : Ideal.ofBits .f32 0xBF800000#32 = ((-1 : ℝ) : EReal) := by
  simp [Ideal.ofBits, Ideal.ieee, -EReal.coe_mul]; norm_num

/-! ## Amplitudes and the product state are real -/

/-- The half angle of two reals is the real (x + p) / 2. -/
theorem halfAngle_coe (x p : ℝ) : halfAngle (x : EReal) (p : EReal) = (((x + p) * (1 / 2) : ℝ) : EReal) := by
  unfold halfAngle
  rw [ofBits_half, ← EReal.coe_add, ← EReal.coe_mul]

/-- A wire's amplitude at real angles is a real: a cosine or a sine of a real. -/
theorem amp_real (x p : ℝ) (e : ℕ) : ∃ r : ℝ, amp (x : EReal) (p : EReal) e = (r : EReal) := by
  unfold amp
  rw [halfAngle_coe]
  by_cases he : e = 0
  · rw [if_pos he]; exact ⟨_, Ideal.cos_coe _⟩
  · rw [if_neg he]; exact ⟨_, Ideal.sin_coe _⟩

/-- Adding a wire keeps amplitudes real: a product of two reals. -/
theorem ext_real (s f : ℕ → EReal) (hs : ∀ j, ∃ r : ℝ, s j = (r : EReal)) (hf : ∀ e, ∃ r : ℝ, f e = (r : EReal)) (j : ℕ) :
    ∃ r : ℝ, ext s f j = (r : EReal) := by
  obtain ⟨a, ha⟩ := hs (j / 2)
  obtain ⟨b, hb⟩ := hf (j % 2)
  exact ⟨a * b, by unfold ext; rw [ha, hb, EReal.coe_mul]⟩

/-- The seven-wire product state of real amplitude pairs is real, one wire at a time. -/
theorem state7_real (a : Fin 7 → ℕ → EReal) (ha : ∀ q e, ∃ r : ℝ, a q e = (r : EReal)) (j : ℕ) :
    ∃ r : ℝ, state7 a j = (r : EReal) := by
  unfold state7
  refine ext_real _ _ (ext_real _ _ (ext_real _ _ (ext_real _ _ (ext_real _ _ (ext_real _ _ (fun j => ha 0 (j % 2)) (ha 1)) (ha 2)) (ha 3)) (ha 4)) (ha 5)) (ha 6) j

/-! ## The expectation as two half sums -/

/-- The parity of the six low bits of a position, as a natural number 0 or 1. -/
def par (j : ℕ) : ℕ := (j / 32 + j / 16 + j / 8 + j / 4 + j / 2 + j) % 2

/-- The sign of a position as a real: plus one at even parity, minus one at odd. -/
def sgnR (j : ℕ) : ℝ := if par j = 0 then 1 else -1

/-- The specification's sign is the coercion of the real sign. -/
theorem sgn_coe (j : ℕ) : sgn j = ((sgnR j : ℝ) : EReal) := by
  unfold sgn sgnR par
  split_ifs <;> simp

/-- The ring's position map on pairs (final bit of wire 0, final bits of the other six). -/
def sigmaP (p : Fin 2 × Fin 64) : Fin 128 := sigma p.1 p.2

/-- The position map is a bijection of the 2 × 64 pairs onto the 128 positions. -/
theorem sigmaP_bijective : Function.Bijective sigmaP := by decide +kernel

/-- The parity of the six low bits of the source position is the final bit of wire 0. -/
theorem par_sigma : ∀ (h : Fin 2) (l : Fin 64), par (sigma h l).val = h.val := by decide +kernel

/-- Coercion to the extended reals commutes with finite sums. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The real identity: re-index the signed sum of squares along the position map; the sign is constant on each half. -/
theorem q_identity_real (r : ℕ → ℝ) :
    (∑ l : Fin 64, r (sigma 0 l).val * r (sigma 0 l).val) - (∑ l : Fin 64, r (sigma 1 l).val * r (sigma 1 l).val)
      = ∑ j : Fin 128, r j.val * r j.val * sgnR j.val := by
  rw [← sigmaP_bijective.sum_comp (fun j : Fin 128 => r j.val * r j.val * sgnR j.val), Fintype.sum_prod_type, Fin.sum_univ_two]
  have h0 : ∀ l : Fin 64, sgnR (sigmaP (0, l)).val = 1 := fun l => by
    show sgnR (sigma 0 l).val = 1
    unfold sgnR; rw [par_sigma]; simp
  have h1 : ∀ l : Fin 64, sgnR (sigmaP (1, l)).val = -1 := fun l => by
    show sgnR (sigma 1 l).val = -1
    unfold sgnR; rw [par_sigma]; simp
  simp only [h0, h1, mul_one, mul_neg, Finset.sum_neg_distrib]
  show _ = (∑ l : Fin 64, r (sigma 0 l).val * r (sigma 0 l).val) + -(∑ l : Fin 64, r (sigma 1 l).val * r (sigma 1 l).val)
  ring

/-- The expectation as two half sums: for a real-valued state, the difference of the sums of squares over the two halves
    of the ring's image is the signed sum of squares over all 128 positions. -/
theorem q_identity (s : ℕ → EReal) (hs : ∀ j, ∃ r : ℝ, s j = (r : EReal)) :
    (Ideal.ofBits .f32 0x00000000#32 + ∑ l : Fin 64, s (sigma 0 l).val * s (sigma 0 l).val)
      - (Ideal.ofBits .f32 0x00000000#32 + ∑ l : Fin 64, s (sigma 1 l).val * s (sigma 1 l).val) = qval s := by
  choose r hr using hs
  unfold qval
  simp only [hr, sgn_coe, ← EReal.coe_mul, ← coe_sum, Ideal.ofBits_zero_f32, zero_add, ← EReal.coe_sub]
  rw [q_identity_real]

/-! ## The table of sign literals -/

/-- The table of 128 float literals holds 1.0 at the positions of even parity and -1.0 at those of odd parity. -/
theorem lit0_eq : ∀ j : Fin 128, Cert.KernelIdeal.lit0 j = if par j.val = 0 then 0x3F800000#32 else 0xBF800000#32 := by
  decide +kernel

/-- Each literal of the table denotes the sign of its position. -/
theorem ofBits_sign (j : Fin 128) : Ideal.ofBits .f32 (Cert.KernelIdeal.lit0 j) = sgn j.val := by
  rw [lit0_eq j]
  unfold sgn
  show Ideal.ofBits .f32 (if par j.val = 0 then 0x3F800000#32 else 0xBF800000#32) = if par j.val = 0 then 1 else -1
  by_cases h : par j.val = 0
  · rw [if_pos h, if_pos h, ofBits_one, EReal.coe_one]
  · rw [if_neg h, if_neg h, ofBits_negOne, EReal.coe_neg, EReal.coe_one]

end Cert.QMath
end
-- ==== Proof.KerQ.lean ====
import proofs.«129862_j9509057593682_1_alg».proof.Proof.Spec
import proofs.«129862_j9509057593682_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section
open Idealize.ShloMosaic Idealize.ShloMosaic.ValueIdx Cert.QSpec

namespace Cert.KerQ

/-! ## Layout operations at coordinates

Each lemma reads one layout operation of the wire-by-wire construction at an index written by its coordinates. -/

section Layout
variable {α : Type}

/-- A column `[a, 1]` cast to a vector `[a]` reads, at `r`, the column at `(r, 0)`. -/
theorem cast_col_vec {a : ℕ} (x : (⟨2, ![a, 1]⟩ : Shape).Idx → α) (h : (⟨2, ![a, 1]⟩ : Shape).ShapeCasts ⟨1, ![a]⟩)
    (r : Fin a) : shapeCast ⟨1, ![a]⟩ x h (ix1 r) = x (ix2 r (0 : Fin 1)) :=
  shapeCast_apply x h _ _ (by
    rw [Shape.rowMajor_val_two, Shape.rowMajor_val_one]
    show r.val * 1 + 0 = r.val
    omega)

/-- A vector `[a]` cast to a column `[a, 1]` reads, at `(r, c)`, the vector at `r`. -/
theorem cast_vec_col {a : ℕ} (x : (⟨1, ![a]⟩ : Shape).Idx → α) (h : (⟨1, ![a]⟩ : Shape).ShapeCasts ⟨2, ![a, 1]⟩)
    (r : Fin a) (c : Fin 1) : shapeCast ⟨2, ![a, 1]⟩ x h (ix2 r c) = x (ix1 r) :=
  shapeCast_apply x h _ _ (by
    have hc : c.val = 0 := by omega
    rw [Shape.rowMajor_val_two, Shape.rowMajor_val_one]
    show r.val = r.val * 1 + c.val
    omega)

/-- Two columns set side by side: at `(r, e)` the first column if `e = 0`, else the second. -/
theorem concat_cols {a : ℕ} (x₁ x₂ : (⟨2, ![a, 1]⟩ : Shape).Idx → α)
    (h : Shape.Concatenates [(⟨2, ![a, 1]⟩ : Shape), ⟨2, ![a, 1]⟩] ⟨2, ![a, 2]⟩ 1) (r : Fin a) (e : Fin 2) :
    concatenate ⟨2, ![a, 2]⟩ 1 [⟨⟨2, ![a, 1]⟩, x₁⟩, ⟨⟨2, ![a, 1]⟩, x₂⟩] h (ix2 r e)
      = if e.val = 0 then x₁ (ix2 r 0) else x₂ (ix2 r 0) := by
  by_cases he : e.val = 0
  · rw [if_pos he]
    refine concatenate_pair_apply_left 1 x₁ x₂ h (ix2 r e) rfl (ix2 r 0) fun b => ?_
    match b with
    | ⟨0, _⟩ => rfl
    | ⟨1, _⟩ => exact he.symm
  · rw [if_neg he]
    refine concatenate_pair_apply_right 1 x₁ x₂ h (ix2 r e) rfl rfl (ix2 r 0) (fun b hb => ?_) ?_
    · match b with
      | ⟨0, _⟩ => rfl
      | ⟨1, _⟩ => exact absurd rfl hb
    · show 0 + 1 = e.val
      omega

/-- `[a, n]` cast to `[a, n, 1]`: at `(r, j, c)` the operand at `(r, j)`. -/
theorem cast_add_last {a n : ℕ} (x : (⟨2, ![a, n]⟩ : Shape).Idx → α) (h : (⟨2, ![a, n]⟩ : Shape).ShapeCasts ⟨3, ![a, n, 1]⟩)
    (r : Fin a) (j : Fin n) (c : Fin 1) : shapeCast ⟨3, ![a, n, 1]⟩ x h (ix3 r j c) = x (ix2 r j) :=
  shapeCast_apply x h _ _ (by
    have hc : c.val = 0 := by omega
    rw [Shape.rowMajor_val_three, Shape.rowMajor_val_two]
    show r.val * n + j.val = (r.val * n + j.val) * 1 + c.val
    omega)

/-- `[a, 2]` cast to `[a, 1, 2]`: at `(r, c, e)` the operand at `(r, e)`. -/
theorem cast_add_mid {a m : ℕ} (x : (⟨2, ![a, m]⟩ : Shape).Idx → α) (h : (⟨2, ![a, m]⟩ : Shape).ShapeCasts ⟨3, ![a, 1, m]⟩)
    (r : Fin a) (c : Fin 1) (e : Fin m) : shapeCast ⟨3, ![a, 1, m]⟩ x h (ix3 r c e) = x (ix2 r e) :=
  shapeCast_apply x h _ _ (by
    have hc : c.val = 0 := by omega
    rw [Shape.rowMajor_val_three, Shape.rowMajor_val_two]
    show r.val * m + e.val = (r.val * 1 + c.val) * m + e.val
    rw [hc, Nat.mul_one, Nat.add_zero])

/-- `[a, n, 1]` broadcast to `[a, n, 2]`: at `(r, j, e)` the operand at `(r, j, 0)`. -/
theorem bcast_last {a n : ℕ} (x : (⟨3, ![a, n, 1]⟩ : Shape).Idx → α) (h : (⟨3, ![a, n, 1]⟩ : Shape).Broadcasts ⟨3, ![a, n, 2]⟩)
    (r : Fin a) (j : Fin n) (e : Fin 2) : broadcastTo ⟨3, ![a, n, 2]⟩ x h (ix3 r j e) = x (ix3 r j (0 : Fin 1)) := by
  refine broadcastTo_apply x h (ix3 r j e) (ix3 r j (0 : Fin 1)) fun ax => ?_
  match ax with
  | ⟨0, _⟩ =>
    show r.val = if a = 1 then 0 else r.val
    split
    · have := r.isLt; omega
    · rfl
  | ⟨1, _⟩ =>
    show j.val = if n = 1 then 0 else j.val
    split
    · have := j.isLt; omega
    · rfl
  | ⟨2, _⟩ => rfl

/-- `[a, 1, 2]` broadcast to `[a, n, 2]`: at `(r, j, e)` the operand at `(r, 0, e)`. -/
theorem bcast_mid {a n : ℕ} (x : (⟨3, ![a, 1, 2]⟩ : Shape).Idx → α) (h : (⟨3, ![a, 1, 2]⟩ : Shape).Broadcasts ⟨3, ![a, n, 2]⟩)
    (r : Fin a) (j : Fin n) (e : Fin 2) : broadcastTo ⟨3, ![a, n, 2]⟩ x h (ix3 r j e) = x (ix3 r (0 : Fin 1) e) := by
  refine broadcastTo_apply x h (ix3 r j e) (ix3 r (0 : Fin 1) e) fun ax => ?_
  match ax with
  | ⟨0, _⟩ =>
    show r.val = if a = 1 then 0 else r.val
    split
    · have := r.isLt; omega
    · rfl
  | ⟨1, _⟩ => rfl
  | ⟨2, _⟩ => rfl

/-- `[a, n, 2]` cast to `[a, m]` with `m = 2 n`: at `(r, j)` the operand at `(r, j / 2, j % 2)`. -/
theorem cast_merge {a n m : ℕ} (hm : m = n * 2) (x : (⟨3, ![a, n, 2]⟩ : Shape).Idx → α)
    (h : (⟨3, ![a, n, 2]⟩ : Shape).ShapeCasts ⟨2, ![a, m]⟩) (r : Fin a) (j : Fin m) :
    shapeCast ⟨2, ![a, m]⟩ x h (ix2 r j)
      = x (ix3 r (⟨j.val / 2, by have := j.isLt; omega⟩ : Fin n) (⟨j.val % 2, Nat.mod_lt _ (by decide)⟩ : Fin 2)) :=
  shapeCast_apply x h _ _ (by
    rw [Shape.rowMajor_val_three, Shape.rowMajor_val_two]
    show (r.val * n + j.val / 2) * 2 + j.val % 2 = r.val * m + j.val
    subst hm
    have := Nat.div_add_mod j.val 2
    rw [Nat.add_mul, Nat.mul_assoc]
    omega)

end Layout

/-! ## One level of the product state -/

section Level

/-- The shorter state times the next wire's pair, still with the new bit as its own axis: at `(r, j, e)` amplitude
    `j` of the shorter state times the pair at `e`. -/
theorem level3_apply {a n : ℕ} (prev : FVec Ideal ⟨2, ![a, n]⟩ .f32) (pair : FVec Ideal ⟨2, ![a, 2]⟩ .f32)
    (h1 : (⟨2, ![a, n]⟩ : Shape).ShapeCasts ⟨3, ![a, n, 1]⟩) (h2 : (⟨2, ![a, 2]⟩ : Shape).ShapeCasts ⟨3, ![a, 1, 2]⟩)
    (h3 : (⟨3, ![a, n, 1]⟩ : Shape).Broadcasts ⟨3, ![a, n, 2]⟩) (h4 : (⟨3, ![a, 1, 2]⟩ : Shape).Broadcasts ⟨3, ![a, n, 2]⟩)
    (r : Fin a) (j : Fin n) (e : Fin 2) :
    mulf (broadcastTo ⟨3, ![a, n, 2]⟩ (shapeCast ⟨3, ![a, n, 1]⟩ prev h1) h3)
        (broadcastTo ⟨3, ![a, n, 2]⟩ (shapeCast ⟨3, ![a, 1, 2]⟩ pair h2) h4) (ix3 r j e)
      = prev (ix2 r j) * pair (ix2 r e) := by
  rw [mulf_apply, bcast_last, bcast_mid, cast_add_last, cast_add_mid]

/-- The new bit merged into the position: the longer state at `(r, j)` is `ext` of the shorter state and the pair. -/
theorem level_apply {a n m : ℕ} (hm : m = n * 2) (prev : FVec Ideal ⟨2, ![a, n]⟩ .f32) (pair : FVec Ideal ⟨2, ![a, 2]⟩ .f32)
    (h1 : (⟨2, ![a, n]⟩ : Shape).ShapeCasts ⟨3, ![a, n, 1]⟩) (h2 : (⟨2, ![a, 2]⟩ : Shape).ShapeCasts ⟨3, ![a, 1, 2]⟩)
    (h3 : (⟨3, ![a, n, 1]⟩ : Shape).Broadcasts ⟨3, ![a, n, 2]⟩) (h4 : (⟨3, ![a, 1, 2]⟩ : Shape).Broadcasts ⟨3, ![a, n, 2]⟩)
    (h5 : (⟨3, ![a, n, 2]⟩ : Shape).ShapeCasts ⟨2, ![a, m]⟩)
    (r : Fin a) (s f : ℕ → EReal) (hs : ∀ j : Fin n, prev (ix2 r j) = s j.val) (hf : ∀ e : Fin 2, pair (ix2 r e) = f e.val)
    (j : Fin m) :
    shapeCast ⟨2, ![a, m]⟩ (mulf (broadcastTo ⟨3, ![a, n, 2]⟩ (shapeCast ⟨3, ![a, n, 1]⟩ prev h1) h3)
        (broadcastTo ⟨3, ![a, n, 2]⟩ (shapeCast ⟨3, ![a, 1, 2]⟩ pair h2) h4)) h5 (ix2 r j)
      = ext s f j.val := by
  rw [cast_merge hm, level3_apply, hs, hf]
  rfl

end Level

/-! ## The wires' amplitudes -/

section Wires
open Cert.KernelIdeal Cert.KernelIdeal.Gen

/-- The half angle of wire `q` in row `r`. -/
theorem half_apply (x0 : Vec Ideal S4096x7 .f32) (x2 : Vec Ideal S1x7 .f32) (r : Fin 4096) (q : Fin 7) :
    k0_pay2 (F := Ideal) x0 x2 (ix2 r q) = halfAngle (x0 (ix2 r q)) (x2 (ix2 0 q)) := by
  unfold k0_pay2 halfAngle
  rw [mulf_apply, addf_apply, broadcast_apply, broadcastTo_1b_ab_apply, shapeCast_self]
  rfl

/-- Its cosine. -/
theorem cos_apply (x0 : Vec Ideal S4096x7 .f32) (x2 : Vec Ideal S1x7 .f32) (r : Fin 4096) (q : Fin 7) :
    k0_pay3 (F := Ideal) x0 x2 (ix2 r q) = Ideal.cos (halfAngle (x0 (ix2 r q)) (x2 (ix2 0 q))) := by
  unfold k0_pay3
  show FloatOps.cos (k0_pay2 (F := Ideal) x0 x2 (ix2 r q)) = _
  rw [half_apply]
  rfl

/-- Its sine. -/
theorem sin_apply (x0 : Vec Ideal S4096x7 .f32) (x2 : Vec Ideal S1x7 .f32) (r : Fin 4096) (q : Fin 7) :
    k0_pay4 (F := Ideal) x0 x2 (ix2 r q) = Ideal.sin (halfAngle (x0 (ix2 r q)) (x2 (ix2 0 q))) := by
  unfold k0_pay4
  show FloatOps.sin (k0_pay2 (F := Ideal) x0 x2 (ix2 r q)) = _
  rw [half_apply]
  rfl

/-- Column `q` of the cosines beside column `q` of the sines is wire `q`'s amplitude pair. -/
theorem pair_amp (x0 : Vec Ideal S4096x7 .f32) (x2 : Vec Ideal S1x7 .f32) (q : Fin 7)
    (hs : S4096x7.Slices ![0, q.val] S4096x1) (h1 : S4096x1.ShapeCasts S4096) (h2 : S4096.ShapeCasts S4096x1)
    (hc : Shape.Concatenates [S4096x1, S4096x1] S4096x2 1) (r : Fin 4096) (e : Fin 2) :
    concatenate S4096x2 1
        [⟨S4096x1, shapeCast S4096x1 (shapeCast S4096 (extractStridedSlice S4096x1 ![0, q.val] (k0_pay3 (F := Ideal) x0 x2) hs) h1) h2⟩,
         ⟨S4096x1, shapeCast S4096x1 (shapeCast S4096 (extractStridedSlice S4096x1 ![0, q.val] (k0_pay4 (F := Ideal) x0 x2) hs) h1) h2⟩]
        hc (ix2 r e)
      = amp (x0 (ix2 r q)) (x2 (ix2 0 q)) e.val := by
  rw [concat_cols, cast_vec_col, cast_vec_col, cast_col_vec, cast_col_vec,
    slice2_axis1_apply q.val _ hs r 0 q (by simp), slice2_axis1_apply q.val _ hs r 0 q (by simp), cos_apply, sin_apply]
  rfl

end Wires

/-! ## The state of wires 0–3, the state of all seven wires, and the signed sum -/

section State
open Cert.KernelIdeal Cert.KernelIdeal.Gen

/-- Wires 0–3: at `(r, j, e)` amplitude `j` of the state on wires 0–2 times wire 3's amplitude at `e`. -/
theorem pay5_apply (x0 : Vec Ideal S4096x7 .f32) (x2 : Vec Ideal S1x7 .f32) (r : Fin 4096) (j : Fin 8) (e : Fin 2) :
    k0_pay5 (F := Ideal) x0 x2 (ix3 r j e)
      = ext (ext (fun j => amp (x0 (ix2 r 0)) (x2 (ix2 0 0)) (j % 2)) (fun e => amp (x0 (ix2 r 1)) (x2 (ix2 0 1)) e))
            (fun e => amp (x0 (ix2 r 2)) (x2 (ix2 0 2)) e) j.val
          * amp (x0 (ix2 r 3)) (x2 (ix2 0 3)) e.val := by
  unfold k0_pay5
  refine (level3_apply _ _ _ _ _ _ r j e).trans ?_
  refine congrArg₂ (· * ·) ?_ ?_
  · refine level_apply (n := 4) (m := 8) rfl _ _ _ _ _ _ _ r _ _ (fun j => ?_) (fun e => ?_) j
    · refine level_apply (n := 2) (m := 4) rfl _ _ _ _ _ _ _ r _ _ (fun j => ?_) (fun e => ?_) j
      · refine (pair_amp x0 x2 0 _ _ _ _ r j).trans ?_
        rw [Nat.mod_eq_of_lt j.isLt]
      · exact pair_amp x0 x2 1 _ _ _ _ r e
    · exact pair_amp x0 x2 2 _ _ _ _ r e
  · exact pair_amp x0 x2 3 _ _ _ _ r e

/-- The squares of a row's 128 amplitudes, each times its sign, summed along the row. -/
theorem sum_apply (V : FVec Ideal S4096x128 .f32) (x3 : Vec Ideal S1x128 .f32) (r : Fin 4096) (s : ℕ → EReal)
    (hV : ∀ k : Fin 128, V (ix2 r k) = s k.val) (hx3 : ∀ j : Fin 128, x3 (ix2 0 j) = sgn j.val)
    (h1 : S1x128.ShapeCasts S1x128) (h2 : S1x128.Broadcasts S4096x128) (h3 : S4096x128.Reduces [1] S4096)
    (hφ : FKind.Formats .f32) (hacc : (0x00000000#32 : BitVec (FTy.f32).bits) = FKind.add.neutral .f32 hφ)
    (h4 : S4096.ShapeCasts S4096x1) :
    shapeCast S4096x1 (multiReduction (F := Ideal) .add [1] S4096
        (mulf (mulf V V) (broadcastTo S4096x128 (shapeCast S1x128 x3 h1) h2)) 0x00000000#32 h3 hφ hacc) h4 (ix2 r 0)
      = qval s := by
  refine (cast_vec_col _ h4 r 0).trans ?_
  refine (Ideal.multiReduction_add_single _ _ h3 hφ hacc (ix1 r)).trans ?_
  unfold qval
  show ∑ k : Fin 128, _ = _
  refine Finset.sum_congr rfl fun k _ => ?_
  have hl : h3.lift (ix1 r) k = ix2 r k := by
    funext a
    match a with
    | ⟨0, _⟩ => rfl
    | ⟨1, _⟩ => rfl
  rw [hl, mulf_apply, mulf_apply, broadcastTo_1b_ab_apply, shapeCast_self, hV, hx3]

/-- The kernel's expectation value in row `r` of a block. -/
theorem ker_q (x0 : Vec Ideal S4096x7 .f32) (x2 : Vec Ideal S1x7 .f32) (x3 : Vec Ideal S1x128 .f32)
    (hx3 : ∀ j : Fin 128, x3 (ix2 0 j) = sgn j.val) (r : Fin 4096) :
    k0_pay6 (F := Ideal) (k0_pay3 x0 x2) (k0_pay4 x0 x2) (k0_pay5 x0 x2) x3 (ix2 r 0)
      = qval (state7 fun q e => amp (x0 (ix2 r q)) (x2 (ix2 0 q)) e) := by
  unfold k0_pay6 state7
  refine sum_apply _ x3 r _ (fun k => ?_) hx3 _ _ _ _ _ _
  refine level_apply (n := 64) (m := 128) rfl _ _ _ _ _ _ _ r _ _ (fun j => ?_) (fun e => ?_) k
  · refine level_apply (n := 32) (m := 64) rfl _ _ _ _ _ _ _ r _ _ (fun j => ?_) (fun e => ?_) j
    · refine level_apply (n := 16) (m := 32) rfl _ _ _ _ _ _ _ r _ _ (fun j => ?_) (fun e => ?_) j
      · refine (cast_merge (n := 8) (m := 16) rfl _ _ r j).trans ?_
        exact pay5_apply x0 x2 r _ _
      · exact pair_amp x0 x2 4 _ _ _ _ r e
    · exact pair_amp x0 x2 5 _ _ _ _ r e
  · exact pair_amp x0 x2 6 _ _ _ _ r e

end State

end Cert.KerQ
end
-- ==== Proof.KerMlp.lean ====
/-
  The kernel's dense network 65 → 32 → 16 → 1 on a block of 4096 rows, read at one row.

  Each layer is a product into a zero accumulator, read at an index as the sum over the contracted coordinate, plus a
  bias row spread over the rows; the first two layers end in the rectifier max(·, 0). The first layer's product is taken
  in two parts: the expectation column [4096,1] times row 0 of the first weight matrix, and the block of rows [4096,64]
  times rows 1..64 of it. The one-term sum and the 64-term sum join into the sum over 65 inputs whose input 0 is the
  expectation and whose input k+1 is entry k of the row. Narrowing to the 16-bit format is the identity on the extended
  reals.
-/
import proofs.«129862_j9509057593682_1_alg».proof.Proof.Spec
import proofs.«129862_j9509057593682_1_alg».proof.Proof.Gen.KernelIdeal.Skeleton
import Idealize.ShloMosaic.Lib.ValueIdx
import Idealize.ShloMosaic.Lib.Pipeline.Value
import Idealize.ShloMosaic.PureOps.Ideal.Laws

noncomputable section
open Idealize.ShloMosaic Idealize.ShloMosaic.ValueIdx Cert.QSpec

namespace Cert.KerMlp
open Cert.KernelIdeal Cert.KernelIdeal.Gen

/-! ## The product of the expectation column [4096,1] with a row [1,32]

For dimension numbers that contract the left operand's axis 1 with the right operand's axis 0, the operand indices at
output index (r, n) and contraction coordinate k are (r, k) and (k, n): one fact per operand and axis. -/

theorem lhsA_0 (i : S4096x32.Idx) (q : dot_S4096x1_S1x32_S4096x32_1_0_0_1_n_n.contr.Idx) :
    (dot_S4096x1_S1x32_S4096x32_1_0_0_1_n_n.lhsIdx i q 0).val = (i 0).val := by
  unfold DotDims.lhsIdx
  rw [dif_neg (show ¬(0 : Fin S4096x1.rank) ∈ dot_S4096x1_S1x32_S4096x32_1_0_0_1_n_n.lhsBatch by decide), dif_pos (show (0 : Fin S4096x1.rank) ∈ dot_S4096x1_S1x32_S4096x32_1_0_0_1_n_n.lhsNonContracting by decide)]
  rfl
theorem lhsA_1 (i : S4096x32.Idx) (q : dot_S4096x1_S1x32_S4096x32_1_0_0_1_n_n.contr.Idx) :
    (dot_S4096x1_S1x32_S4096x32_1_0_0_1_n_n.lhsIdx i q 1).val = (q ⟨0, by decide⟩).val :=
  dot_S4096x1_S1x32_S4096x32_1_0_0_1_n_n.lhsIdx_val_of_single rfl i q
theorem rhsA_0 (i : S4096x32.Idx) (q : dot_S4096x1_S1x32_S4096x32_1_0_0_1_n_n.contr.Idx) :
    (dot_S4096x1_S1x32_S4096x32_1_0_0_1_n_n.rhsIdx i q 0).val = (q ⟨0, by decide⟩).val :=
  dot_S4096x1_S1x32_S4096x32_1_0_0_1_n_n.rhsIdx_val_of_single rfl i q
theorem rhsA_1 (i : S4096x32.Idx) (q : dot_S4096x1_S1x32_S4096x32_1_0_0_1_n_n.contr.Idx) :
    (dot_S4096x1_S1x32_S4096x32_1_0_0_1_n_n.rhsIdx i q 1).val = (i 1).val := by
  unfold DotDims.rhsIdx
  rw [dif_neg (show ¬(1 : Fin S1x32.rank) ∈ dot_S4096x1_S1x32_S4096x32_1_0_0_1_n_n.rhsBatch by decide), dif_pos (show (1 : Fin S1x32.rank) ∈ dot_S4096x1_S1x32_S4096x32_1_0_0_1_n_n.rhsNonContracting by decide)]
  rfl
/-- Into a zero accumulator the product at (r, n) is the sum over the one contracted coordinate. -/
theorem mmA_apply (l : FVec Ideal S4096x1 .bf16) (w : FVec Ideal S1x32 .bf16) (r : Fin 4096) (n : Fin 32) :
    FloatOps.matmul dot_S4096x1_S1x32_S4096x32_1_0_0_1_n_n none l w (constant (F := Ideal) S4096x32 .f32 0x00000000#32) (ix2 r n)
      = ∑ k : Fin 1, l (ix2 r k) * w (ix2 k n) := by
  rw [Ideal.matmul_constant_zero_apply, ← Equiv.sum_comp (ValueIdx.contrEquiv1 dot_S4096x1_S1x32_S4096x32_1_0_0_1_n_n 1 rfl rfl).symm]
  refine Finset.sum_congr rfl fun k _ => ?_
  have hk := ValueIdx.contrEquiv1_symm_val dot_S4096x1_S1x32_S4096x32_1_0_0_1_n_n 1 rfl rfl k
  have el : dot_S4096x1_S1x32_S4096x32_1_0_0_1_n_n.lhsIdx (ix2 r n) ((ValueIdx.contrEquiv1 dot_S4096x1_S1x32_S4096x32_1_0_0_1_n_n 1 rfl rfl).symm k) = ix2 r k := funext fun a => Fin.ext (by
    match a with
    | ⟨0, _⟩ => exact lhsA_0 _ _
    | ⟨1, _⟩ => exact (lhsA_1 _ _).trans hk)
  have er : dot_S4096x1_S1x32_S4096x32_1_0_0_1_n_n.rhsIdx (ix2 r n) ((ValueIdx.contrEquiv1 dot_S4096x1_S1x32_S4096x32_1_0_0_1_n_n 1 rfl rfl).symm k) = ix2 k n := funext fun a => Fin.ext (by
    match a with
    | ⟨0, _⟩ => exact (rhsA_0 _ _).trans hk
    | ⟨1, _⟩ => exact rhsA_1 _ _)
  rw [el, er]

/-! ## The product of a block of rows [4096,64] with a matrix [64,32] -/

theorem lhsB_0 (i : S4096x32.Idx) (q : dot_S4096x64_S64x32_S4096x32_1_0_0_1_n_n.contr.Idx) :
    (dot_S4096x64_S64x32_S4096x32_1_0_0_1_n_n.lhsIdx i q 0).val = (i 0).val := by
  unfold DotDims.lhsIdx
  rw [dif_neg (show ¬(0 : Fin S4096x64.rank) ∈ dot_S4096x64_S64x32_S4096x32_1_0_0_1_n_n.lhsBatch by decide), dif_pos (show (0 : Fin S4096x64.rank) ∈ dot_S4096x64_S64x32_S4096x32_1_0_0_1_n_n.lhsNonContracting by decide)]
  rfl
theorem lhsB_1 (i : S4096x32.Idx) (q : dot_S4096x64_S64x32_S4096x32_1_0_0_1_n_n.contr.Idx) :
    (dot_S4096x64_S64x32_S4096x32_1_0_0_1_n_n.lhsIdx i q 1).val = (q ⟨0, by decide⟩).val :=
  dot_S4096x64_S64x32_S4096x32_1_0_0_1_n_n.lhsIdx_val_of_single rfl i q
theorem rhsB_0 (i : S4096x32.Idx) (q : dot_S4096x64_S64x32_S4096x32_1_0_0_1_n_n.contr.Idx) :
    (dot_S4096x64_S64x32_S4096x32_1_0_0_1_n_n.rhsIdx i q 0).val = (q ⟨0, by decide⟩).val :=
  dot_S4096x64_S64x32_S4096x32_1_0_0_1_n_n.rhsIdx_val_of_single rfl i q
theorem rhsB_1 (i : S4096x32.Idx) (q : dot_S4096x64_S64x32_S4096x32_1_0_0_1_n_n.contr.Idx) :
    (dot_S4096x64_S64x32_S4096x32_1_0_0_1_n_n.rhsIdx i q 1).val = (i 1).val := by
  unfold DotDims.rhsIdx
  rw [dif_neg (show ¬(1 : Fin S64x32.rank) ∈ dot_S4096x64_S64x32_S4096x32_1_0_0_1_n_n.rhsBatch by decide), dif_pos (show (1 : Fin S64x32.rank) ∈ dot_S4096x64_S64x32_S4096x32_1_0_0_1_n_n.rhsNonContracting by decide)]
  rfl
/-- Into a zero accumulator the product at (r, n) is the sum over the 64 contracted coordinates. -/
theorem mmB_apply (l : FVec Ideal S4096x64 .bf16) (w : FVec Ideal S64x32 .bf16) (r : Fin 4096) (n : Fin 32) :
    FloatOps.matmul dot_S4096x64_S64x32_S4096x32_1_0_0_1_n_n none l w (constant (F := Ideal) S4096x32 .f32 0x00000000#32) (ix2 r n)
      = ∑ k : Fin 64, l (ix2 r k) * w (ix2 k n) := by
  rw [Ideal.matmul_constant_zero_apply, ← Equiv.sum_comp (ValueIdx.contrEquiv1 dot_S4096x64_S64x32_S4096x32_1_0_0_1_n_n 64 rfl rfl).symm]
  refine Finset.sum_congr rfl fun k _ => ?_
  have hk := ValueIdx.contrEquiv1_symm_val dot_S4096x64_S64x32_S4096x32_1_0_0_1_n_n 64 rfl rfl k
  have el : dot_S4096x64_S64x32_S4096x32_1_0_0_1_n_n.lhsIdx (ix2 r n) ((ValueIdx.contrEquiv1 dot_S4096x64_S64x32_S4096x32_1_0_0_1_n_n 64 rfl rfl).symm k) = ix2 r k := funext fun a => Fin.ext (by
    match a with
    | ⟨0, _⟩ => exact lhsB_0 _ _
    | ⟨1, _⟩ => exact (lhsB_1 _ _).trans hk)
  have er : dot_S4096x64_S64x32_S4096x32_1_0_0_1_n_n.rhsIdx (ix2 r n) ((ValueIdx.contrEquiv1 dot_S4096x64_S64x32_S4096x32_1_0_0_1_n_n 64 rfl rfl).symm k) = ix2 k n := funext fun a => Fin.ext (by
    match a with
    | ⟨0, _⟩ => exact (rhsB_0 _ _).trans hk
    | ⟨1, _⟩ => exact rhsB_1 _ _)
  rw [el, er]

/-! ## The product [4096,32] by [32,16] -/

theorem lhsC_0 (i : S4096x16.Idx) (q : dot_S4096x32_S32x16_S4096x16_1_0_0_1_n_n.contr.Idx) :
    (dot_S4096x32_S32x16_S4096x16_1_0_0_1_n_n.lhsIdx i q 0).val = (i 0).val := by
  unfold DotDims.lhsIdx
  rw [dif_neg (show ¬(0 : Fin S4096x32.rank) ∈ dot_S4096x32_S32x16_S4096x16_1_0_0_1_n_n.lhsBatch by decide), dif_pos (show (0 : Fin S4096x32.rank) ∈ dot_S4096x32_S32x16_S4096x16_1_0_0_1_n_n.lhsNonContracting by decide)]
  rfl
theorem lhsC_1 (i : S4096x16.Idx) (q : dot_S4096x32_S32x16_S4096x16_1_0_0_1_n_n.contr.Idx) :
    (dot_S4096x32_S32x16_S4096x16_1_0_0_1_n_n.lhsIdx i q 1).val = (q ⟨0, by decide⟩).val :=
  dot_S4096x32_S32x16_S4096x16_1_0_0_1_n_n.lhsIdx_val_of_single rfl i q
theorem rhsC_0 (i : S4096x16.Idx) (q : dot_S4096x32_S32x16_S4096x16_1_0_0_1_n_n.contr.Idx) :
    (dot_S4096x32_S32x16_S4096x16_1_0_0_1_n_n.rhsIdx i q 0).val = (q ⟨0, by decide⟩).val :=
  dot_S4096x32_S32x16_S4096x16_1_0_0_1_n_n.rhsIdx_val_of_single rfl i q
theorem rhsC_1 (i : S4096x16.Idx) (q : dot_S4096x32_S32x16_S4096x16_1_0_0_1_n_n.contr.Idx) :
    (dot_S4096x32_S32x16_S4096x16_1_0_0_1_n_n.rhsIdx i q 1).val = (i 1).val := by
  unfold DotDims.rhsIdx
  rw [dif_neg (show ¬(1 : Fin S32x16.rank) ∈ dot_S4096x32_S32x16_S4096x16_1_0_0_1_n_n.rhsBatch by decide), dif_pos (show (1 : Fin S32x16.rank) ∈ dot_S4096x32_S32x16_S4096x16_1_0_0_1_n_n.rhsNonContracting by decide)]
  rfl
/-- Into a zero accumulator the product at (r, n) is the sum over the 32 contracted coordinates. -/
theorem mmC_apply (l : FVec Ideal S4096x32 .bf16) (w : FVec Ideal S32x16 .bf16) (r : Fin 4096) (n : Fin 16) :
    FloatOps.matmul dot_S4096x32_S32x16_S4096x16_1_0_0_1_n_n none l w (constant (F := Ideal) S4096x16 .f32 0x00000000#32) (ix2 r n)
      = ∑ k : Fin 32, l (ix2 r k) * w (ix2 k n) := by
  rw [Ideal.matmul_constant_zero_apply, ← Equiv.sum_comp (ValueIdx.contrEquiv1 dot_S4096x32_S32x16_S4096x16_1_0_0_1_n_n 32 rfl rfl).symm]
  refine Finset.sum_congr rfl fun k _ => ?_
  have hk := ValueIdx.contrEquiv1_symm_val dot_S4096x32_S32x16_S4096x16_1_0_0_1_n_n 32 rfl rfl k
  have el : dot_S4096x32_S32x16_S4096x16_1_0_0_1_n_n.lhsIdx (ix2 r n) ((ValueIdx.contrEquiv1 dot_S4096x32_S32x16_S4096x16_1_0_0_1_n_n 32 rfl rfl).symm k) = ix2 r k := funext fun a => Fin.ext (by
    match a with
    | ⟨0, _⟩ => exact lhsC_0 _ _
    | ⟨1, _⟩ => exact (lhsC_1 _ _).trans hk)
  have er : dot_S4096x32_S32x16_S4096x16_1_0_0_1_n_n.rhsIdx (ix2 r n) ((ValueIdx.contrEquiv1 dot_S4096x32_S32x16_S4096x16_1_0_0_1_n_n 32 rfl rfl).symm k) = ix2 k n := funext fun a => Fin.ext (by
    match a with
    | ⟨0, _⟩ => exact (rhsC_0 _ _).trans hk
    | ⟨1, _⟩ => exact rhsC_1 _ _)
  rw [el, er]

/-! ## The product [4096,16] by [16,1] -/

theorem lhsD_0 (i : S4096x1.Idx) (q : dot_S4096x16_S16x1_S4096x1_1_0_0_1_n_n.contr.Idx) :
    (dot_S4096x16_S16x1_S4096x1_1_0_0_1_n_n.lhsIdx i q 0).val = (i 0).val := by
  unfold DotDims.lhsIdx
  rw [dif_neg (show ¬(0 : Fin S4096x16.rank) ∈ dot_S4096x16_S16x1_S4096x1_1_0_0_1_n_n.lhsBatch by decide), dif_pos (show (0 : Fin S4096x16.rank) ∈ dot_S4096x16_S16x1_S4096x1_1_0_0_1_n_n.lhsNonContracting by decide)]
  rfl
theorem lhsD_1 (i : S4096x1.Idx) (q : dot_S4096x16_S16x1_S4096x1_1_0_0_1_n_n.contr.Idx) :
    (dot_S4096x16_S16x1_S4096x1_1_0_0_1_n_n.lhsIdx i q 1).val = (q ⟨0, by decide⟩).val :=
  dot_S4096x16_S16x1_S4096x1_1_0_0_1_n_n.lhsIdx_val_of_single rfl i q
theorem rhsD_0 (i : S4096x1.Idx) (q : dot_S4096x16_S16x1_S4096x1_1_0_0_1_n_n.contr.Idx) :
    (dot_S4096x16_S16x1_S4096x1_1_0_0_1_n_n.rhsIdx i q 0).val = (q ⟨0, by decide⟩).val :=
  dot_S4096x16_S16x1_S4096x1_1_0_0_1_n_n.rhsIdx_val_of_single rfl i q
theorem rhsD_1 (i : S4096x1.Idx) (q : dot_S4096x16_S16x1_S4096x1_1_0_0_1_n_n.contr.Idx) :
    (dot_S4096x16_S16x1_S4096x1_1_0_0_1_n_n.rhsIdx i q 1).val = (i 1).val := by
  unfold DotDims.rhsIdx
  rw [dif_neg (show ¬(1 : Fin S16x1.rank) ∈ dot_S4096x16_S16x1_S4096x1_1_0_0_1_n_n.rhsBatch by decide), dif_pos (show (1 : Fin S16x1.rank) ∈ dot_S4096x16_S16x1_S4096x1_1_0_0_1_n_n.rhsNonContracting by decide)]
  rfl
/-- Into a zero accumulator the product at (r, n) is the sum over the 16 contracted coordinates. -/
theorem mmD_apply (l : FVec Ideal S4096x16 .bf16) (w : FVec Ideal S16x1 .bf16) (r : Fin 4096) (n : Fin 1) :
    FloatOps.matmul dot_S4096x16_S16x1_S4096x1_1_0_0_1_n_n none l w (constant (F := Ideal) S4096x1 .f32 0x00000000#32) (ix2 r n)
      = ∑ k : Fin 16, l (ix2 r k) * w (ix2 k n) := by
  rw [Ideal.matmul_constant_zero_apply, ← Equiv.sum_comp (ValueIdx.contrEquiv1 dot_S4096x16_S16x1_S4096x1_1_0_0_1_n_n 16 rfl rfl).symm]
  refine Finset.sum_congr rfl fun k _ => ?_
  have hk := ValueIdx.contrEquiv1_symm_val dot_S4096x16_S16x1_S4096x1_1_0_0_1_n_n 16 rfl rfl k
  have el : dot_S4096x16_S16x1_S4096x1_1_0_0_1_n_n.lhsIdx (ix2 r n) ((ValueIdx.contrEquiv1 dot_S4096x16_S16x1_S4096x1_1_0_0_1_n_n 16 rfl rfl).symm k) = ix2 r k := funext fun a => Fin.ext (by
    match a with
    | ⟨0, _⟩ => exact lhsD_0 _ _
    | ⟨1, _⟩ => exact (lhsD_1 _ _).trans hk)
  have er : dot_S4096x16_S16x1_S4096x1_1_0_0_1_n_n.rhsIdx (ix2 r n) ((ValueIdx.contrEquiv1 dot_S4096x16_S16x1_S4096x1_1_0_0_1_n_n 16 rfl rfl).symm k) = ix2 k n := funext fun a => Fin.ext (by
    match a with
    | ⟨0, _⟩ => exact (rhsD_0 _ _).trans hk
    | ⟨1, _⟩ => exact rhsD_1 _ _)
  rw [el, er]

/-! ## The two slices of the first weight matrix, and the bias rows -/

/-- Row 0 of the first weight matrix. -/
theorem w1_row0 (x4 : Vec Ideal S65x32 .f32) (k : Fin 1) (n : Fin 32) : k0_pay7 (F := Ideal) x4 (ix2 k n) = x4 (ix2 0 n) := by
  unfold k0_pay7
  refine extractStridedSlice_apply _ x4 _ (ix2 k n) (ix2 0 n) fun a => ?_
  match a with
  | ⟨0, _⟩ => show (0 : ℕ) = 0 + k.val; omega
  | ⟨1, _⟩ => show n.val = 0 + n.val; omega

/-- Rows 1..64 of the first weight matrix: row k of the slice is row k+1. -/
theorem w1_rows (x4 : Vec Ideal S65x32 .f32) (k : Fin 64) (n : Fin 32) : k0_pay8 (F := Ideal) x4 (ix2 k n) = x4 (ix2 k.succ n) := by
  unfold k0_pay8
  refine extractStridedSlice_apply _ x4 _ (ix2 k n) (ix2 k.succ n) fun a => ?_
  match a with
  | ⟨0, _⟩ => show k.succ.val = 1 + k.val; rw [Fin.val_succ]; omega
  | ⟨1, _⟩ => show n.val = 0 + n.val; omega

/-- A bias row [1,32] spread over the 4096 rows. -/
theorem bias32 {α : Type} (x5 : S1x32.Idx → α) (r : Fin 4096) (n : Fin 32) :
    broadcastTo S4096x32 (shapeCast S1x32 x5 shapeCasts_S1x32_S1x32) broadcasts_S1x32_S4096x32 (ix2 r n) = x5 (ix2 0 n) := by
  rw [shapeCast_self]
  refine broadcastTo_apply x5 _ (ix2 r n) (ix2 0 n) fun a => ?_
  match a with
  | ⟨0, _⟩ => show (0 : ℕ) = if (1 : ℕ) = 1 then 0 else r.val; rw [if_pos rfl]
  | ⟨1, _⟩ => show n.val = if (32 : ℕ) = 1 then 0 else n.val; rw [if_neg (by decide)]

/-- A bias row [1,16] spread over the 4096 rows. -/
theorem bias16 {α : Type} (x7 : S1x16.Idx → α) (r : Fin 4096) (n : Fin 16) :
    broadcastTo S4096x16 (shapeCast S1x16 x7 shapeCasts_S1x16_S1x16) broadcasts_S1x16_S4096x16 (ix2 r n) = x7 (ix2 0 n) := by
  rw [shapeCast_self]
  refine broadcastTo_apply x7 _ (ix2 r n) (ix2 0 n) fun a => ?_
  match a with
  | ⟨0, _⟩ => show (0 : ℕ) = if (1 : ℕ) = 1 then 0 else r.val; rw [if_pos rfl]
  | ⟨1, _⟩ => show n.val = if (16 : ℕ) = 1 then 0 else n.val; rw [if_neg (by decide)]

/-- The bias [1,1] spread over the 4096 rows. -/
theorem bias1 {α : Type} (x9 : S1x1.Idx → α) (r : Fin 4096) (n : Fin 1) :
    broadcastTo S4096x1 (shapeCast S1x1 x9 shapeCasts_S1x1_S1x1) broadcasts_S1x1_S4096x1 (ix2 r n) = x9 (ix2 0 0) := by
  rw [shapeCast_self]
  refine broadcastTo_apply x9 _ (ix2 r n) (ix2 0 0) fun a => ?_
  match a with
  | ⟨0, _⟩ => show (0 : ℕ) = if (1 : ℕ) = 1 then 0 else r.val; rw [if_pos rfl]
  | ⟨1, _⟩ => show (0 : ℕ) = if (1 : ℕ) = 1 then 0 else n.val; rw [if_pos rfl]

/-! ## The first layer's 65-term sum -/

/-- The one-term sum over the expectation and the 64-term sum over the row join into the sum over 65 inputs: input 0 is
    the expectation, input k+1 is entry k of the row. -/
theorem sum65 (q : Fin 1 → EReal) (xr : Fin 64 → EReal) (x4 : Vec Ideal S65x32 .f32) (n : Fin 32) :
    (∑ k : Fin 1, q k * k0_pay7 (F := Ideal) x4 (ix2 k n)) + (∑ k : Fin 64, xr k * k0_pay8 (F := Ideal) x4 (ix2 k n))
      = ∑ k : Fin 65, (Fin.cases (q 0) xr k : EReal) * x4 (ix2 k n) := by
  rw [Fin.sum_univ_succ (n := 64), Fin.sum_univ_one, w1_row0]
  simp only [Fin.cases_zero, Fin.cases_succ, w1_rows]

/-! ## The network on a row -/

/-- Read at row r, the kernel's network is the specification's: each product becomes its sum, each bias its entry, the
    first layer's two sums the 65-term sum; what is left is the specification's three layers, term for term (the
    rectifier's zero is the same literal on both sides). -/
theorem ker_mlp (v100 : FVec Ideal S4096x1 .f32) (v101 : Vec Ideal S4096x64 .f32) (x4 : Vec Ideal S65x32 .f32) (x5 : Vec Ideal S1x32 .f32)
    (x6 : Vec Ideal S32x16 .f32) (x7 : Vec Ideal S1x16 .f32) (x8 : Vec Ideal S16x1 .f32) (x9 : Vec Ideal S1x1 .f32) (r : Fin 4096) :
    k0_pay1 (F := Ideal) v100 v101 (k0_pay7 x4) (k0_pay8 x4) x5 x6 x7 x8 x9 (ix2 r 0)
      = mlp (v100 (ix2 r 0)) (fun k => v101 (ix2 r k)) x4 (fun i => x5 (ix2 0 (i 0))) x6 (fun i => x7 (ix2 0 (i 0))) x8 (fun i => x9 (ix2 0 (i 0))) := by
  unfold k0_pay1
  simp only [addf_apply, maximumf_apply, broadcast_apply, truncf_apply, mmA_apply, mmB_apply, mmC_apply, mmD_apply, bias32, bias16, bias1, sum65]
  rfl

end Cert.KerMlp
end
-- ==== Proof.KerArray.lean ====
/-
  The kernel's result array as one function of the argument arrays.

  The grid has 32 points; point t stages rows 4096 t … 4096 t + 4095 of x_q and x_c, the whole of every weight array,
  the parameter row, the bias rows and the row of 128 signs, and writes back rows 4096 t … of the one-column result.
  Row r of what point t writes back is the dense network applied to the expectation of row 4096 t + r's product state
  and to that row of x_c: the specification at that row. The 32 blocks tile the column, so after the run the column
  holds the specification at every row; the reshape that follows the region drops the unit axis.
-/
import proofs.«129862_j9509057593682_1_alg».proof.Proof.Spec
import proofs.«129862_j9509057593682_1_alg».proof.Proof.QMath
import proofs.«129862_j9509057593682_1_alg».proof.Proof.KerQ
import proofs.«129862_j9509057593682_1_alg».proof.Proof.KerMlp
import proofs.«129862_j9509057593682_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HValue

open Cert.KernelIdeal Cert.KernelIdeal.Gen Idealize.ShloMosaic Idealize.ShloMosaic.TcCoe Idealize.SL.Sem
open Idealize.ShloMosaic.ValueIdx Cert.QSpec
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

theorem idx_facts : ∀ t : Fin cfg0.N,
    win0_0.index t (0 : Fin 2) = win0_10.index t (0 : Fin 2) ∧ win0_0.index t (1 : Fin 2) = 0
    ∧ win0_1.index t (0 : Fin 2) = win0_10.index t (0 : Fin 2) ∧ win0_1.index t (1 : Fin 2) = 0
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t (0 : Fin 2) = t.val ∧ win0_10.index t (1 : Fin 2) = 0 :=
  (by decide +kernel : ∀ t : Fin grid0.N, _)

theorem V_v1 (c : Dev nD) : (V m c main_v1 : S1x7.Idx → EReal) = shapeCast S1x7 (m ((c : Thread nD τ).loc main_arg2)) shapeCasts_S7_S1x7 := by
  show StableHlo.after hostOps0 (fun b => m (c, b)) (Proc.devRef .tc main_v1) = _
  after_results
  rfl

theorem V_v0 (c : Dev nD) : (V m c main_v0 : S1x128.Idx → EReal) = shapeCast S1x128 (fun i : S128.Idx => Ideal.ofBits .f32 (lit0 (S128.rowMajor i))) shapeCasts_S128_S1x128 := by
  show StableHlo.after hostOps0 (fun b => m (c, b)) (Proc.devRef .tc main_v0) = _
  after_results
  rfl

theorem V_v2 (c : Dev nD) : (V m c main_v2 : S1x32.Idx → EReal) = shapeCast S1x32 (m ((c : Thread nD τ).loc main_arg4)) shapeCasts_S32_S1x32 := by
  show StableHlo.after hostOps0 (fun b => m (c, b)) (Proc.devRef .tc main_v2) = _
  after_results
  rfl
theorem V_v3 (c : Dev nD) : (V m c main_v3 : S1x16.Idx → EReal) = shapeCast S1x16 (m ((c : Thread nD τ).loc main_arg6)) shapeCasts_S16_S1x16 := by
  show StableHlo.after hostOps0 (fun b => m (c, b)) (Proc.devRef .tc main_v3) = _
  after_results
  rfl
theorem V_v4 (c : Dev nD) : (V m c main_v4 : S1x1.Idx → EReal) = shapeCast S1x1 (m ((c : Thread nD τ).loc main_arg8)) shapeCasts_S1_S1x1 := by
  show StableHlo.after hostOps0 (fun b => m (c, b)) (Proc.devRef .tc main_v4) = _
  after_results
  rfl

/-! The ten input blocks at a grid point, named at their literal types. -/
abbrev B0 (c : Dev nD) (t : Fin cfg0.N) : Vec Ideal S4096x7 .f32 := iblk m c 0 t
abbrev B1 (c : Dev nD) (t : Fin cfg0.N) : Vec Ideal S4096x64 .f32 := iblk m c 1 t
abbrev B2 (c : Dev nD) (t : Fin cfg0.N) : Vec Ideal S1x7 .f32 := iblk m c 2 t
abbrev B3 (c : Dev nD) (t : Fin cfg0.N) : Vec Ideal S1x128 .f32 := iblk m c 3 t
abbrev B4 (c : Dev nD) (t : Fin cfg0.N) : Vec Ideal S65x32 .f32 := iblk m c 4 t
abbrev B5 (c : Dev nD) (t : Fin cfg0.N) : Vec Ideal S1x32 .f32 := iblk m c 5 t
abbrev B6 (c : Dev nD) (t : Fin cfg0.N) : Vec Ideal S32x16 .f32 := iblk m c 6 t
abbrev B7 (c : Dev nD) (t : Fin cfg0.N) : Vec Ideal S1x16 .f32 := iblk m c 7 t
abbrev B8 (c : Dev nD) (t : Fin cfg0.N) : Vec Ideal S16x1 .f32 := iblk m c 8 t
abbrev B9 (c : Dev nD) (t : Fin cfg0.N) : Vec Ideal S1x1 .f32 := iblk m c 9 t

/-- Row r of the block of x_q at point t is row 4096 t + r of the array. -/
theorem B0_apply (c : Dev nD) (t : Fin cfg0.N) (r : Fin 4096) (q : Fin 7) (R : Fin 131072) (hR : R.val = t.val * 4096 + r.val) :
    B0 m c t (ix2 r q) = m ((c : Thread nD τ).loc main_arg0) (ix2 R q) := by
  show V m c main_arg0 (((cfg0.win 0).blk t).view.emb (ix2 r q)) = _
  rw [V_main_arg0]
  obtain ⟨e0, e1, -, -, -, -, -, -, -, -, -, -, e10, -⟩ := idx_facts t
  refine congrArg _ (funext fun a => Fin.ext ?_)
  match a with
  | ⟨0, _⟩ => show win0_0.index t (0 : Fin 2) * 4096 + 1 * r.val = R.val; omega
  | ⟨1, _⟩ => show win0_0.index t (1 : Fin 2) * 7 + 1 * q.val = q.val; omega

theorem B1_apply (c : Dev nD) (t : Fin cfg0.N) (r : Fin 4096) (k : Fin 64) (R : Fin 131072) (hR : R.val = t.val * 4096 + r.val) :
    B1 m c t (ix2 r k) = m ((c : Thread nD τ).loc main_arg1) (ix2 R k) := by
  show V m c main_arg1 (((cfg0.win 1).blk t).view.emb (ix2 r k)) = _
  rw [V_main_arg1]
  obtain ⟨-, -, e0, e1, -, -, -, -, -, -, -, -, e10, -⟩ := idx_facts t
  refine congrArg _ (funext fun a => Fin.ext ?_)
  match a with
  | ⟨0, _⟩ => show win0_1.index t (0 : Fin 2) * 4096 + 1 * r.val = R.val; omega
  | ⟨1, _⟩ => show win0_1.index t (1 : Fin 2) * 64 + 1 * k.val = k.val; omega

theorem B2_apply (c : Dev nD) (t : Fin cfg0.N) (q : Fin 7) :
    B2 m c t (ix2 0 q) = m ((c : Thread nD τ).loc main_arg2) (ix1 q) := by
  show V m c main_v1 (((cfg0.win 2).blk t).view.emb (ix2 0 q)) = _
  rw [V_v1]
  obtain ⟨-, -, -, -, e, -⟩ := idx_facts t
  have h : ((cfg0.win 2).blk t).view.emb (ix2 (0 : Fin 1) q) = ix2 (0 : Fin 1) q := by
    funext a; apply Fin.ext
    match a with
    | ⟨0, _⟩ => show win0_2.index t (0 : Fin 2) * 1 + 1 * 0 = 0; rw [e]; rfl
    | ⟨1, _⟩ => show win0_2.index t (1 : Fin 2) * 7 + 1 * q.val = q.val; rw [e]; show 0 * 7 + 1 * q.val = q.val; omega
  rw [h]
  exact shapeCast_a_1a_apply _ _ 0 q

/-- The sign row as the kernel finds it: entry j is the literal table's word j. -/
theorem B3_apply (c : Dev nD) (t : Fin cfg0.N) (j : Fin 128) : B3 m c t (ix2 0 j) = sgn j.val := by
  show V m c main_v0 (((cfg0.win 3).blk t).view.emb (ix2 0 j)) = _
  rw [V_v0]
  obtain ⟨-, -, -, -, -, e, -⟩ := idx_facts t
  have h : ((cfg0.win 3).blk t).view.emb (ix2 (0 : Fin 1) j) = ix2 (0 : Fin 1) j := by
    funext a; apply Fin.ext
    match a with
    | ⟨0, _⟩ => show win0_3.index t (0 : Fin 2) * 1 + 1 * 0 = 0; rw [e]; rfl
    | ⟨1, _⟩ => show win0_3.index t (1 : Fin 2) * 128 + 1 * j.val = j.val; rw [e]; show 0 * 128 + 1 * j.val = j.val; omega
  rw [h]
  refine (shapeCast_a_1a_apply _ _ 0 j).trans ?_
  have hj : S128.rowMajor (ix1 j) = j := Fin.ext (by rw [Shape.rowMajor_val_one])
  show Ideal.ofBits .f32 (lit0 (S128.rowMajor (ix1 j))) = _
  rw [hj]
  exact Cert.QMath.ofBits_sign j

theorem B4_eq (c : Dev nD) (t : Fin cfg0.N) : B4 m c t = m ((c : Thread nD τ).loc main_arg3) := by
  funext i
  show V m c main_arg3 (((cfg0.win 4).blk t).view.emb i) = _
  rw [V_main_arg3]
  obtain ⟨-, -, -, -, -, -, e, -⟩ := idx_facts t
  refine congrArg _ (funext fun a => Fin.ext ?_)
  match a with
  | ⟨0, _⟩ => show win0_4.index t (0 : Fin 2) * 65 + 1 * (i 0).val = (i 0).val; rw [e]; show 0 * 65 + 1 * (i 0).val = (i 0).val; omega
  | ⟨1, _⟩ => show win0_4.index t (1 : Fin 2) * 32 + 1 * (i 1).val = (i 1).val; rw [e]; show 0 * 32 + 1 * (i 1).val = (i 1).val; omega

theorem B6_eq (c : Dev nD) (t : Fin cfg0.N) : B6 m c t = m ((c : Thread nD τ).loc main_arg5) := by
  funext i
  show V m c main_arg5 (((cfg0.win 6).blk t).view.emb i) = _
  rw [V_main_arg5]
  obtain ⟨-, -, -, -, -, -, -, -, e, -⟩ := idx_facts t
  refine congrArg _ (funext fun a => Fin.ext ?_)
  match a with
  | ⟨0, _⟩ => show win0_6.index t (0 : Fin 2) * 32 + 1 * (i 0).val = (i 0).val; rw [e]; show 0 * 32 + 1 * (i 0).val = (i 0).val; omega
  | ⟨1, _⟩ => show win0_6.index t (1 : Fin 2) * 16 + 1 * (i 1).val = (i 1).val; rw [e]; show 0 * 16 + 1 * (i 1).val = (i 1).val; omega

theorem B8_eq (c : Dev nD) (t : Fin cfg0.N) : B8 m c t = m ((c : Thread nD τ).loc main_arg7) := by
  funext i
  show V m c main_arg7 (((cfg0.win 8).blk t).view.emb i) = _
  rw [V_main_arg7]
  obtain ⟨-, -, -, -, -, -, -, -, -, -, e, -⟩ := idx_facts t
  refine congrArg _ (funext fun a => Fin.ext ?_)
  match a with
  | ⟨0, _⟩ => show win0_8.index t (0 : Fin 2) * 16 + 1 * (i 0).val = (i 0).val; rw [e]; show 0 * 16 + 1 * (i 0).val = (i 0).val; omega
  | ⟨1, _⟩ => show win0_8.index t (1 : Fin 2) * 1 + 1 * (i 1).val = (i 1).val; rw [e]; show 0 * 1 + 1 * (i 1).val = (i 1).val; omega

theorem B5_row (c : Dev nD) (t : Fin cfg0.N) : (fun i : (⟨1, ![32]⟩ : Shape).Idx => B5 m c t (ix2 0 (i 0))) = m ((c : Thread nD τ).loc main_arg4) := by
  funext i
  show V m c main_v2 (((cfg0.win 5).blk t).view.emb (ix2 0 (i 0))) = _
  rw [V_v2]
  obtain ⟨-, -, -, -, -, -, -, e, -⟩ := idx_facts t
  have h : ((cfg0.win 5).blk t).view.emb (ix2 (0 : Fin 1) (i 0)) = ix2 (0 : Fin 1) (i 0) := by
    funext a; apply Fin.ext
    match a with
    | ⟨0, _⟩ => show win0_5.index t (0 : Fin 2) * 1 + 1 * 0 = 0; rw [e]; rfl
    | ⟨1, _⟩ => show win0_5.index t (1 : Fin 2) * 32 + 1 * (i 0).val = (i 0).val; rw [e]; show 0 * 32 + 1 * (i 0).val = (i 0).val; omega
  rw [h]
  refine (shapeCast_a_1a_apply _ _ 0 (i 0)).trans ?_
  rw [← eq_ix1 i]

theorem B7_row (c : Dev nD) (t : Fin cfg0.N) : (fun i : (⟨1, ![16]⟩ : Shape).Idx => B7 m c t (ix2 0 (i 0))) = m ((c : Thread nD τ).loc main_arg6) := by
  funext i
  show V m c main_v3 (((cfg0.win 7).blk t).view.emb (ix2 0 (i 0))) = _
  rw [V_v3]
  obtain ⟨-, -, -, -, -, -, -, -, -, e, -⟩ := idx_facts t
  have h : ((cfg0.win 7).blk t).view.emb (ix2 (0 : Fin 1) (i 0)) = ix2 (0 : Fin 1) (i 0) := by
    funext a; apply Fin.ext
    match a with
    | ⟨0, _⟩ => show win0_7.index t (0 : Fin 2) * 1 + 1 * 0 = 0; rw [e]; rfl
    | ⟨1, _⟩ => show win0_7.index t (1 : Fin 2) * 16 + 1 * (i 0).val = (i 0).val; rw [e]; show 0 * 16 + 1 * (i 0).val = (i 0).val; omega
  rw [h]
  refine (shapeCast_a_1a_apply _ _ 0 (i 0)).trans ?_
  rw [← eq_ix1 i]

theorem B9_row (c : Dev nD) (t : Fin cfg0.N) : (fun i : (⟨1, ![1]⟩ : Shape).Idx => B9 m c t (ix2 0 (i 0))) = m ((c : Thread nD τ).loc main_arg8) := by
  funext i
  show V m c main_v4 (((cfg0.win 9).blk t).view.emb (ix2 0 (i 0))) = _
  rw [V_v4]
  obtain ⟨-, -, -, -, -, -, -, -, -, -, -, e, -⟩ := idx_facts t
  have h : ((cfg0.win 9).blk t).view.emb (ix2 (0 : Fin 1) (i 0)) = ix2 (0 : Fin 1) (i 0) := by
    funext a; apply Fin.ext
    match a with
    | ⟨0, _⟩ => show win0_9.index t (0 : Fin 2) * 1 + 1 * 0 = 0; rw [e]; rfl
    | ⟨1, _⟩ => show win0_9.index t (1 : Fin 2) * 1 + 1 * (i 0).val = (i 0).val; rw [e]; show 0 * 1 + 1 * (i 0).val = (i 0).val; omega
  rw [h]
  refine (shapeCast_a_1a_apply _ _ 0 (i 0)).trans ?_
  rw [← eq_ix1 i]

/-- The result column as one function of the argument arrays: row R holds the specification's value at R. -/
def Gk (c : Dev nD) : S131072x1.Idx → EReal := fun i =>
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (ix1 (i 0))

/-- One row of the block at point t: the network on the expectation of that row's product state is the specification at
    row 4096 t + r of the arrays. -/
theorem row_value (c : Dev nD) (t : Fin cfg0.N) (r : Fin 4096) (R : Fin 131072) (hR : R.val = t.val * 4096 + r.val) :
    k0_pay1 (F := Ideal) (k0_pay6 (k0_pay3 (B0 m c t) (B2 m c t)) (k0_pay4 (B0 m c t) (B2 m c t)) (k0_pay5 (B0 m c t) (B2 m c t)) (B3 m c t))
        (B1 m c t) (k0_pay7 (B4 m c t)) (k0_pay8 (B4 m c t)) (B5 m c t) (B6 m c t) (B7 m c t) (B8 m c t) (B9 m c t) (ix2 r 0)
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (ix1 R) := by
  refine (Cert.KerMlp.ker_mlp _ (B1 m c t) (B4 m c t) (B5 m c t) (B6 m c t) (B7 m c t) (B8 m c t) (B9 m c t) r).trans ?_
  rw [Cert.KerQ.ker_q (B0 m c t) (B2 m c t) (B3 m c t) (B3_apply m c t) r]
  rw [B4_eq, B6_eq, B8_eq, B5_row, B7_row, B9_row]
  have h1 : (fun k : Fin 64 => B1 m c t (ix2 r k)) = fun k => m ((c : Thread nD τ).loc main_arg1) (ix2 R k) :=
    funext fun k => B1_apply m c t r k R hR
  have h0 : (state7 fun q e => amp (B0 m c t (ix2 r q)) (B2 m c t (ix2 0 q)) e)
      = rowState (m ((c : Thread nD τ).loc main_arg0)) (m ((c : Thread nD τ).loc main_arg2)) R := by
    unfold rowState
    refine congrArg state7 (funext fun q => funext fun e => ?_)
    rw [B0_apply m c t r q R hR, B2_apply]
  rw [h0, h1]
  rfl

/-- What point t writes back is block t of that column. -/
theorem flushed_eq (c : Dev nD) (t : Fin cfg0.N) :
    (dats m 0 c).flushed 10 t = ((cfg0.win 10).blk t).view.read (Elt Ideal) (Gk m c) := by
  show (cfg0.win 10).cut (grid0.coords t) ((dats m 0 c).after 10 t) = _
  rw [after0_10]
  unfold out0_10
  rw [View.canon_unit_zero hz]
  simp only [View.ld_unit_zero (S := S4096x7) hz, View.ld_unit_zero (S := S4096x64) hz, View.ld_unit_zero (S := S1x7) hz,
    View.ld_unit_zero (S := S1x128) hz, View.ld_unit_zero (S := S65x32) hz, View.ld_unit_zero (S := S1x32) hz,
    View.ld_unit_zero (S := S32x16) hz, View.ld_unit_zero (S := S1x16) hz, View.ld_unit_zero (S := S16x1) hz,
    View.ld_unit_zero (S := S1x1) hz]
  funext j
  obtain ⟨-, -, -, -, -, -, -, -, -, -, -, -, e10, -⟩ := idx_facts t
  have hj : (j : S4096x1.Idx) = ix2 (j 0) (0 : Fin 1) := by
    funext a; match a with
    | ⟨0, _⟩ => rfl
    | ⟨1, _⟩ => apply Fin.ext; show (j 1).val = 0; have h1 : (j 1).val < 1 := (j 1).isLt; omega
  show k0_pay1 (F := Ideal) (k0_pay6 (k0_pay3 (B0 m c t) (B2 m c t)) (k0_pay4 (B0 m c t) (B2 m c t)) (k0_pay5 (B0 m c t) (B2 m c t)) (B3 m c t))
        (B1 m c t) (k0_pay7 (B4 m c t)) (k0_pay8 (B4 m c t)) (B5 m c t) (B6 m c t) (B7 m c t) (B8 m c t) (B9 m c t) j
      = Gk m c (((cfg0.win 10).blk t).view.emb j)
  rw [hj]
  exact row_value m c t (j 0) ((((cfg0.win 10).blk t).view.emb (ix2 (j 0) (0 : Fin 1))) 0)
    (by show win0_10.index t (0 : Fin 2) * 4096 + 1 * (j 0).val = t.val * 4096 + (j 0).val; rw [e10]; omega)

/-- An index of the result column is in point t's block iff each coordinate is in the block's range. -/
theorem mem_blk (t : Fin cfg0.N) (i : S131072x1.Idx) :
    i ∈ ((cfg0.win 10).blk t).view.set ↔ ∀ a : Fin 2, win0_10.index t a * S4096x1.size a ≤ (i a).val ∧ (i a).val < win0_10.index t a * S4096x1.size a + S4096x1.size a := by
  show i ∈ ((View.whole main_v5).slice (win0_10.rect t)).set ↔ _
  rw [View.set_slice_whole, Rect.mem_set_unit]
  exact Iff.rfl

/-- Row R lies in the block of point R / 4096. -/
theorem cover (i : S131072x1.Idx) : ∃ t : Fin cfg0.N, (cfg0.win 10).flush t = true ∧ i ∈ ((cfg0.win 10).blk t).view.set := by
  have hi0 : (i 0).val < 131072 := (i 0).isLt
  have hi1 : (i 1).val < 1 := (i 1).isLt
  have hN : cfg0.N = 32 := N_0
  have ht : (i 0).val / 4096 < cfg0.N := by rw [hN]; omega
  obtain ⟨-, -, -, -, -, -, -, -, -, -, -, -, e0, e1⟩ := idx_facts ⟨(i 0).val / 4096, ht⟩
  refine ⟨⟨(i 0).val / 4096, ht⟩, flush0_10 _, ?_⟩
  rw [mem_blk]
  intro a
  match a with
  | ⟨0, _⟩ =>
    show win0_10.index ⟨(i 0).val / 4096, ht⟩ (0 : Fin 2) * 4096 ≤ (i 0).val ∧ (i 0).val < win0_10.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win0_10.index ⟨(i 0).val / 4096, ht⟩ (1 : Fin 2) * 1 ≤ (i 1).val ∧ (i 1).val < win0_10.index ⟨(i 0).val / 4096, ht⟩ (1 : Fin 2) * 1 + 1
    rw [e1]; omega

/-- The result column after the run. -/
theorem final (c : Dev nD) : (dats m 0 c).arrAt 10 cfg0.N = Gk m c :=
  (dats m 0 c).arrAt_eq_of_cover 10 (Gk m c) (fun t _ => flushed_eq m c t) cover

/-- The reshape after the region: the result vector is the specification. -/
theorem tail_v6 (c : Dev nD) :
    Pipeline.afterTail₀ cfgs (dats m) 0 (V0 m) [hostOps1] c main_v6
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  unfold Pipeline.afterTail₀
  show StableHlo.after hostOps1 _ (Proc.devRef .tc main_v6) = _
  after_results
  have hW : Pipeline.withArrays (cfgs 0).spec c (V0 m c) (fun w => (dats m 0 c).arrAt w (cfgs 0).N) (Proc.devRef .tc main_v5) = Gk m c :=
    (Pipeline.withArrays_arr spec0 launch0.win.arr_inj c _ _ 10).trans (final m c)
  funext i
  obtain ⟨b, rfl⟩ : ∃ b : Fin 131072, i = ix1 b := ⟨i 0, eq_ix1 i⟩
  show shapeCast S131072 (Pipeline.withArrays (cfgs 0).spec c (V0 m c) (fun w => (dats m 0 c).arrAt w (cfgs 0).N) (Proc.devRef .tc main_v5))
      shapeCasts_S131072x1_S131072 (ix1 b) = _
  rw [hW]
  exact shapeCast_apply (Gk m c) shapeCasts_S131072x1_S131072 (ix1 b) (ix2 b (0 : Fin 1))
    (by rewrite [Shape.rowMajor_val_two, Shape.rowMajor_val_one]; show b.val * 1 + 0 = b.val; omega)

/-- The kernel's run: the result vector ends at the specification of the argument arrays, which end unchanged. -/
theorem run : θ_run defs (onTc (τ := τ) (main (F := Ideal))) ⟨m, fun _ => 0, ρ⟩ (fun r => ∀ c : Dev nD,
      r.2.mem ((c.tc : Thread nD τ).loc main_v6)
        = G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v6 (Pipeline.mem_restRefs_of main_v6 (by decide) (by decide))).trans (tail_v6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 4).trans (((dats m 0 c).arrAt_in 4 rfl _).trans ((A_eq m c 4).trans (V_main_arg3 m c))),
      (((h c).2 main_arg4 (Pipeline.mem_restRefs_of main_arg4 (by decide) (by decide))).trans (W_main_arg4 m (dats m) c)),
      ((h c).1 6).trans (((dats m 0 c).arrAt_in 6 rfl _).trans ((A_eq m c 6).trans (V_main_arg5 m c))),
      (((h c).2 main_arg6 (Pipeline.mem_restRefs_of main_arg6 (by decide) (by decide))).trans (W_main_arg6 m (dats m) c)),
      ((h c).1 8).trans (((dats m 0 c).arrAt_in 8 rfl _).trans ((A_eq m c 8).trans (V_main_arg7 m c))),
      (((h c).2 main_arg8 (Pipeline.mem_restRefs_of main_arg8 (by decide) (by decide))).trans (W_main_arg8 m (dats m) c))⟩)
    (run_main m ρ)

end Cert.KernelIdeal.HValue
end
-- ==== Proof.RefMlp.lean ====
/-
  The tail of the reference, read row by row on the extended reals.

  After the ring of controlled-NOT gates the reference holds, for each row b, the 128 amplitudes as a [2, 64] table
  (first coordinate: wire 0's final bit h; second: the other six bits l). It squares every amplitude, sums the 64
  squares of the half h = 0 and of the half h = 1 (each float sum starts from the literal +0.0), and subtracts: that
  difference is the expectation q of row b. The expectation is then put in front of the row's 64 classical inputs,
  and the 65 numbers go through three dense layers 65 -> 32 -> 16 -> 1 with a rectifier after the first two.

  ref_q  : the expectation as the two sums of squares.
  ref_mlp: the final result at row b is the specification's network on (q, row b of the classical inputs).
-/
import proofs.«129862_j9509057593682_1_alg».proof.Proof.Spec
import proofs.«129862_j9509057593682_1_alg».proof.Proof.RefRead
import proofs.«129862_j9509057593682_1_alg».proof.Proof.Gen.KernelIdeal.Skeleton
import Idealize.ShloMosaic.Lib.ValueIdx
import Idealize.ShloMosaic.Lib.Pipeline.Value

noncomputable section
open Idealize.ShloMosaic Idealize.ShloMosaic.ValueIdx Cert.QSpec

namespace Cert.RefTail
open Cert.ReferenceIdeal Cert.ReferenceIdeal.ReadP

/-! ## The expectation -/

/-- Element (b, l) of the half h = 0 after squaring: the slice [:, 0:1, :] reshaped to [B, 64] reads position
    (b, 0, l) of the table, because (b * 64 + l) / 64 = b and (b * 64 + l) % 64 = l for l < 64. -/
theorem sq_h0 (x0 : (⟨S131072x7, .f32⟩ : BufTy).Contents (Elt Ideal)) (x2 : (⟨S7, .f32⟩ : BufTy).Contents (Elt Ideal))
    (b : Fin 131072) (l : Fin 64) :
    val_main_v132 (F := Ideal) x0 x2 (idx_main_v133 (ix1 b) l)
      = val_main_v129 (F := Ideal) x0 x2 (ix3 b 0 l) * val_main_v129 (F := Ideal) x0 x2 (ix3 b 0 l) := by
  rw [val_main_v132_apply, val_main_v131_apply, val_main_v130_apply, Ideal.mulf_def]
  have e : idx_main_v131 (idx_main_v132 (idx_main_v133 (ix1 b) l)) = ix3 b 0 l := by
    funext a
    match a with
    | ⟨0, _⟩ => exact Fin.ext (by show (b.val * 64 + l.val) / 64 = b.val; omega)
    | ⟨1, _⟩ => exact Fin.ext (by show (0 : Nat) = 0; rfl)
    | ⟨2, _⟩ => exact Fin.ext (by show (b.val * 64 + l.val) % 64 = l.val; omega)
  rw [e]

/-- The same for the half h = 1: the slice [:, 1:2, :] starts at 1 on the middle axis. -/
theorem sq_h1 (x0 : (⟨S131072x7, .f32⟩ : BufTy).Contents (Elt Ideal)) (x2 : (⟨S7, .f32⟩ : BufTy).Contents (Elt Ideal))
    (b : Fin 131072) (l : Fin 64) :
    val_main_v135 (F := Ideal) x0 x2 (idx_main_v136 (ix1 b) l)
      = val_main_v129 (F := Ideal) x0 x2 (ix3 b 1 l) * val_main_v129 (F := Ideal) x0 x2 (ix3 b 1 l) := by
  rw [val_main_v135_apply, val_main_v134_apply, val_main_v130_apply, Ideal.mulf_def]
  have e : idx_main_v134 (idx_main_v135 (idx_main_v136 (ix1 b) l)) = ix3 b 1 l := by
    funext a
    match a with
    | ⟨0, _⟩ => exact Fin.ext (by show (b.val * 64 + l.val) / 64 = b.val; omega)
    | ⟨1, _⟩ => exact Fin.ext (by show (0 : Nat) + 1 = 1; rfl)
    | ⟨2, _⟩ => exact Fin.ext (by show (b.val * 64 + l.val) % 64 = l.val; omega)
  rw [e]

/-- The expectation of row b: the difference of the two float sums, each the literal +0.0 plus the 64 squares of its
    half. -/
theorem ref_q (x0 : (⟨S131072x7, .f32⟩ : BufTy).Contents (Elt Ideal)) (x2 : (⟨S7, .f32⟩ : BufTy).Contents (Elt Ideal)) (b : Fin 131072) :
    val_main_v137 (F := Ideal) x0 x2 (ix1 b)
      = (Ideal.ofBits .f32 0x00000000#32 + ∑ l : Fin 64, val_main_v129 (F := Ideal) x0 x2 (ix3 b 0 l) * val_main_v129 (F := Ideal) x0 x2 (ix3 b 0 l))
        - (Ideal.ofBits .f32 0x00000000#32 + ∑ l : Fin 64, val_main_v129 (F := Ideal) x0 x2 (ix3 b 1 l) * val_main_v129 (F := Ideal) x0 x2 (ix3 b 1 l)) := by
  rw [val_main_v137_apply, val_main_v133_apply, val_main_v136_apply, Ideal.subf_def,
    val_main_cst_0_apply, val_main_cst_1_apply, Ideal.ofBits_def]
  simp only [sq_h0, sq_h1]

/-! ## The dense network -/

/-- The joined row: position 0 of the 65 inputs is the expectation, position k + 1 is the row's classical input k
    (a concatenation along the second axis of a [B, 1] column and a [B, 64] block). -/
theorem cat_apply (x0 : (⟨S131072x7, .f32⟩ : BufTy).Contents (Elt Ideal)) (x1 : (⟨S131072x64, .f32⟩ : BufTy).Contents (Elt Ideal)) (x2 : (⟨S7, .f32⟩ : BufTy).Contents (Elt Ideal))
    (b : Fin 131072) (k : Fin 65) :
    val_main_v139 (F := Ideal) x0 x1 x2 (ix2 b k)
      = (Fin.cases (val_main_v137 (F := Ideal) x0 x2 (ix1 b)) (fun k => x1 (ix2 b k)) k : EReal) := by
  unfold val_main_v139
  refine Fin.cases ?_ (fun k' => ?_) k
  · rw [Fin.cases_zero]
    refine (concatenate_pair_apply_left (t := S131072x65) (s₁ := S131072x1) (s₂ := S131072x64) (1 : Fin 2) _ _ _
      (ix2 b 0) rfl (ix2 b (0 : Fin 1)) (fun a => by match a with | ⟨0, _⟩ => rfl | ⟨1, _⟩ => rfl)).trans ?_
    rw [val_main_v138_apply]
    exact congrArg _ (funext fun a => by match a with | ⟨0, _⟩ => rfl)
  · rw [Fin.cases_succ]
    exact concatenate_pair_apply_right (t := S131072x65) (s₁ := S131072x1) (s₂ := S131072x64) (1 : Fin 2) _ _ _
      (ix2 b k'.succ) rfl rfl (ix2 b k')
      (fun a ha => by
        match a with
        | ⟨0, _⟩ => rfl
        | ⟨1, _⟩ => exact absurd rfl ha)
      (by show k'.val + 1 = k'.val + 1; rfl)

/-- First layer at (b, n): the contraction over the 65 joined inputs with column n of W1, plus b1 n (broadcast along
    the rows), then the maximum with +0.0. -/
theorem l1_apply (x0 : (⟨S131072x7, .f32⟩ : BufTy).Contents (Elt Ideal)) (x1 : (⟨S131072x64, .f32⟩ : BufTy).Contents (Elt Ideal)) (x2 : (⟨S7, .f32⟩ : BufTy).Contents (Elt Ideal))
    (x3 : (⟨S65x32, .f32⟩ : BufTy).Contents (Elt Ideal)) (x4 : (⟨S32, .f32⟩ : BufTy).Contents (Elt Ideal)) (b : Fin 131072) (n : Fin 32) :
    val_main_v144 (F := Ideal) x0 x1 x2 x3 x4 (ix2 b n)
      = layer1 (val_main_v137 (F := Ideal) x0 x2 (ix1 b)) (fun k => x1 (ix2 b k)) x3 x4 n := by
  rw [val_main_v144_apply, val_main_v143_apply, val_main_v140_apply, val_main_v142_apply, val_main_v141_apply,
    val_main_call0_v0_apply, val_main_call0_cst_apply, Ideal.maximumf_def, Ideal.addf_def, Ideal.ofBits_def]
  unfold layer1 relu
  have eb : idx_main_v141 (idx_main_v142 (ix2 b n)) = ix1 n := by
    funext a; match a with | ⟨0, _⟩ => rfl
  rw [eb]
  have hs : ∀ k : Fin 65, val_main_v139 (F := Ideal) x0 x1 x2 (lidx_main_v140 (ix2 b n) k) * x3 (ridx_main_v140 (ix2 b n) k)
      = (Fin.cases (val_main_v137 (F := Ideal) x0 x2 (ix1 b)) (fun k => x1 (ix2 b k)) k : EReal) * x3 (ix2 k n) := fun k => by
    have el : lidx_main_v140 (ix2 b n) k = ix2 b k := by
      funext a; match a with | ⟨0, _⟩ => rfl | ⟨1, _⟩ => rfl
    have er : ridx_main_v140 (ix2 b n) k = ix2 k n := by
      funext a; match a with | ⟨0, _⟩ => rfl | ⟨1, _⟩ => rfl
    rw [el, er, cat_apply]
  rw [Finset.sum_congr rfl fun k _ => hs k]

/-- Second layer at (b, n): the contraction over the 32 first-layer outputs of row b with column n of W2, plus b2 n,
    then the maximum with +0.0. -/
theorem l2_apply (x0 : (⟨S131072x7, .f32⟩ : BufTy).Contents (Elt Ideal)) (x1 : (⟨S131072x64, .f32⟩ : BufTy).Contents (Elt Ideal)) (x2 : (⟨S7, .f32⟩ : BufTy).Contents (Elt Ideal))
    (x3 : (⟨S65x32, .f32⟩ : BufTy).Contents (Elt Ideal)) (x4 : (⟨S32, .f32⟩ : BufTy).Contents (Elt Ideal)) (x5 : (⟨S32x16, .f32⟩ : BufTy).Contents (Elt Ideal))
    (x6 : (⟨S16, .f32⟩ : BufTy).Contents (Elt Ideal)) (b : Fin 131072) (n : Fin 16) :
    val_main_v149 (F := Ideal) x0 x1 x2 x3 x4 x5 x6 (ix2 b n)
      = layer2 (fun m => val_main_v144 (F := Ideal) x0 x1 x2 x3 x4 (ix2 b m)) x5 x6 n := by
  rw [val_main_v149_apply, val_main_v148_apply, val_main_v145_apply, val_main_v147_apply, val_main_v146_apply,
    val_main_call1_v0_apply, val_main_call1_cst_apply, Ideal.maximumf_def, Ideal.addf_def, Ideal.ofBits_def]
  unfold layer2 relu
  have eb : idx_main_v146 (idx_main_v147 (ix2 b n)) = ix1 n := by
    funext a; match a with | ⟨0, _⟩ => rfl
  rw [eb]
  have hs : ∀ k : Fin 32, val_main_v144 (F := Ideal) x0 x1 x2 x3 x4 (lidx_main_v145 (ix2 b n) k) * x5 (ridx_main_v145 (ix2 b n) k)
      = val_main_v144 (F := Ideal) x0 x1 x2 x3 x4 (ix2 b k) * x5 (ix2 k n) := fun k => by
    have el : lidx_main_v145 (ix2 b n) k = ix2 b k := by
      funext a; match a with | ⟨0, _⟩ => rfl | ⟨1, _⟩ => rfl
    have er : ridx_main_v145 (ix2 b n) k = ix2 k n := by
      funext a; match a with | ⟨0, _⟩ => rfl | ⟨1, _⟩ => rfl
    rw [el, er]
  rw [Finset.sum_congr rfl fun k _ => hs k]

/-- Third layer at row b: the contraction over the 16 second-layer outputs with the one column of W3, plus b3 0; the
    final reshape [B, 1] -> [B] reads (b, 0) since b / 1 = b. -/
theorem l3_apply (x0 : (⟨S131072x7, .f32⟩ : BufTy).Contents (Elt Ideal)) (x1 : (⟨S131072x64, .f32⟩ : BufTy).Contents (Elt Ideal)) (x2 : (⟨S7, .f32⟩ : BufTy).Contents (Elt Ideal))
    (x3 : (⟨S65x32, .f32⟩ : BufTy).Contents (Elt Ideal)) (x4 : (⟨S32, .f32⟩ : BufTy).Contents (Elt Ideal)) (x5 : (⟨S32x16, .f32⟩ : BufTy).Contents (Elt Ideal))
    (x6 : (⟨S16, .f32⟩ : BufTy).Contents (Elt Ideal)) (x7 : (⟨S16x1, .f32⟩ : BufTy).Contents (Elt Ideal)) (x8 : (⟨S1, .f32⟩ : BufTy).Contents (Elt Ideal)) (b : Fin 131072) :
    val_main_v154 (F := Ideal) x0 x1 x2 x3 x4 x5 x6 x7 x8 (ix1 b)
      = layer3 (fun m => val_main_v149 (F := Ideal) x0 x1 x2 x3 x4 x5 x6 (ix2 b m)) x7 x8 := by
  rw [val_main_v154_apply, val_main_v153_apply, val_main_v150_apply, val_main_v152_apply, val_main_v151_apply,
    Ideal.addf_def]
  unfold layer3
  have eb : idx_main_v151 (idx_main_v152 (idx_main_v154 (ix1 b))) = ix1 0 := by
    funext a; match a with | ⟨0, _⟩ => rfl
  rw [eb]
  have hs : ∀ k : Fin 16, val_main_v149 (F := Ideal) x0 x1 x2 x3 x4 x5 x6 (lidx_main_v150 (idx_main_v154 (ix1 b)) k) * x7 (ridx_main_v150 (idx_main_v154 (ix1 b)) k)
      = val_main_v149 (F := Ideal) x0 x1 x2 x3 x4 x5 x6 (ix2 b k) * x7 (ix2 k 0) := fun k => by
    have el : lidx_main_v150 (idx_main_v154 (ix1 b)) k = ix2 b k := by
      funext a; match a with
      | ⟨0, _⟩ => exact Fin.ext (by show b.val / 1 = b.val; omega)
      | ⟨1, _⟩ => rfl
    have er : ridx_main_v150 (idx_main_v154 (ix1 b)) k = ix2 k 0 := by
      funext a; match a with | ⟨0, _⟩ => rfl | ⟨1, _⟩ => rfl
    rw [el, er]
  rw [Finset.sum_congr rfl fun k _ => hs k]

/-- The three layers composed: the reference's result at row b is the network on the expectation and the row. -/
theorem ref_mlp (x0 : (⟨S131072x7, .f32⟩ : BufTy).Contents (Elt Ideal)) (x1 : (⟨S131072x64, .f32⟩ : BufTy).Contents (Elt Ideal)) (x2 : (⟨S7, .f32⟩ : BufTy).Contents (Elt Ideal))
    (x3 : (⟨S65x32, .f32⟩ : BufTy).Contents (Elt Ideal)) (x4 : (⟨S32, .f32⟩ : BufTy).Contents (Elt Ideal)) (x5 : (⟨S32x16, .f32⟩ : BufTy).Contents (Elt Ideal))
    (x6 : (⟨S16, .f32⟩ : BufTy).Contents (Elt Ideal)) (x7 : (⟨S16x1, .f32⟩ : BufTy).Contents (Elt Ideal)) (x8 : (⟨S1, .f32⟩ : BufTy).Contents (Elt Ideal)) (b : Fin 131072) :
    val_main_v154 (F := Ideal) x0 x1 x2 x3 x4 x5 x6 x7 x8 (ix1 b)
      = mlp (val_main_v137 (F := Ideal) x0 x2 (ix1 b)) (fun k => x1 (ix2 b k)) x3 x4 x5 x6 x7 x8 := by
  rw [l3_apply]
  unfold mlp
  have h2 : (fun m => val_main_v149 (F := Ideal) x0 x1 x2 x3 x4 x5 x6 (ix2 b m))
      = layer2 (layer1 (val_main_v137 (F := Ideal) x0 x2 (ix1 b)) (fun k => x1 (ix2 b k)) x3 x4) x5 x6 := by
    funext m
    rw [l2_apply]
    exact congrArg (fun h => layer2 h x5 x6 m) (funext fun n => l1_apply x0 x1 x2 x3 x4 b n)
  rw [h2]

end Cert.RefTail
end
-- ==== Proof.RefState.lean ====
/-
  The reference's product state, read index by index on the extended reals.

  Row b carries seven angles. The reference first forms every wire's half angle (the row's angle plus the wire's
  parameter, times one half), takes its cosine and its sine, and stacks the two on a new last axis: a [B, 7, 2]
  array whose entry (b, q, e) is wire q's amplitude at basis value e. It then builds the 128 amplitudes wire by wire:
  the state on wires 0..n-1, a row of 2^n numbers, is multiplied on the grid [2^n, 2] by wire n's pair and the grid is
  flattened row-major, so amplitude j of the longer state is amplitude j / 2 of the shorter one times the pair at j % 2.
  Six such steps after wire 0 give the specification's `state7` of the seven pairs.
-/
import proofs.«129862_j9509057593682_1_alg».proof.Proof.Spec
import proofs.«129862_j9509057593682_1_alg».proof.Proof.RefRead
import Idealize.ShloMosaic.Lib.ValueIdx
import Idealize.ShloMosaic.Lib.Pipeline.Value
import Idealize.ShloMosaic.PureOps.Ideal

noncomputable section
open Idealize.ShloMosaic Idealize.ShloMosaic.ValueIdx Cert.QSpec

namespace Cert.RefState
open Cert.ReferenceIdeal Cert.ReferenceIdeal.Gen Cert.ReferenceIdeal.ReadP

/-- The half angle of wire q in row b: the row's angle plus the wire's parameter, times one half. -/
theorem v4_at (x0 : (⟨S131072x7, .f32⟩ : BufTy).Contents (Elt Ideal)) (x2 : (⟨S7, .f32⟩ : BufTy).Contents (Elt Ideal))
    (b : Fin 131072) (q : Fin 7) :
    val_main_v4 (F := Ideal) x0 x2 (ix2 b q) = halfAngle (x0 (ix2 b q)) (x2 (ix1 q)) := by
  rw [val_main_v4_apply, val_main_v2_apply, val_main_v1_apply, val_main_v0_apply, val_main_v3_apply, val_main_cst_apply]
  have e : idx_main_v0 (idx_main_v1 (ix2 b q)) = ix1 q := by
    funext a; match a with | ⟨0, _⟩ => rfl
  rw [e]
  rfl

/-- The stacked pair of wire q in row b: the cosine of the half angle at 0, the sine at 1. -/
theorem v9_at (x0 : (⟨S131072x7, .f32⟩ : BufTy).Contents (Elt Ideal)) (x2 : (⟨S7, .f32⟩ : BufTy).Contents (Elt Ideal))
    (b : Fin 131072) (q : Fin 7) (e : Fin 2) :
    val_main_v9 (F := Ideal) x0 x2 (ix3 b q e) = amp (x0 (ix2 b q)) (x2 (ix1 q)) e.val := by
  unfold val_main_v9
  match e with
  | ⟨0, _⟩ =>
    refine (concatenate_pair_apply_left (t := S131072x7x2) (s₁ := S131072x7x1) (s₂ := S131072x7x1) (2 : Fin 3)
      (val_main_v7 (F := Ideal) x0 x2) (val_main_v8 (F := Ideal) x0 x2)
      concatenates_S131072x7x1_S131072x7x1_S131072x7x2_d2 _ rfl (ix3 b q ⟨0, Nat.one_pos⟩)
      (fun a => by match a with | ⟨0, _⟩ => rfl | ⟨1, _⟩ => rfl | ⟨2, _⟩ => rfl)).trans ?_
    rw [val_main_v7_apply, val_main_v5_apply]
    have e7 : idx_main_v7 (ix3 b q ⟨0, Nat.one_pos⟩) = ix2 b q := by
      funext a; match a with | ⟨0, _⟩ => rfl | ⟨1, _⟩ => rfl
    rw [e7, v4_at, Ideal.hostUnary_cos_def]
    simp only [amp, if_true]
  | ⟨1, _⟩ =>
    refine (concatenate_pair_apply_right (t := S131072x7x2) (s₁ := S131072x7x1) (s₂ := S131072x7x1) (2 : Fin 3)
      (val_main_v7 (F := Ideal) x0 x2) (val_main_v8 (F := Ideal) x0 x2)
      concatenates_S131072x7x1_S131072x7x1_S131072x7x2_d2 _ rfl rfl (ix3 b q ⟨0, Nat.one_pos⟩)
      (fun a ha => by match a with | ⟨0, _⟩ => rfl | ⟨1, _⟩ => rfl | ⟨2, _⟩ => exact absurd rfl ha) rfl).trans ?_
    rw [val_main_v8_apply, val_main_v6_apply]
    have e8 : idx_main_v8 (ix3 b q ⟨0, Nat.one_pos⟩) = ix2 b q := by
      funext a; match a with | ⟨0, _⟩ => rfl | ⟨1, _⟩ => rfl
    rw [e8, v4_at, Ideal.hostUnary_sin_def]
    simp only [amp]
    rw [if_neg (by decide)]

/-- The state on wire 0 alone is wire 0's pair. -/
theorem v11_at (x0 : (⟨S131072x7, .f32⟩ : BufTy).Contents (Elt Ideal)) (x2 : (⟨S7, .f32⟩ : BufTy).Contents (Elt Ideal))
    (b : Fin 131072) (k : Fin 2) :
    val_main_v11 (F := Ideal) x0 x2 (ix2 b k) = val_main_v9 (F := Ideal) x0 x2 (ix3 b ⟨0, by decide⟩ k) := by
  have hb := b.isLt
  have hk := k.isLt
  rw [val_main_v11_apply, val_main_v10_apply]
  have e : idx_main_v10 (idx_main_v11 (ix2 b k)) = ix3 b ⟨0, by decide⟩ k := by
    funext a
    match a with
    | ⟨0, _⟩ => exact Fin.ext (by show (b.val * 2 + k.val) / 2 = b.val; omega)
    | ⟨1, _⟩ => exact Fin.ext (by show 0 = 0; rfl)
    | ⟨2, _⟩ => exact Fin.ext (by show (b.val * 2 + k.val) % 2 = k.val; omega)
  rw [e]

/-- Wire 1 joins: amplitude j of the state on wires 0..1 is amplitude j / 2 of the state on wires 0..0 times
    wire 1's pair at j % 2 (the product is taken on the grid [2, 2] and flattened row-major). -/
theorem v19_step (x0 : (⟨S131072x7, .f32⟩ : BufTy).Contents (Elt Ideal)) (x2 : (⟨S7, .f32⟩ : BufTy).Contents (Elt Ideal))
    (b : Fin 131072) (j : Fin 4) :
    val_main_v19 (F := Ideal) x0 x2 (ix2 b j)
      = val_main_v11 (F := Ideal) x0 x2 (ix2 b ⟨j.val / 2, by have := j.isLt; omega⟩)
        * val_main_v9 (F := Ideal) x0 x2 (ix3 b ⟨1, by decide⟩ ⟨j.val % 2, Nat.mod_lt _ (by decide)⟩) := by
  have hb := b.isLt
  have hj := j.isLt
  rw [val_main_v19_apply, val_main_v18_apply, val_main_v16_apply, val_main_v17_apply, val_main_v12_apply,
    val_main_v15_apply, val_main_v14_apply, val_main_v13_apply]
  have e1 : idx_main_v12 (idx_main_v16 (idx_main_v19 (ix2 b j)))
      = ix2 b ⟨j.val / 2, by omega⟩ := by
    funext a
    match a with
    | ⟨0, _⟩ => exact Fin.ext (by show (b.val * 4 + j.val) / 4 = b.val; omega)
    | ⟨1, _⟩ => exact Fin.ext (by show (b.val * 4 + j.val) / 2 % 2 = j.val / 2; omega)
  have e2 : idx_main_v13 (idx_main_v14 (idx_main_v15 (idx_main_v17 (idx_main_v19 (ix2 b j)))))
      = ix3 b ⟨1, by decide⟩ ⟨j.val % 2, Nat.mod_lt _ (by decide)⟩ := by
    funext a
    match a with
    | ⟨0, _⟩ => exact Fin.ext (by show ((b.val * 4 + j.val) / 4 * 2 + (b.val * 4 + j.val) % 2) / 2 = b.val; omega)
    | ⟨1, _⟩ => exact Fin.ext (by show 1 + 0 = 1; rfl)
    | ⟨2, _⟩ => exact Fin.ext (by show ((b.val * 4 + j.val) / 4 * 2 + (b.val * 4 + j.val) % 2) % 2 = j.val % 2; omega)
  rw [e1, e2]
  rfl

/-- Wire 2 joins: amplitude j of the state on wires 0..2 is amplitude j / 2 of the state on wires 0..1 times
    wire 2's pair at j % 2 (the product is taken on the grid [4, 2] and flattened row-major). -/
theorem v27_step (x0 : (⟨S131072x7, .f32⟩ : BufTy).Contents (Elt Ideal)) (x2 : (⟨S7, .f32⟩ : BufTy).Contents (Elt Ideal))
    (b : Fin 131072) (j : Fin 8) :
    val_main_v27 (F := Ideal) x0 x2 (ix2 b j)
      = val_main_v19 (F := Ideal) x0 x2 (ix2 b ⟨j.val / 2, by have := j.isLt; omega⟩)
        * val_main_v9 (F := Ideal) x0 x2 (ix3 b ⟨2, by decide⟩ ⟨j.val % 2, Nat.mod_lt _ (by decide)⟩) := by
  have hb := b.isLt
  have hj := j.isLt
  rw [val_main_v27_apply, val_main_v26_apply, val_main_v24_apply, val_main_v25_apply, val_main_v20_apply,
    val_main_v23_apply, val_main_v22_apply, val_main_v21_apply]
  have e1 : idx_main_v20 (idx_main_v24 (idx_main_v27 (ix2 b j)))
      = ix2 b ⟨j.val / 2, by omega⟩ := by
    funext a
    match a with
    | ⟨0, _⟩ => exact Fin.ext (by show (b.val * 8 + j.val) / 8 = b.val; omega)
    | ⟨1, _⟩ => exact Fin.ext (by show (b.val * 8 + j.val) / 2 % 4 = j.val / 2; omega)
  have e2 : idx_main_v21 (idx_main_v22 (idx_main_v23 (idx_main_v25 (idx_main_v27 (ix2 b j)))))
      = ix3 b ⟨2, by decide⟩ ⟨j.val % 2, Nat.mod_lt _ (by decide)⟩ := by
    funext a
    match a with
    | ⟨0, _⟩ => exact Fin.ext (by show ((b.val * 8 + j.val) / 8 * 2 + (b.val * 8 + j.val) % 2) / 2 = b.val; omega)
    | ⟨1, _⟩ => exact Fin.ext (by show 2 + 0 = 2; rfl)
    | ⟨2, _⟩ => exact Fin.ext (by show ((b.val * 8 + j.val) / 8 * 2 + (b.val * 8 + j.val) % 2) % 2 = j.val % 2; omega)
  rw [e1, e2]
  rfl

/-- Wire 3 joins: amplitude j of the state on wires 0..3 is amplitude j / 2 of the state on wires 0..2 times
    wire 3's pair at j % 2 (the product is taken on the grid [8, 2] and flattened row-major). -/
theorem v35_step (x0 : (⟨S131072x7, .f32⟩ : BufTy).Contents (Elt Ideal)) (x2 : (⟨S7, .f32⟩ : BufTy).Contents (Elt Ideal))
    (b : Fin 131072) (j : Fin 16) :
    val_main_v35 (F := Ideal) x0 x2 (ix2 b j)
      = val_main_v27 (F := Ideal) x0 x2 (ix2 b ⟨j.val / 2, by have := j.isLt; omega⟩)
        * val_main_v9 (F := Ideal) x0 x2 (ix3 b ⟨3, by decide⟩ ⟨j.val % 2, Nat.mod_lt _ (by decide)⟩) := by
  have hb := b.isLt
  have hj := j.isLt
  rw [val_main_v35_apply, val_main_v34_apply, val_main_v32_apply, val_main_v33_apply, val_main_v28_apply,
    val_main_v31_apply, val_main_v30_apply, val_main_v29_apply]
  have e1 : idx_main_v28 (idx_main_v32 (idx_main_v35 (ix2 b j)))
      = ix2 b ⟨j.val / 2, by omega⟩ := by
    funext a
    match a with
    | ⟨0, _⟩ => exact Fin.ext (by show (b.val * 16 + j.val) / 16 = b.val; omega)
    | ⟨1, _⟩ => exact Fin.ext (by show (b.val * 16 + j.val) / 2 % 8 = j.val / 2; omega)
  have e2 : idx_main_v29 (idx_main_v30 (idx_main_v31 (idx_main_v33 (idx_main_v35 (ix2 b j)))))
      = ix3 b ⟨3, by decide⟩ ⟨j.val % 2, Nat.mod_lt _ (by decide)⟩ := by
    funext a
    match a with
    | ⟨0, _⟩ => exact Fin.ext (by show ((b.val * 16 + j.val) / 16 * 2 + (b.val * 16 + j.val) % 2) / 2 = b.val; omega)
    | ⟨1, _⟩ => exact Fin.ext (by show 3 + 0 = 3; rfl)
    | ⟨2, _⟩ => exact Fin.ext (by show ((b.val * 16 + j.val) / 16 * 2 + (b.val * 16 + j.val) % 2) % 2 = j.val % 2; omega)
  rw [e1, e2]
  rfl

/-- Wire 4 joins: amplitude j of the state on wires 0..4 is amplitude j / 2 of the state on wires 0..3 times
    wire 4's pair at j % 2 (the product is taken on the grid [16, 2] and flattened row-major). -/
theorem v43_step (x0 : (⟨S131072x7, .f32⟩ : BufTy).Contents (Elt Ideal)) (x2 : (⟨S7, .f32⟩ : BufTy).Contents (Elt Ideal))
    (b : Fin 131072) (j : Fin 32) :
    val_main_v43 (F := Ideal) x0 x2 (ix2 b j)
      = val_main_v35 (F := Ideal) x0 x2 (ix2 b ⟨j.val / 2, by have := j.isLt; omega⟩)
        * val_main_v9 (F := Ideal) x0 x2 (ix3 b ⟨4, by decide⟩ ⟨j.val % 2, Nat.mod_lt _ (by decide)⟩) := by
  have hb := b.isLt
  have hj := j.isLt
  rw [val_main_v43_apply, val_main_v42_apply, val_main_v40_apply, val_main_v41_apply, val_main_v36_apply,
    val_main_v39_apply, val_main_v38_apply, val_main_v37_apply]
  have e1 : idx_main_v36 (idx_main_v40 (idx_main_v43 (ix2 b j)))
      = ix2 b ⟨j.val / 2, by omega⟩ := by
    funext a
    match a with
    | ⟨0, _⟩ => exact Fin.ext (by show (b.val * 32 + j.val) / 32 = b.val; omega)
    | ⟨1, _⟩ => exact Fin.ext (by show (b.val * 32 + j.val) / 2 % 16 = j.val / 2; omega)
  have e2 : idx_main_v37 (idx_main_v38 (idx_main_v39 (idx_main_v41 (idx_main_v43 (ix2 b j)))))
      = ix3 b ⟨4, by decide⟩ ⟨j.val % 2, Nat.mod_lt _ (by decide)⟩ := by
    funext a
    match a with
    | ⟨0, _⟩ => exact Fin.ext (by show ((b.val * 32 + j.val) / 32 * 2 + (b.val * 32 + j.val) % 2) / 2 = b.val; omega)
    | ⟨1, _⟩ => exact Fin.ext (by show 4 + 0 = 4; rfl)
    | ⟨2, _⟩ => exact Fin.ext (by show ((b.val * 32 + j.val) / 32 * 2 + (b.val * 32 + j.val) % 2) % 2 = j.val % 2; omega)
  rw [e1, e2]
  rfl

/-- Wire 5 joins: amplitude j of the state on wires 0..5 is amplitude j / 2 of the state on wires 0..4 times
    wire 5's pair at j % 2 (the product is taken on the grid [32, 2] and flattened row-major). -/
theorem v51_step (x0 : (⟨S131072x7, .f32⟩ : BufTy).Contents (Elt Ideal)) (x2 : (⟨S7, .f32⟩ : BufTy).Contents (Elt Ideal))
    (b : Fin 131072) (j : Fin 64) :
    val_main_v51 (F := Ideal) x0 x2 (ix2 b j)
      = val_main_v43 (F := Ideal) x0 x2 (ix2 b ⟨j.val / 2, by have := j.isLt; omega⟩)
        * val_main_v9 (F := Ideal) x0 x2 (ix3 b ⟨5, by decide⟩ ⟨j.val % 2, Nat.mod_lt _ (by decide)⟩) := by
  have hb := b.isLt
  have hj := j.isLt
  rw [val_main_v51_apply, val_main_v50_apply, val_main_v48_apply, val_main_v49_apply, val_main_v44_apply,
    val_main_v47_apply, val_main_v46_apply, val_main_v45_apply]
  have e1 : idx_main_v44 (idx_main_v48 (idx_main_v51 (ix2 b j)))
      = ix2 b ⟨j.val / 2, by omega⟩ := by
    funext a
    match a with
    | ⟨0, _⟩ => exact Fin.ext (by show (b.val * 64 + j.val) / 64 = b.val; omega)
    | ⟨1, _⟩ => exact Fin.ext (by show (b.val * 64 + j.val) / 2 % 32 = j.val / 2; omega)
  have e2 : idx_main_v45 (idx_main_v46 (idx_main_v47 (idx_main_v49 (idx_main_v51 (ix2 b j)))))
      = ix3 b ⟨5, by decide⟩ ⟨j.val % 2, Nat.mod_lt _ (by decide)⟩ := by
    funext a
    match a with
    | ⟨0, _⟩ => exact Fin.ext (by show ((b.val * 64 + j.val) / 64 * 2 + (b.val * 64 + j.val) % 2) / 2 = b.val; omega)
    | ⟨1, _⟩ => exact Fin.ext (by show 5 + 0 = 5; rfl)
    | ⟨2, _⟩ => exact Fin.ext (by show ((b.val * 64 + j.val) / 64 * 2 + (b.val * 64 + j.val) % 2) % 2 = j.val % 2; omega)
  rw [e1, e2]
  rfl

/-- Wire 6 joins: amplitude j of the state on wires 0..6 is amplitude j / 2 of the state on wires 0..5 times
    wire 6's pair at j % 2 (the product is taken on the grid [64, 2] and flattened row-major). -/
theorem v59_step (x0 : (⟨S131072x7, .f32⟩ : BufTy).Contents (Elt Ideal)) (x2 : (⟨S7, .f32⟩ : BufTy).Contents (Elt Ideal))
    (b : Fin 131072) (j : Fin 128) :
    val_main_v59 (F := Ideal) x0 x2 (ix2 b j)
      = val_main_v51 (F := Ideal) x0 x2 (ix2 b ⟨j.val / 2, by have := j.isLt; omega⟩)
        * val_main_v9 (F := Ideal) x0 x2 (ix3 b ⟨6, by decide⟩ ⟨j.val % 2, Nat.mod_lt _ (by decide)⟩) := by
  have hb := b.isLt
  have hj := j.isLt
  rw [val_main_v59_apply, val_main_v58_apply, val_main_v56_apply, val_main_v57_apply, val_main_v52_apply,
    val_main_v55_apply, val_main_v54_apply, val_main_v53_apply]
  have e1 : idx_main_v52 (idx_main_v56 (idx_main_v59 (ix2 b j)))
      = ix2 b ⟨j.val / 2, by omega⟩ := by
    funext a
    match a with
    | ⟨0, _⟩ => exact Fin.ext (by show (b.val * 128 + j.val) / 128 = b.val; omega)
    | ⟨1, _⟩ => exact Fin.ext (by show (b.val * 128 + j.val) / 2 % 64 = j.val / 2; omega)
  have e2 : idx_main_v53 (idx_main_v54 (idx_main_v55 (idx_main_v57 (idx_main_v59 (ix2 b j)))))
      = ix3 b ⟨6, by decide⟩ ⟨j.val % 2, Nat.mod_lt _ (by decide)⟩ := by
    funext a
    match a with
    | ⟨0, _⟩ => exact Fin.ext (by show ((b.val * 128 + j.val) / 128 * 2 + (b.val * 128 + j.val) % 2) / 2 = b.val; omega)
    | ⟨1, _⟩ => exact Fin.ext (by show 6 + 0 = 6; rfl)
    | ⟨2, _⟩ => exact Fin.ext (by show ((b.val * 128 + j.val) / 128 * 2 + (b.val * 128 + j.val) % 2) % 2 = j.val % 2; omega)
  rw [e1, e2]
  rfl

/-- The seven wires' amplitude pairs of row b. -/
def pairs (x0 : (⟨S131072x7, .f32⟩ : BufTy).Contents (Elt Ideal)) (x2 : (⟨S7, .f32⟩ : BufTy).Contents (Elt Ideal)) (b : Fin 131072) : Fin 7 → ℕ → EReal :=
  fun q e => amp (x0 (ix2 b q)) (x2 (ix1 q)) e

/-- The state on wire 0 alone, as a function of the position. -/
theorem st0 (x0 : (⟨S131072x7, .f32⟩ : BufTy).Contents (Elt Ideal)) (x2 : (⟨S7, .f32⟩ : BufTy).Contents (Elt Ideal)) (b : Fin 131072) (k : Fin 2) :
    val_main_v11 (F := Ideal) x0 x2 (ix2 b k) = (fun j => pairs x0 x2 b 0 (j % 2)) k.val := by
  rw [v11_at, v9_at]
  show amp _ _ k.val = amp _ _ (k.val % 2)
  rw [Nat.mod_eq_of_lt k.isLt]
  rfl

/-- The state on wires 0..1, as a function of the position. -/
theorem st1 (x0 : (⟨S131072x7, .f32⟩ : BufTy).Contents (Elt Ideal)) (x2 : (⟨S7, .f32⟩ : BufTy).Contents (Elt Ideal)) (b : Fin 131072) (j : Fin 4) :
    val_main_v19 (F := Ideal) x0 x2 (ix2 b j) = (ext (fun j => pairs x0 x2 b 0 (j % 2)) (pairs x0 x2 b 1)) j.val := by
  rw [v19_step, st0, v9_at]
  rfl

/-- The state on wires 0..2, as a function of the position. -/
theorem st2 (x0 : (⟨S131072x7, .f32⟩ : BufTy).Contents (Elt Ideal)) (x2 : (⟨S7, .f32⟩ : BufTy).Contents (Elt Ideal)) (b : Fin 131072) (j : Fin 8) :
    val_main_v27 (F := Ideal) x0 x2 (ix2 b j) = (ext (ext (fun j => pairs x0 x2 b 0 (j % 2)) (pairs x0 x2 b 1)) (pairs x0 x2 b 2)) j.val := by
  rw [v27_step, st1, v9_at]
  rfl

/-- The state on wires 0..3, as a function of the position. -/
theorem st3 (x0 : (⟨S131072x7, .f32⟩ : BufTy).Contents (Elt Ideal)) (x2 : (⟨S7, .f32⟩ : BufTy).Contents (Elt Ideal)) (b : Fin 131072) (j : Fin 16) :
    val_main_v35 (F := Ideal) x0 x2 (ix2 b j) = (ext (ext (ext (fun j => pairs x0 x2 b 0 (j % 2)) (pairs x0 x2 b 1)) (pairs x0 x2 b 2)) (pairs x0 x2 b 3)) j.val := by
  rw [v35_step, st2, v9_at]
  rfl

/-- The state on wires 0..4, as a function of the position. -/
theorem st4 (x0 : (⟨S131072x7, .f32⟩ : BufTy).Contents (Elt Ideal)) (x2 : (⟨S7, .f32⟩ : BufTy).Contents (Elt Ideal)) (b : Fin 131072) (j : Fin 32) :
    val_main_v43 (F := Ideal) x0 x2 (ix2 b j) = (ext (ext (ext (ext (fun j => pairs x0 x2 b 0 (j % 2)) (pairs x0 x2 b 1)) (pairs x0 x2 b 2)) (pairs x0 x2 b 3)) (pairs x0 x2 b 4)) j.val := by
  rw [v43_step, st3, v9_at]
  rfl

/-- The state on wires 0..5, as a function of the position. -/
theorem st5 (x0 : (⟨S131072x7, .f32⟩ : BufTy).Contents (Elt Ideal)) (x2 : (⟨S7, .f32⟩ : BufTy).Contents (Elt Ideal)) (b : Fin 131072) (j : Fin 64) :
    val_main_v51 (F := Ideal) x0 x2 (ix2 b j) = (ext (ext (ext (ext (ext (fun j => pairs x0 x2 b 0 (j % 2)) (pairs x0 x2 b 1)) (pairs x0 x2 b 2)) (pairs x0 x2 b 3)) (pairs x0 x2 b 4)) (pairs x0 x2 b 5)) j.val := by
  rw [v51_step, st4, v9_at]
  rfl

/-- The state on wires 0..6, as a function of the position. -/
theorem st6 (x0 : (⟨S131072x7, .f32⟩ : BufTy).Contents (Elt Ideal)) (x2 : (⟨S7, .f32⟩ : BufTy).Contents (Elt Ideal)) (b : Fin 131072) (j : Fin 128) :
    val_main_v59 (F := Ideal) x0 x2 (ix2 b j) = (ext (ext (ext (ext (ext (ext (fun j => pairs x0 x2 b 0 (j % 2)) (pairs x0 x2 b 1)) (pairs x0 x2 b 2)) (pairs x0 x2 b 3)) (pairs x0 x2 b 4)) (pairs x0 x2 b 5)) (pairs x0 x2 b 6)) j.val := by
  rw [v59_step, st5, v9_at]
  rfl

/-- The reference's product state: row b's 128 amplitudes are the product state of its seven wires. -/
theorem ref_state (x0 : (⟨S131072x7, .f32⟩ : BufTy).Contents (Elt Ideal)) (x2 : (⟨S7, .f32⟩ : BufTy).Contents (Elt Ideal))
    (b : Fin 131072) (j : Fin 128) :
    val_main_v59 (F := Ideal) x0 x2 (ix2 b j) = rowState x0 x2 b j.val := by
  rw [st6]
  rfl

end Cert.RefState
end
-- ==== Proof.RefRingIdx.lean ====
/-
  Rank-7 and rank-8 indices by their coordinates, their row-major positions as one sum of products, and the one
  re-indexing the ring repeats seven times: on a [B,2,2,2,2,2,2,2] array, keep the half with axis 1 at 0, reverse the
  half with axis 1 at 1 along axis 2, and join the halves again along axis 1.
-/
import proofs.«129862_j9509057593682_1_alg».proof.Proof.RefRead
import Idealize.ShloMosaic.Lib.ValueIdx
import Idealize.ShloMosaic.Lib.Pipeline.Value

noncomputable section
open Idealize.ShloMosaic Idealize.ShloMosaic.ValueIdx

namespace Cert.RefRing

/-- Rank 7: the row-major position as one sum of products. -/
theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6
        + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-- Rank 8: the row-major position as one sum of products. -/
theorem rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5 + (i 5).val) * d 6
        + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-- A rank-7 index from its coordinates. -/
abbrev ix7 {n0 n1 n2 n3 n4 n5 n6 : Nat} (a0 : Fin n0) (a1 : Fin n1) (a2 : Fin n2) (a3 : Fin n3) (a4 : Fin n4) (a5 : Fin n5)
    (a6 : Fin n6) : (⟨7, ![n0, n1, n2, n3, n4, n5, n6]⟩ : Shape).Idx :=
  fun g => match g with
    | ⟨0, _⟩ => a0 | ⟨1, _⟩ => a1 | ⟨2, _⟩ => a2 | ⟨3, _⟩ => a3 | ⟨4, _⟩ => a4 | ⟨5, _⟩ => a5 | ⟨6, _⟩ => a6

/-- A rank-8 index from its coordinates. -/
abbrev ix8 {n0 n1 n2 n3 n4 n5 n6 n7 : Nat} (a0 : Fin n0) (a1 : Fin n1) (a2 : Fin n2) (a3 : Fin n3) (a4 : Fin n4) (a5 : Fin n5)
    (a6 : Fin n6) (a7 : Fin n7) : (⟨8, ![n0, n1, n2, n3, n4, n5, n6, n7]⟩ : Shape).Idx :=
  fun g => match g with
    | ⟨0, _⟩ => a0 | ⟨1, _⟩ => a1 | ⟨2, _⟩ => a2 | ⟨3, _⟩ => a3 | ⟨4, _⟩ => a4 | ⟨5, _⟩ => a5 | ⟨6, _⟩ => a6 | ⟨7, _⟩ => a7

open Cert.ReferenceIdeal Cert.ReferenceIdeal.Gen Cert.ReferenceIdeal.ReadP

/-- One controlled-NOT on axes (1, 2) of a [B,2,2,2,2,2,2,2] array, as the reference spells it: the half with axis 1 at 0 is
    kept, the half with axis 1 at 1 is reversed along axis 2; each half loses its unit axis and gets it back, and the two
    are joined along axis 1. -/
def core {α : Type} (X : S131072x2x2x2x2x2x2x2.Idx → α) : S131072x2x2x2x2x2x2x2.Idx → α :=
  concatenate S131072x2x2x2x2x2x2x2 1
    [⟨S131072x1x2x2x2x2x2x2, broadcastInDim S131072x1x2x2x2x2x2x2 ![0, 2, 3, 4, 5, 6, 7] bcast_S131072x2x2x2x2x2x2_S131072x1x2x2x2x2x2x2_0_2_3_4_5_6_7
        (shapeCast S131072x2x2x2x2x2x2
          (extractStridedSlice S131072x1x2x2x2x2x2x2 ![0, 0, 0, 0, 0, 0, 0, 0] X slices_S131072x2x2x2x2x2x2x2_S131072x1x2x2x2x2x2x2_0_0_0_0_0_0_0_0)
          shapeCasts_S131072x1x2x2x2x2x2x2_S131072x2x2x2x2x2x2)⟩,
     ⟨S131072x1x2x2x2x2x2x2, broadcastInDim S131072x1x2x2x2x2x2x2 ![0, 2, 3, 4, 5, 6, 7] bcast_S131072x2x2x2x2x2x2_S131072x1x2x2x2x2x2x2_0_2_3_4_5_6_7
        (shapeCast S131072x2x2x2x2x2x2
          (Host.reverse [2]
            (extractStridedSlice S131072x1x2x2x2x2x2x2 ![0, 1, 0, 0, 0, 0, 0, 0] X slices_S131072x2x2x2x2x2x2x2_S131072x1x2x2x2x2x2x2_0_1_0_0_0_0_0_0))
          shapeCasts_S131072x1x2x2x2x2x2x2_S131072x2x2x2x2x2x2)⟩]
    concatenates_S131072x1x2x2x2x2x2x2_S131072x1x2x2x2x2x2x2_S131072x2x2x2x2x2x2x2_d1

section
variable {F : FTy → Type} [FloatOps F]
theorem v68_core (x0 : (⟨S131072x7, .f32⟩ : BufTy).Contents (Elt F)) (x2 : (⟨S7, .f32⟩ : BufTy).Contents (Elt F)) :
    val_main_v68 (F := F) x0 x2 = core (val_main_v60 (F := F) x0 x2) := rfl
end

/-- Dropping the unit axis keeps the row-major position. -/
theorem drop_unit_pos (b : Fin 131072) (a2 r3 r4 r5 r6 r7 : Fin 2) :
    (S131072x1x2x2x2x2x2x2.rowMajor (ix8 b (0 : Fin 1) a2 r3 r4 r5 r6 r7)).val
      = (S131072x2x2x2x2x2x2.rowMajor (ix7 b a2 r3 r4 r5 r6 r7)).val := by
  rw [rowMajor_val_eight, rowMajor_val_seven]
  show (((((((b.val * 1 + 0) * 2 + a2.val) * 2 + r3.val) * 2 + r4.val) * 2 + r5.val) * 2 + r6.val) * 2 + r7.val)
    = ((((((b.val * 2 + a2.val) * 2 + r3.val) * 2 + r4.val) * 2 + r5.val) * 2 + r6.val) * 2 + r7.val)
  omega

/-- Reversing an axis of length two is adding one modulo two. -/
theorem rev_two (a : Fin 2) : a.rev = a + 1 := by
  revert a; decide

/-- The half with axis 1 at 0 is read back where it was. -/
theorem core_zero {α : Type} (X : S131072x2x2x2x2x2x2x2.Idx → α) (b : Fin 131072) (a2 r3 r4 r5 r6 r7 : Fin 2) :
    core X (ix8 b (0 : Fin 2) a2 r3 r4 r5 r6 r7) = X (ix8 b (0 : Fin 2) a2 r3 r4 r5 r6 r7) := by
  unfold core
  refine (concatenate_pair_apply_left (t := S131072x2x2x2x2x2x2x2) (s₁ := S131072x1x2x2x2x2x2x2) (s₂ := S131072x1x2x2x2x2x2x2) (1 : Fin 8) _ _ concatenates_S131072x1x2x2x2x2x2x2_S131072x1x2x2x2x2x2x2_S131072x2x2x2x2x2x2x2_d1
    (ix8 b (0 : Fin 2) a2 r3 r4 r5 r6 r7) rfl (ix8 b (0 : Fin 1) a2 r3 r4 r5 r6 r7)
    (fun a => match a with
      | ⟨0, _⟩ => rfl | ⟨1, _⟩ => rfl | ⟨2, _⟩ => rfl | ⟨3, _⟩ => rfl | ⟨4, _⟩ => rfl | ⟨5, _⟩ => rfl | ⟨6, _⟩ => rfl
      | ⟨7, _⟩ => rfl)).trans ?_
  refine (broadcastInDim_apply _ bcast_S131072x2x2x2x2x2x2_S131072x1x2x2x2x2x2x2_0_2_3_4_5_6_7 _
    (ix8 b (0 : Fin 1) a2 r3 r4 r5 r6 r7) (ix7 b a2 r3 r4 r5 r6 r7)
    (fun a => match a with
      | ⟨0, _⟩ => by show b.val = if (131072 : Nat) = 1 then 0 else b.val; rw [if_neg (by decide)]
      | ⟨1, _⟩ => by show a2.val = if (2 : Nat) = 1 then 0 else a2.val; rw [if_neg (by decide)]
      | ⟨2, _⟩ => by show r3.val = if (2 : Nat) = 1 then 0 else r3.val; rw [if_neg (by decide)]
      | ⟨3, _⟩ => by show r4.val = if (2 : Nat) = 1 then 0 else r4.val; rw [if_neg (by decide)]
      | ⟨4, _⟩ => by show r5.val = if (2 : Nat) = 1 then 0 else r5.val; rw [if_neg (by decide)]
      | ⟨5, _⟩ => by show r6.val = if (2 : Nat) = 1 then 0 else r6.val; rw [if_neg (by decide)]
      | ⟨6, _⟩ => by show r7.val = if (2 : Nat) = 1 then 0 else r7.val; rw [if_neg (by decide)])).trans ?_
  refine (shapeCast_apply _ shapeCasts_S131072x1x2x2x2x2x2x2_S131072x2x2x2x2x2x2 (ix7 b a2 r3 r4 r5 r6 r7)
    (ix8 b (0 : Fin 1) a2 r3 r4 r5 r6 r7) (drop_unit_pos b a2 r3 r4 r5 r6 r7)).trans ?_
  exact extractStridedSlice_apply ![0, 0, 0, 0, 0, 0, 0, 0] X slices_S131072x2x2x2x2x2x2x2_S131072x1x2x2x2x2x2x2_0_0_0_0_0_0_0_0
    (ix8 b (0 : Fin 1) a2 r3 r4 r5 r6 r7) (ix8 b (0 : Fin 2) a2 r3 r4 r5 r6 r7)
    (fun a => match a with
      | ⟨0, _⟩ => by show b.val = 0 + b.val; omega
      | ⟨1, _⟩ => by show (0 : Nat) = 0 + 0; rfl
      | ⟨2, _⟩ => by show a2.val = 0 + a2.val; omega
      | ⟨3, _⟩ => by show r3.val = 0 + r3.val; omega
      | ⟨4, _⟩ => by show r4.val = 0 + r4.val; omega
      | ⟨5, _⟩ => by show r5.val = 0 + r5.val; omega
      | ⟨6, _⟩ => by show r6.val = 0 + r6.val; omega
      | ⟨7, _⟩ => by show r7.val = 0 + r7.val; omega)

/-- The half with axis 1 at 1 is read back with axis 2 reversed. -/
theorem core_one {α : Type} (X : S131072x2x2x2x2x2x2x2.Idx → α) (b : Fin 131072) (a2 r3 r4 r5 r6 r7 : Fin 2) :
    core X (ix8 b (1 : Fin 2) a2 r3 r4 r5 r6 r7) = X (ix8 b (1 : Fin 2) a2.rev r3 r4 r5 r6 r7) := by
  unfold core
  refine (concatenate_pair_apply_right (t := S131072x2x2x2x2x2x2x2) (s₁ := S131072x1x2x2x2x2x2x2) (s₂ := S131072x1x2x2x2x2x2x2) (1 : Fin 8) _ _ concatenates_S131072x1x2x2x2x2x2x2_S131072x1x2x2x2x2x2x2_S131072x2x2x2x2x2x2x2_d1
    (ix8 b (1 : Fin 2) a2 r3 r4 r5 r6 r7) rfl rfl (ix8 b (0 : Fin 1) a2 r3 r4 r5 r6 r7)
    (fun a => match a with
      | ⟨0, _⟩ => fun _ => rfl | ⟨1, _⟩ => fun h => absurd rfl h | ⟨2, _⟩ => fun _ => rfl | ⟨3, _⟩ => fun _ => rfl
      | ⟨4, _⟩ => fun _ => rfl | ⟨5, _⟩ => fun _ => rfl | ⟨6, _⟩ => fun _ => rfl | ⟨7, _⟩ => fun _ => rfl) rfl).trans ?_
  refine (broadcastInDim_apply _ bcast_S131072x2x2x2x2x2x2_S131072x1x2x2x2x2x2x2_0_2_3_4_5_6_7 _
    (ix8 b (0 : Fin 1) a2 r3 r4 r5 r6 r7) (ix7 b a2 r3 r4 r5 r6 r7)
    (fun a => match a with
      | ⟨0, _⟩ => by show b.val = if (131072 : Nat) = 1 then 0 else b.val; rw [if_neg (by decide)]
      | ⟨1, _⟩ => by show a2.val = if (2 : Nat) = 1 then 0 else a2.val; rw [if_neg (by decide)]
      | ⟨2, _⟩ => by show r3.val = if (2 : Nat) = 1 then 0 else r3.val; rw [if_neg (by decide)]
      | ⟨3, _⟩ => by show r4.val = if (2 : Nat) = 1 then 0 else r4.val; rw [if_neg (by decide)]
      | ⟨4, _⟩ => by show r5.val = if (2 : Nat) = 1 then 0 else r5.val; rw [if_neg (by decide)]
      | ⟨5, _⟩ => by show r6.val = if (2 : Nat) = 1 then 0 else r6.val; rw [if_neg (by decide)]
      | ⟨6, _⟩ => by show r7.val = if (2 : Nat) = 1 then 0 else r7.val; rw [if_neg (by decide)])).trans ?_
  refine (shapeCast_apply _ shapeCasts_S131072x1x2x2x2x2x2x2_S131072x2x2x2x2x2x2 (ix7 b a2 r3 r4 r5 r6 r7)
    (ix8 b (0 : Fin 1) a2 r3 r4 r5 r6 r7) (drop_unit_pos b a2 r3 r4 r5 r6 r7)).trans ?_
  -- the reverse reads its operand at the index with coordinate 2 reversed
  show extractStridedSlice S131072x1x2x2x2x2x2x2 ![0, 1, 0, 0, 0, 0, 0, 0] X slices_S131072x2x2x2x2x2x2x2_S131072x1x2x2x2x2x2x2_0_1_0_0_0_0_0_0
      (fun a => if a ∈ [(2 : Fin 8)] then ((ix8 b (0 : Fin 1) a2 r3 r4 r5 r6 r7) a).rev else (ix8 b (0 : Fin 1) a2 r3 r4 r5 r6 r7) a)
    = X (ix8 b (1 : Fin 2) a2.rev r3 r4 r5 r6 r7)
  exact extractStridedSlice_apply ![0, 1, 0, 0, 0, 0, 0, 0] X slices_S131072x2x2x2x2x2x2x2_S131072x1x2x2x2x2x2x2_0_1_0_0_0_0_0_0
    _ (ix8 b (1 : Fin 2) a2.rev r3 r4 r5 r6 r7)
    (fun a => match a with
      | ⟨0, _⟩ => by show b.val = 0 + b.val; omega
      | ⟨1, _⟩ => by show (1 : Nat) = 1 + 0; rfl
      | ⟨2, _⟩ => by show a2.rev.val = 0 + a2.rev.val; omega
      | ⟨3, _⟩ => by show r3.val = 0 + r3.val; omega
      | ⟨4, _⟩ => by show r4.val = 0 + r4.val; omega
      | ⟨5, _⟩ => by show r5.val = 0 + r5.val; omega
      | ⟨6, _⟩ => by show r6.val = 0 + r6.val; omega
      | ⟨7, _⟩ => by show r7.val = 0 + r7.val; omega)

/-- The whole step: axis 2 is added axis 1, modulo two. -/
theorem core_apply {α : Type} (X : S131072x2x2x2x2x2x2x2.Idx → α) (b : Fin 131072) (a1 a2 r3 r4 r5 r6 r7 : Fin 2) :
    core X (ix8 b a1 a2 r3 r4 r5 r6 r7) = X (ix8 b a1 (a2 + a1) r3 r4 r5 r6 r7) := by
  obtain rfl | rfl : a1 = 0 ∨ a1 = 1 := by revert a1; decide
  · rw [core_zero, show a2 + 0 = a2 from by revert a2; decide]
  · rw [core_one, rev_two]

end Cert.RefRing
end
-- ==== Proof.RefRing.lean ====
/-
  The ring of seven controlled-NOT gates of the reference (control wire q, target wire q+1, the last one from wire 6 back
  to wire 0) only moves the 128 amplitudes of a row. The reference views a row as a [2,2,2,2,2,2,2] array, wire 0 on
  the first axis, and applies one gate at a time: a transpose brings the control and target axes to positions (1, 2),
  the step of `core` adds the control bit to the target bit modulo two, and a transpose puts the axes back. Read
  backwards from the result, an index (c1, …, c7) of the last array is taken by each transpose to a permutation of
  its coordinates and by each gate to the index with coordinate 2 replaced by coordinate 2 plus coordinate 1; after
  all seven gates the index reached in the first array is
  (c1+c7, c1+c2+c7, c2+c3, c3+c4, c4+c5, c5+c6, c6+c7) modulo two, which is the position `sigma` names.
-/
import proofs.«129862_j9509057593682_1_alg».proof.Proof.Spec
import proofs.«129862_j9509057593682_1_alg».proof.Proof.RefRead
import proofs.«129862_j9509057593682_1_alg».proof.Proof.RefRingIdx
import Idealize.ShloMosaic.Lib.ValueIdx
import Idealize.ShloMosaic.Lib.Pipeline.Value

noncomputable section
open Idealize.ShloMosaic Idealize.ShloMosaic.ValueIdx Cert.QSpec

namespace Cert.RefRing
open Cert.ReferenceIdeal Cert.ReferenceIdeal.Gen Cert.ReferenceIdeal.ReadP

/-! ### The transposes: each permutes the coordinates of an index -/

theorem idx69 (b : Fin 131072) (c1 c2 c3 c4 c5 c6 c7 : Fin 2) :
    idx_main_v69 (ix8 b c1 c2 c3 c4 c5 c6 c7) = ix8 b c3 c1 c2 c4 c5 c6 c7 := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

theorem idx78 (b : Fin 131072) (c1 c2 c3 c4 c5 c6 c7 : Fin 2) :
    idx_main_v78 (ix8 b c1 c2 c3 c4 c5 c6 c7) = ix8 b c2 c3 c1 c4 c5 c6 c7 := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

theorem idx79 (b : Fin 131072) (c1 c2 c3 c4 c5 c6 c7 : Fin 2) :
    idx_main_v79 (ix8 b c1 c2 c3 c4 c5 c6 c7) = ix8 b c3 c4 c1 c2 c5 c6 c7 := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

theorem idx88 (b : Fin 131072) (c1 c2 c3 c4 c5 c6 c7 : Fin 2) :
    idx_main_v88 (ix8 b c1 c2 c3 c4 c5 c6 c7) = ix8 b c3 c4 c1 c2 c5 c6 c7 := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

theorem idx89 (b : Fin 131072) (c1 c2 c3 c4 c5 c6 c7 : Fin 2) :
    idx_main_v89 (ix8 b c1 c2 c3 c4 c5 c6 c7) = ix8 b c3 c4 c5 c1 c2 c6 c7 := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

theorem idx98 (b : Fin 131072) (c1 c2 c3 c4 c5 c6 c7 : Fin 2) :
    idx_main_v98 (ix8 b c1 c2 c3 c4 c5 c6 c7) = ix8 b c4 c5 c1 c2 c3 c6 c7 := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

theorem idx99 (b : Fin 131072) (c1 c2 c3 c4 c5 c6 c7 : Fin 2) :
    idx_main_v99 (ix8 b c1 c2 c3 c4 c5 c6 c7) = ix8 b c3 c4 c5 c6 c1 c2 c7 := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

theorem idx108 (b : Fin 131072) (c1 c2 c3 c4 c5 c6 c7 : Fin 2) :
    idx_main_v108 (ix8 b c1 c2 c3 c4 c5 c6 c7) = ix8 b c5 c6 c1 c2 c3 c4 c7 := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

theorem idx109 (b : Fin 131072) (c1 c2 c3 c4 c5 c6 c7 : Fin 2) :
    idx_main_v109 (ix8 b c1 c2 c3 c4 c5 c6 c7) = ix8 b c3 c4 c5 c6 c7 c1 c2 := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

theorem idx118 (b : Fin 131072) (c1 c2 c3 c4 c5 c6 c7 : Fin 2) :
    idx_main_v118 (ix8 b c1 c2 c3 c4 c5 c6 c7) = ix8 b c6 c7 c1 c2 c3 c4 c5 := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

theorem idx119 (b : Fin 131072) (c1 c2 c3 c4 c5 c6 c7 : Fin 2) :
    idx_main_v119 (ix8 b c1 c2 c3 c4 c5 c6 c7) = ix8 b c2 c3 c4 c5 c6 c7 c1 := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

theorem idx128 (b : Fin 131072) (c1 c2 c3 c4 c5 c6 c7 : Fin 2) :
    idx_main_v128 (ix8 b c1 c2 c3 c4 c5 c6 c7) = ix8 b c7 c1 c2 c3 c4 c5 c6 := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

section
variable {F : FTy → Type} [FloatOps F]

/-! ### The arrays of the ring read at an index given by its coordinates -/

theorem v69_ix8 (x0 : (⟨S131072x7, .f32⟩ : BufTy).Contents (Elt F)) (x2 : (⟨S7, .f32⟩ : BufTy).Contents (Elt F)) (b : Fin 131072) (c1 c2 c3 c4 c5 c6 c7 : Fin 2) :
    val_main_v69 (F := F) x0 x2 (ix8 b c1 c2 c3 c4 c5 c6 c7) = val_main_v68 (F := F) x0 x2 (ix8 b c3 c1 c2 c4 c5 c6 c7) := by
  rw [val_main_v69_apply, idx69]

theorem v78_ix8 (x0 : (⟨S131072x7, .f32⟩ : BufTy).Contents (Elt F)) (x2 : (⟨S7, .f32⟩ : BufTy).Contents (Elt F)) (b : Fin 131072) (c1 c2 c3 c4 c5 c6 c7 : Fin 2) :
    val_main_v78 (F := F) x0 x2 (ix8 b c1 c2 c3 c4 c5 c6 c7) = val_main_v77 (F := F) x0 x2 (ix8 b c2 c3 c1 c4 c5 c6 c7) := by
  rw [val_main_v78_apply, idx78]

theorem v79_ix8 (x0 : (⟨S131072x7, .f32⟩ : BufTy).Contents (Elt F)) (x2 : (⟨S7, .f32⟩ : BufTy).Contents (Elt F)) (b : Fin 131072) (c1 c2 c3 c4 c5 c6 c7 : Fin 2) :
    val_main_v79 (F := F) x0 x2 (ix8 b c1 c2 c3 c4 c5 c6 c7) = val_main_v78 (F := F) x0 x2 (ix8 b c3 c4 c1 c2 c5 c6 c7) := by
  rw [val_main_v79_apply, idx79]

theorem v88_ix8 (x0 : (⟨S131072x7, .f32⟩ : BufTy).Contents (Elt F)) (x2 : (⟨S7, .f32⟩ : BufTy).Contents (Elt F)) (b : Fin 131072) (c1 c2 c3 c4 c5 c6 c7 : Fin 2) :
    val_main_v88 (F := F) x0 x2 (ix8 b c1 c2 c3 c4 c5 c6 c7) = val_main_v87 (F := F) x0 x2 (ix8 b c3 c4 c1 c2 c5 c6 c7) := by
  rw [val_main_v88_apply, idx88]

theorem v89_ix8 (x0 : (⟨S131072x7, .f32⟩ : BufTy).Contents (Elt F)) (x2 : (⟨S7, .f32⟩ : BufTy).Contents (Elt F)) (b : Fin 131072) (c1 c2 c3 c4 c5 c6 c7 : Fin 2) :
    val_main_v89 (F := F) x0 x2 (ix8 b c1 c2 c3 c4 c5 c6 c7) = val_main_v88 (F := F) x0 x2 (ix8 b c3 c4 c5 c1 c2 c6 c7) := by
  rw [val_main_v89_apply, idx89]

theorem v98_ix8 (x0 : (⟨S131072x7, .f32⟩ : BufTy).Contents (Elt F)) (x2 : (⟨S7, .f32⟩ : BufTy).Contents (Elt F)) (b : Fin 131072) (c1 c2 c3 c4 c5 c6 c7 : Fin 2) :
    val_main_v98 (F := F) x0 x2 (ix8 b c1 c2 c3 c4 c5 c6 c7) = val_main_v97 (F := F) x0 x2 (ix8 b c4 c5 c1 c2 c3 c6 c7) := by
  rw [val_main_v98_apply, idx98]

theorem v99_ix8 (x0 : (⟨S131072x7, .f32⟩ : BufTy).Contents (Elt F)) (x2 : (⟨S7, .f32⟩ : BufTy).Contents (Elt F)) (b : Fin 131072) (c1 c2 c3 c4 c5 c6 c7 : Fin 2) :
    val_main_v99 (F := F) x0 x2 (ix8 b c1 c2 c3 c4 c5 c6 c7) = val_main_v98 (F := F) x0 x2 (ix8 b c3 c4 c5 c6 c1 c2 c7) := by
  rw [val_main_v99_apply, idx99]

theorem v108_ix8 (x0 : (⟨S131072x7, .f32⟩ : BufTy).Contents (Elt F)) (x2 : (⟨S7, .f32⟩ : BufTy).Contents (Elt F)) (b : Fin 131072) (c1 c2 c3 c4 c5 c6 c7 : Fin 2) :
    val_main_v108 (F := F) x0 x2 (ix8 b c1 c2 c3 c4 c5 c6 c7) = val_main_v107 (F := F) x0 x2 (ix8 b c5 c6 c1 c2 c3 c4 c7) := by
  rw [val_main_v108_apply, idx108]

theorem v109_ix8 (x0 : (⟨S131072x7, .f32⟩ : BufTy).Contents (Elt F)) (x2 : (⟨S7, .f32⟩ : BufTy).Contents (Elt F)) (b : Fin 131072) (c1 c2 c3 c4 c5 c6 c7 : Fin 2) :
    val_main_v109 (F := F) x0 x2 (ix8 b c1 c2 c3 c4 c5 c6 c7) = val_main_v108 (F := F) x0 x2 (ix8 b c3 c4 c5 c6 c7 c1 c2) := by
  rw [val_main_v109_apply, idx109]

theorem v118_ix8 (x0 : (⟨S131072x7, .f32⟩ : BufTy).Contents (Elt F)) (x2 : (⟨S7, .f32⟩ : BufTy).Contents (Elt F)) (b : Fin 131072) (c1 c2 c3 c4 c5 c6 c7 : Fin 2) :
    val_main_v118 (F := F) x0 x2 (ix8 b c1 c2 c3 c4 c5 c6 c7) = val_main_v117 (F := F) x0 x2 (ix8 b c6 c7 c1 c2 c3 c4 c5) := by
  rw [val_main_v118_apply, idx118]

theorem v119_ix8 (x0 : (⟨S131072x7, .f32⟩ : BufTy).Contents (Elt F)) (x2 : (⟨S7, .f32⟩ : BufTy).Contents (Elt F)) (b : Fin 131072) (c1 c2 c3 c4 c5 c6 c7 : Fin 2) :
    val_main_v119 (F := F) x0 x2 (ix8 b c1 c2 c3 c4 c5 c6 c7) = val_main_v118 (F := F) x0 x2 (ix8 b c2 c3 c4 c5 c6 c7 c1) := by
  rw [val_main_v119_apply, idx119]

theorem v128_ix8 (x0 : (⟨S131072x7, .f32⟩ : BufTy).Contents (Elt F)) (x2 : (⟨S7, .f32⟩ : BufTy).Contents (Elt F)) (b : Fin 131072) (c1 c2 c3 c4 c5 c6 c7 : Fin 2) :
    val_main_v128 (F := F) x0 x2 (ix8 b c1 c2 c3 c4 c5 c6 c7) = val_main_v127 (F := F) x0 x2 (ix8 b c7 c1 c2 c3 c4 c5 c6) := by
  rw [val_main_v128_apply, idx128]

theorem v68_ix8 (x0 : (⟨S131072x7, .f32⟩ : BufTy).Contents (Elt F)) (x2 : (⟨S7, .f32⟩ : BufTy).Contents (Elt F)) (b : Fin 131072) (c1 c2 c3 c4 c5 c6 c7 : Fin 2) :
    val_main_v68 (F := F) x0 x2 (ix8 b c1 c2 c3 c4 c5 c6 c7) = val_main_v60 (F := F) x0 x2 (ix8 b c1 (c2 + c1) c3 c4 c5 c6 c7) := by
  rw [show val_main_v68 (F := F) x0 x2 = core (val_main_v60 (F := F) x0 x2) from rfl, core_apply]

theorem v77_ix8 (x0 : (⟨S131072x7, .f32⟩ : BufTy).Contents (Elt F)) (x2 : (⟨S7, .f32⟩ : BufTy).Contents (Elt F)) (b : Fin 131072) (c1 c2 c3 c4 c5 c6 c7 : Fin 2) :
    val_main_v77 (F := F) x0 x2 (ix8 b c1 c2 c3 c4 c5 c6 c7) = val_main_v69 (F := F) x0 x2 (ix8 b c1 (c2 + c1) c3 c4 c5 c6 c7) := by
  rw [show val_main_v77 (F := F) x0 x2 = core (val_main_v69 (F := F) x0 x2) from rfl, core_apply]

theorem v87_ix8 (x0 : (⟨S131072x7, .f32⟩ : BufTy).Contents (Elt F)) (x2 : (⟨S7, .f32⟩ : BufTy).Contents (Elt F)) (b : Fin 131072) (c1 c2 c3 c4 c5 c6 c7 : Fin 2) :
    val_main_v87 (F := F) x0 x2 (ix8 b c1 c2 c3 c4 c5 c6 c7) = val_main_v79 (F := F) x0 x2 (ix8 b c1 (c2 + c1) c3 c4 c5 c6 c7) := by
  rw [show val_main_v87 (F := F) x0 x2 = core (val_main_v79 (F := F) x0 x2) from rfl, core_apply]

theorem v97_ix8 (x0 : (⟨S131072x7, .f32⟩ : BufTy).Contents (Elt F)) (x2 : (⟨S7, .f32⟩ : BufTy).Contents (Elt F)) (b : Fin 131072) (c1 c2 c3 c4 c5 c6 c7 : Fin 2) :
    val_main_v97 (F := F) x0 x2 (ix8 b c1 c2 c3 c4 c5 c6 c7) = val_main_v89 (F := F) x0 x2 (ix8 b c1 (c2 + c1) c3 c4 c5 c6 c7) := by
  rw [show val_main_v97 (F := F) x0 x2 = core (val_main_v89 (F := F) x0 x2) from rfl, core_apply]

theorem v107_ix8 (x0 : (⟨S131072x7, .f32⟩ : BufTy).Contents (Elt F)) (x2 : (⟨S7, .f32⟩ : BufTy).Contents (Elt F)) (b : Fin 131072) (c1 c2 c3 c4 c5 c6 c7 : Fin 2) :
    val_main_v107 (F := F) x0 x2 (ix8 b c1 c2 c3 c4 c5 c6 c7) = val_main_v99 (F := F) x0 x2 (ix8 b c1 (c2 + c1) c3 c4 c5 c6 c7) := by
  rw [show val_main_v107 (F := F) x0 x2 = core (val_main_v99 (F := F) x0 x2) from rfl, core_apply]

theorem v117_ix8 (x0 : (⟨S131072x7, .f32⟩ : BufTy).Contents (Elt F)) (x2 : (⟨S7, .f32⟩ : BufTy).Contents (Elt F)) (b : Fin 131072) (c1 c2 c3 c4 c5 c6 c7 : Fin 2) :
    val_main_v117 (F := F) x0 x2 (ix8 b c1 c2 c3 c4 c5 c6 c7) = val_main_v109 (F := F) x0 x2 (ix8 b c1 (c2 + c1) c3 c4 c5 c6 c7) := by
  rw [show val_main_v117 (F := F) x0 x2 = core (val_main_v109 (F := F) x0 x2) from rfl, core_apply]

theorem v127_ix8 (x0 : (⟨S131072x7, .f32⟩ : BufTy).Contents (Elt F)) (x2 : (⟨S7, .f32⟩ : BufTy).Contents (Elt F)) (b : Fin 131072) (c1 c2 c3 c4 c5 c6 c7 : Fin 2) :
    val_main_v127 (F := F) x0 x2 (ix8 b c1 c2 c3 c4 c5 c6 c7) = val_main_v119 (F := F) x0 x2 (ix8 b c1 (c2 + c1) c3 c4 c5 c6 c7) := by
  rw [show val_main_v127 (F := F) x0 x2 = core (val_main_v119 (F := F) x0 x2) from rfl, core_apply]

/-- The first array of the ring is the row of 128 amplitudes with its position written in binary, wire 0 first. -/
theorem v60_ix8 (x0 : (⟨S131072x7, .f32⟩ : BufTy).Contents (Elt F)) (x2 : (⟨S7, .f32⟩ : BufTy).Contents (Elt F)) (b : Fin 131072) (k0 k1 k2 k3 k4 k5 k6 : Fin 2) :
    val_main_v60 (F := F) x0 x2 (ix8 b k0 k1 k2 k3 k4 k5 k6)
      = val_main_v59 (F := F) x0 x2 (ix2 b ⟨64 * k0.val + 32 * k1.val + 16 * k2.val + 8 * k3.val + 4 * k4.val + 2 * k5.val + k6.val, by
          have := k0.isLt; have := k1.isLt; have := k2.isLt; have := k3.isLt; have := k4.isLt; have := k5.isLt; have := k6.isLt; omega⟩) := by
  unfold val_main_v60
  refine shapeCast_apply _ shapeCasts_S131072x128_S131072x2x2x2x2x2x2x2 _ _ ?_
  rw [Shape.rowMajor_val_two, rowMajor_val_eight]
  show b.val * 128 + (64 * k0.val + 32 * k1.val + 16 * k2.val + 8 * k3.val + 4 * k4.val + 2 * k5.val + k6.val)
    = ((((((b.val * 2 + k0.val) * 2 + k1.val) * 2 + k2.val) * 2 + k3.val) * 2 + k4.val) * 2 + k5.val) * 2 + k6.val
  omega

/-- The binary digit of `l` at the place of weight `s`. -/
def bit (l : Fin 64) (s : Nat) : Fin 2 := ⟨l.val / s % 2, Nat.mod_lt _ (by decide)⟩

/-- The last array of the ring is its [2, 64] view with the second coordinate written in binary. -/
theorem v129_ix3 (x0 : (⟨S131072x7, .f32⟩ : BufTy).Contents (Elt F)) (x2 : (⟨S7, .f32⟩ : BufTy).Contents (Elt F)) (b : Fin 131072) (h : Fin 2) (l : Fin 64) :
    val_main_v129 (F := F) x0 x2 (ix3 b h l)
      = val_main_v128 (F := F) x0 x2 (ix8 b h (bit l 32) (bit l 16) (bit l 8) (bit l 4) (bit l 2) (bit l 1)) := by
  unfold val_main_v129
  refine shapeCast_apply _ shapeCasts_S131072x2x2x2x2x2x2x2_S131072x2x64 _ _ ?_
  rw [rowMajor_val_eight, Shape.rowMajor_val_three]
  have := l.isLt
  show ((((((b.val * 2 + h.val) * 2 + l.val / 32 % 2) * 2 + l.val / 16 % 2) * 2 + l.val / 8 % 2) * 2 + l.val / 4 % 2) * 2
      + l.val / 2 % 2) * 2 + l.val / 1 % 2 = (b.val * 2 + h.val) * 64 + l.val
  omega

end

/-- The ring of controlled-NOT gates is the re-indexing `sigma` of a row's amplitudes. -/
theorem ref_ring {F : FTy → Type} [FloatOps F] (x0 : (⟨S131072x7, .f32⟩ : BufTy).Contents (Elt F)) (x2 : (⟨S7, .f32⟩ : BufTy).Contents (Elt F))
    (b : Fin 131072) (h : Fin 2) (l : Fin 64) :
    val_main_v129 (F := F) x0 x2 (ix3 b h l) = val_main_v59 (F := F) x0 x2 (ix2 b (sigma h l)) := by
  rw [v129_ix3, v128_ix8, v127_ix8, v119_ix8, v118_ix8, v117_ix8, v109_ix8, v108_ix8, v107_ix8, v99_ix8, v98_ix8, v97_ix8,
    v89_ix8, v88_ix8, v87_ix8, v79_ix8, v78_ix8, v77_ix8, v69_ix8, v68_ix8, v60_ix8]
  refine congrArg (fun j => val_main_v59 (F := F) x0 x2 (ix2 b j)) (Fin.ext ?_)
  revert h l
  decide

end Cert.RefRing
end
-- ==== Proof.RefG.lean ====
/-
  The reference computes the specification.

  Its network is the specification's network on its own expectation value. That value is the sum of the squares of the
  amplitudes found on wire 0 = 0 after the ring of controlled-NOT gates minus the sum of those found on wire 0 = 1.
  The ring only re-indexes the product state (position (h, l) holds the amplitude that stood at sigma h l), the product
  state is the specification's, and for real amplitudes the difference of the two half-sums is the signed sum of all 128
  squares: each position is reached once, with sign +1 exactly when h = 0.
-/
import proofs.«129862_j9509057593682_1_alg».proof.Proof.Spec
import proofs.«129862_j9509057593682_1_alg».proof.Proof.RefRead
import proofs.«129862_j9509057593682_1_alg».proof.Proof.RefMlp
import proofs.«129862_j9509057593682_1_alg».proof.Proof.RefState
import proofs.«129862_j9509057593682_1_alg».proof.Proof.RefRing
import proofs.«129862_j9509057593682_1_alg».proof.Proof.QMath
import Idealize.ShloMosaic.Lib.ValueIdx

noncomputable section

namespace Cert.RefG

open Idealize.ShloMosaic Idealize.ShloMosaic.ValueIdx Cert.QSpec Cert.ReferenceIdeal Cert.ReferenceIdeal.ReadP

/-- Under real angles and parameters the reference's result is the specification, row by row: its network is the
    specification's on the reference's own expectation; that expectation is the two half-sums of squares of the state
    after the ring; the ring re-indexes the product state by `sigma`; the product state is the specification's; and
    on real amplitudes the two half-sums' difference is the signed sum. -/
theorem ref_is_G (x0 : (⟨S131072x7, .f32⟩ : BufTy).Contents (Elt Ideal)) (x1 : (⟨S131072x64, .f32⟩ : BufTy).Contents (Elt Ideal)) (x2 : (⟨S7, .f32⟩ : BufTy).Contents (Elt Ideal))
    (x3 : (⟨S65x32, .f32⟩ : BufTy).Contents (Elt Ideal)) (x4 : (⟨S32, .f32⟩ : BufTy).Contents (Elt Ideal)) (x5 : (⟨S32x16, .f32⟩ : BufTy).Contents (Elt Ideal))
    (x6 : (⟨S16, .f32⟩ : BufTy).Contents (Elt Ideal)) (x7 : (⟨S16x1, .f32⟩ : BufTy).Contents (Elt Ideal)) (x8 : (⟨S1, .f32⟩ : BufTy).Contents (Elt Ideal))
    (hx0 : ∀ i, ∃ r : ℝ, x0 i = (r : EReal)) (hx2 : ∀ i, ∃ r : ℝ, x2 i = (r : EReal)) :
    val_main_v154 (F := Ideal) x0 x1 x2 x3 x4 x5 x6 x7 x8 = G x0 x1 x2 x3 x4 x5 x6 x7 x8 := by
  funext i
  obtain ⟨b, rfl⟩ : ∃ b : Fin 131072, i = ix1 b := ⟨i 0, eq_ix1 i⟩
  have hreal : ∀ j, ∃ r : ℝ, rowState x0 x2 b j = (r : EReal) := fun j =>
    Cert.QMath.state7_real _ (fun q e => by
      obtain ⟨r, hr⟩ := hx0 (ix2 b q)
      obtain ⟨p, hp⟩ := hx2 (ix1 q)
      rw [hr, hp]
      exact Cert.QMath.amp_real r p e) j
  have hq : val_main_v137 (F := Ideal) x0 x2 (ix1 b) = qval (rowState x0 x2 b) := by
    rw [Cert.RefTail.ref_q x0 x2 b]
    simp only [Cert.RefRing.ref_ring (F := Ideal) x0 x2 b, Cert.RefState.ref_state x0 x2 b]
    exact Cert.QMath.q_identity (rowState x0 x2 b) hreal
  rw [Cert.RefTail.ref_mlp x0 x1 x2 x3 x4 x5 x6 x7 x8 b, hq]
  rfl

end Cert.RefG

end
-- ==== Proof.lean ====
/-
  The certificate: a Pallas kernel that evaluates, per row, the expectation of Z on wire 0 of a seven-wire product state
  after a ring of controlled-NOT gates and feeds it with 64 further features through a dense network 65 -> 32 -> 16 -> 1,
  against a jnp reference that builds the state, applies the ring as array permutations and sums the two halves.

  The kernel never applies the ring: it multiplies the squared amplitudes of the product state by a constant row of 128
  signs and sums. The two agree because the ring permutes amplitudes, so the reference's difference of half-sums is the
  signed sum over the positions the amplitudes came from. Over the extended reals that needs the amplitudes to be real
  numbers, which the precondition gives (the angles and the parameters are finite, and cosine and sine of a real are real).
  Both programs end at one function of the arguments (Spec.lean's G): the kernel by its blocks (KerArray.lean), the
  reference stage by stage (RefG.lean). The idealization rewrote nothing, so `preserves` is trivial.
-/
import proofs.«129862_j9509057593682_1_alg».proof.Defs
import proofs.«129862_j9509057593682_1_alg».proof.Proof.Gen.Kernel
import proofs.«129862_j9509057593682_1_alg».proof.Proof.Gen.Kernel.Skeleton
import proofs.«129862_j9509057593682_1_alg».proof.Proof.Gen.Kernel.Launch
import proofs.«129862_j9509057593682_1_alg».proof.Proof.Gen.Kernel.Points
import proofs.«129862_j9509057593682_1_alg».proof.Proof.Gen.Kernel.Frame
import proofs.«129862_j9509057593682_1_alg».proof.Proof.Gen.KernelIdeal
import proofs.«129862_j9509057593682_1_alg».proof.Proof.Gen.KernelIdeal.Skeleton
import proofs.«129862_j9509057593682_1_alg».proof.Proof.Gen.KernelIdeal.Launch
import proofs.«129862_j9509057593682_1_alg».proof.Proof.Gen.KernelIdeal.Points
import proofs.«129862_j9509057593682_1_alg».proof.Proof.Gen.KernelIdeal.Frame
import proofs.«129862_j9509057593682_1_alg».proof.Proof.Gen.ReferenceIdeal
import proofs.«129862_j9509057593682_1_alg».proof.Proof.Gen.Pre_finite_inputs
import proofs.«129862_j9509057593682_1_alg».proof.Proof.Finite
import proofs.«129862_j9509057593682_1_alg».proof.Proof.KerArray
import proofs.«129862_j9509057593682_1_alg».proof.Proof.RefRun
import proofs.«129862_j9509057593682_1_alg».proof.Proof.RefG
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- Both runs end at the specification of the (agreeing) arguments. -/
theorem algebraic : Cert.algebraic_KernelIdeal_ReferenceIdeal := by
  intro m ρ m' ρ' hpre hagree
  refine ⟨_, Cert.KernelIdeal.HValue.run m ρ, ?_⟩
  refine (θ_run Cert.ReferenceIdeal.defs _ _).mono (fun _ h c => ⟨(h c).1.trans ?_, (h c).2⟩)
    (Cert.ReferenceIdeal.RunP.run (F := Ideal) m' ρ')
  obtain ⟨e0, e1, e2, e3, e4, e5, e6, e7, e8⟩ := hagree c
  rw [e0, e1, e2, e3, e4, e5, e6, e7, e8]
  obtain ⟨hx0, hx2⟩ := Cert.Finite.reals_of_pre _ _ _ _ _ _ _ _ _ (hpre c)
  exact Cert.RefG.ref_is_G _ _ _ _ _ _ _ _ _ hx0 hx2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
